-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S100000x2 : Shape := ⟨2, ![100000, 2]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  bcast_S_S100000x2 : S_.BroadcastsInDim S100000x2 (![] : Fin 0 → Fin S100000x2.rank)
  reducesTo_S100000x2_S_d0_1 : S100000x2.ReducesTo [0, 1] S_

variable [Facts]

def fn_part4 {F : FTy → Type} [FloatOps F] (main_arg2 : IVec S100000x2 32) (main_v63 : IVec S_ 1) (main_v67 : IVec S800000 1) (main_v68 : IVec S1x800000 32) : IVec S_ 1 :=
  let main_v69 : IVec S800000 32 := shapeCast S800000 main_v68 shapeCasts_S1x800000_S800000
  let main_c_25 : IVec S_ 32 := constantI S_ 32 50000#32
  let main_v70 : IVec S800000 32 := broadcastInDim S800000 ![] bcast_S_S800000 main_c_25
  let main_v71 : IVec S800000 1 := cmpi .slt main_v69 main_v70
  let main_v72 : IVec S800000 1 := andi main_v67 main_v71
  let main_c_26 : IVec S_ 1 := constantI S_ 1 1#1
  let main_v73 : IVec S_ 1 := (fun x v => Host.reduce IntOp.andi x v reducesTo_S800000_S_d0 h_S_) main_v72 main_c_26
  let main_v74 : IVec S_ 1 := andi main_v63 main_v73
  let main_c_27 : IVec S_ 32 := constantI S_ 32 4294917296#32
  let main_v75 : IVec S100000x2 32 := broadcastInDim S100000x2 ![] bcast_S_S100000x2 main_c_27
  let main_v76 : IVec S100000x2 1 := cmpi .sge main_arg2 main_v75
  let main_c_28 : IVec S_ 32 := constantI S_ 32 50000#32
  let main_v77 : IVec S100000x2 32 := broadcastInDim S100000x2 ![] bcast_S_S100000x2 main_c_28
  let main_v78 : IVec S100000x2 1 := cmpi .slt main_arg2 main_v77
  let main_v79 : IVec S100000x2 1 := andi main_v76 main_v78
  let main_c_29 : IVec S_ 1 := constantI S_ 1 1#1
  let main_v80 : IVec S_ 1 := (fun x v => Host.reduce IntOp.andi x v reducesTo_S100000x2_S_d0_1 h_S_) main_v79 main_c_29
  let main_v81 : IVec S_ 1 := andi main_v74 main_v80
  main_v81

def fn_part3 {F : FTy → Type} [FloatOps F] (main_arg1 : IVec S2x800000 32) (main_arg2 : IVec S100000x2 32) (main_arg13 : FVec F S128x2 .f32) (main_arg14 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x2 .f32 := Host.absf main_arg13
  let main_cst_20 : FVec F S_ .f32 := constant S_ .f32 0x7F800000#32
  let main_v55 : FVec F S128x2 .f32 := broadcastInDim S128x2 ![] bcast_S_S128x2 main_cst_20
  let main_v56 : IVec S128x2 1 := cmpf .olt main_v54 main_v55
  let main_c_21 : IVec S_ 1 := constantI S_ 1 1#1
  let main_v57 : IVec S_ 1 := (fun x v => Host.reduce IntOp.andi x v reducesTo_S128x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : IVec S1x800000 32 := (extractStridedSlice S1x800000 ![0, 0] · slices_S2x800000_S1x800000_0_0) main_arg1
  let main_v65 : IVec S800000 32 := shapeCast S800000 main_v64 shapeCasts_S1x800000_S800000
  let main_c_24 : IVec S_ 32 := constantI S_ 32 4294917296#32
  let main_v66 : IVec S800000 32 := broadcastInDim S800000 ![] bcast_S_S800000 main_c_24
  let main_v67 : IVec S800000 1 := cmpi .sge main_v65 main_v66
  let main_v68 : IVec S1x800000 32 := (extractStridedSlice S1x800000 ![0, 0] · slices_S2x800000_S1x800000_0_0) main_arg1
  fn_part4 (F := F) main_arg2 main_v63 main_v67 main_v68

def fn_part2 {F : FTy → Type} [FloatOps F] (main_arg1 : IVec S2x800000 32) (main_arg2 : IVec S100000x2 32) (main_arg9 : FVec F S128x128 .f32) (main_arg10 : FVec F S128 .f32) (main_arg11 : FVec F S128x128 .f32) (main_arg12 : FVec F S128 .f32) (main_arg13 : FVec F S128x2 .f32) (main_arg14 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg2 main_arg13 main_arg14 main_v48 main_v49 main_v50

def fn_part1 {F : FTy → Type} [FloatOps F] (main_arg1 : IVec S2x800000 32) (main_arg2 : IVec S100000x2 32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x2 .f32) (main_arg14 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_arg11 main_arg12 main_arg13 main_arg14 main_v33

def fn {F : FTy → Type} [FloatOps F] (main_arg0 : FVec F S50000x128 .f32) (main_arg1 : IVec S2x800000 32) (main_arg2 : IVec S100000x2 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x2 .f32) (main_arg14 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S100000x2 : Shape := ⟨2, ![100000, 2]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S100000x1 : Shape := ⟨2, ![100000, 1]⟩
abbrev S100000 : Shape := ⟨1, ![100000]⟩
abbrev S100000x128 : Shape := ⟨2, ![100000, 128]⟩
abbrev S1x2 : Shape := ⟨2, ![1, 2]⟩
abbrev S2000x128 : Shape := ⟨2, ![2000, 128]⟩
abbrev S2000x2 : Shape := ⟨2, ![2000, 2]⟩
abbrev S2000 : Shape := ⟨1, ![2000]⟩
abbrev S2000x1 : Shape := ⟨2, ![2000, 1]⟩
abbrev S1x100000x2 : Shape := ⟨3, ![1, 100000, 2]⟩

abbrev nBuf : Space → Nat
  | .hbm => 163
  | .vmem => 32
  | .smem => 0
  | _ => 0

abbrev hbmTy0_0 (i : Nat) : BufTy := match i % 128 with
  | 0 => ⟨S50000x128, .f32⟩
  | 1 => ⟨S2x800000, .i32⟩
  | 2 => ⟨S100000x2, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x2, .f32⟩
  | 14 => ⟨S2, .f32⟩
  | 15 => ⟨S1x800000, .i32⟩
  | 16 => ⟨S800000, .i32⟩
  | 17 => ⟨S1x800000, .i32⟩
  | 18 => ⟨S800000, .i32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x128, .f32⟩
  | 39 => ⟨S800000x128, .i1⟩
  | 40 => ⟨S_, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S1x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S1, .i32⟩
  | 58 => ⟨S_, .i32⟩
  | 59 => ⟨S800000x1, .i32⟩
  | 60 => ⟨S800000x1, .i1⟩
  | 61 => ⟨S1x1, .i32⟩
  | 62 => ⟨S800000x1, .i32⟩
  | 63 => ⟨S800000x1, .i1⟩
  | 64 => ⟨S800000x1, .i1⟩
  | 65 => ⟨S_, .i1⟩
  | 66 => ⟨S800000, .i1⟩
  | 67 => ⟨S800000x128, .f32⟩
  | 68 => ⟨S800000x128, .i1⟩
  | 69 => ⟨S_, .f32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S1x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x128, .f32⟩
  | 97 => ⟨S800000x128, .i1⟩
  | 98 => ⟨S_, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S1x128, .f32⟩
  | 106 => ⟨S50000x128, .f32⟩
  | 107 => ⟨S100000x1, .i32⟩
  | 108 => ⟨S100000, .i32⟩
  | 109 => ⟨S100000x1, .i32⟩
  | 110 => ⟨S100000, .i32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S1, .i32⟩
  | 120 => ⟨S_, .i32⟩
  | 121 => ⟨S100000x1, .i32⟩
  | 122 => ⟨S100000x1, .i1⟩
  | 123 => ⟨S1x1, .i32⟩
  | 124 => ⟨S100000x1, .i32⟩
  | 125 => ⟨S100000x1, .i1⟩
  | 126 => ⟨S100000x1, .i1⟩
  | 127 => ⟨S_, .i1⟩
  | _ => ⟨S50000x128, .f32⟩

abbrev hbmTy0_1 (i : Nat) : BufTy := match i % 128 with
  | 0 => ⟨S100000, .i1⟩
  | 1 => ⟨S100000x128, .f32⟩
  | 2 => ⟨S100000x128, .i1⟩
  | 3 => ⟨S_, .f32⟩
  | 4 => ⟨S100000x128, .f32⟩
  | 5 => ⟨S100000x128, .f32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S1, .i32⟩
  | 15 => ⟨S_, .i32⟩
  | 16 => ⟨S100000x1, .i32⟩
  | 17 => ⟨S100000x1, .i1⟩
  | 18 => ⟨S1x1, .i32⟩
  | 19 => ⟨S100000x1, .i32⟩
  | 20 => ⟨S100000x1, .i1⟩
  | 21 => ⟨S100000x1, .i1⟩
  | 22 => ⟨S_, .i1⟩
  | 23 => ⟨S100000, .i1⟩
  | 24 => ⟨S100000x128, .f32⟩
  | 25 => ⟨S100000x128, .i1⟩
  | 26 => ⟨S_, .f32⟩
  | 27 => ⟨S100000x128, .f32⟩
  | 28 => ⟨S100000x128, .f32⟩
  | 29 => ⟨S100000x128, .f32⟩
  | 30 => ⟨S1x128, .f32⟩
  | 31 => ⟨S1x128, .f32⟩
  | 32 => ⟨S1x2, .f32⟩
  | 33 => ⟨S100000x2, .f32⟩
  | 34 => ⟨S1x100000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x2, .f32⟩
  | .local _ .vmem, ⟨29, _⟩ => ⟨S1x2, .f32⟩
  | .local _ .vmem, ⟨30, _⟩ => ⟨S2000x2, .f32⟩
  | .local _ .vmem, ⟨31, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v5 : Ref sig .tc := ⟨.hbm, 42, rfl⟩
abbrev main_cst : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v11 : Ref sig .tc := ⟨.hbm, 71, rfl⟩
abbrev main_cst_0 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v17 : Ref sig .tc := ⟨.hbm, 100, rfl⟩
abbrev main_cst_1 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_call3_c : Ref sig .tc := ⟨.hbm, 111, rfl⟩
abbrev main_call3_v0 : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_c_1 : Ref sig .tc := ⟨.hbm, 119, rfl⟩
abbrev main_call3_c_2 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_3 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_call3_cst : Ref sig .tc := ⟨.hbm, 131, rfl⟩
abbrev main_call3_v15 : Ref sig .tc := ⟨.hbm, 132, rfl⟩
abbrev main_v27 : Ref sig .tc := ⟨.hbm, 133, rfl⟩
abbrev main_call4_c : Ref sig .tc := ⟨.hbm, 134, rfl⟩
abbrev main_call4_v0 : Ref sig .tc := ⟨.hbm, 135, rfl⟩
abbrev main_call4_v1 : Ref sig .tc := ⟨.hbm, 136, rfl⟩
abbrev main_call4_c_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_c_1 : Ref sig .tc := ⟨.hbm, 142, rfl⟩
abbrev main_call4_c_2 : Ref sig .tc := ⟨.hbm, 143, rfl⟩
abbrev main_call4_v6 : Ref sig .tc := ⟨.hbm, 144, rfl⟩
abbrev main_call4_v7 : Ref sig .tc := ⟨.hbm, 145, rfl⟩
abbrev main_call4_v8 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_c_3 : Ref sig .tc := ⟨.hbm, 150, rfl⟩
abbrev main_call4_v12 : Ref sig .tc := ⟨.hbm, 151, rfl⟩
abbrev main_call4_v13 : Ref sig .tc := ⟨.hbm, 152, rfl⟩
abbrev main_call4_v14 : Ref sig .tc := ⟨.hbm, 153, rfl⟩
abbrev main_call4_cst : Ref sig .tc := ⟨.hbm, 154, rfl⟩
abbrev main_call4_v15 : Ref sig .tc := ⟨.hbm, 155, rfl⟩
abbrev main_v28 : Ref sig .tc := ⟨.hbm, 156, rfl⟩
abbrev main_v29 : Ref sig .tc := ⟨.hbm, 157, rfl⟩
abbrev main_v30 : Ref sig .tc := ⟨.hbm, 158, rfl⟩
abbrev main_v31 : Ref sig .tc := ⟨.hbm, 159, rfl⟩
abbrev main_v32 : Ref sig .tc := ⟨.hbm, 160, rfl⟩
abbrev main_v33 : Ref sig .tc := ⟨.hbm, 161, rfl⟩
abbrev main_v34 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg6_0 : Ref sig .tc := ⟨.vmem, 29, rfl⟩
abbrev cc4_stg7_0 : Ref sig .tc := ⟨.vmem, 30, rfl⟩
abbrev cc4_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem6_0 : DmaSem sig := 29
abbrev cc4_sem7_0 : DmaSem sig := 30
abbrev cc4_sem7_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x2 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x128_0 : S100000.BroadcastsInDim S100000x128 (![0] : Fin 1 → Fin S100000x128.rank)
  bcast_S_S100000x128 : S_.BroadcastsInDim S100000x128 (![] : Fin 0 → Fin S100000x128.rank)
  shapeCasts_S2_S1x2 : S2.ShapeCasts S1x2
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  bcast_S100000x2_S1x100000x2_1_2 : S100000x2.BroadcastsInDim S1x100000x2 (![1, 2] : Fin 2 → Fin S1x100000x2.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S100000x1_S100000x128_1_0_n_n_0_1_1128_wf : GatherDims.WF S50000x128 S100000x1 S100000x128 [1] [0] [] [0] [] 1 ![1, 128]
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x2.size a ≤ S128x2.size a
  hwx4_5 : ∀ i : grid4.Coords, EltTy.bits .f32 = 32 ∨ (Rect.block (s := S128x2) S128x2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x2.size a ≤ S1x2.size a
  hwx4_6 : ∀ i : grid4.Coords, EltTy.bits .f32 = 32 ∨ (Rect.block (s := S1x2) S1x2.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x2.size a ≤ S100000x2.size a
  hwx4_7 : ∀ i : grid4.Coords, EltTy.bits .f32 = 32 ∨ (Rect.block (s := S100000x2) S2000x2.size (cc4_transform_7 i) (hinb4_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v29) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v31) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S128x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v32) S1x2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v33) S2000x2.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S100000x2 : Shape := ⟨2, ![100000, 2]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S100000x1 : Shape := ⟨2, ![100000, 1]⟩
abbrev S100000 : Shape := ⟨1, ![100000]⟩
abbrev S100000x128 : Shape := ⟨2, ![100000, 128]⟩
abbrev S1x2 : Shape := ⟨2, ![1, 2]⟩
abbrev S1x100000x2 : Shape := ⟨3, ![1, 100000, 2]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S2x800000, .i32⟩
  | 2 => ⟨S100000x2, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x2, .f32⟩
  | 14 => ⟨S2, .f32⟩
  | 15 => ⟨S50000x128, .f32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S1x800000, .i32⟩
  | 28 => ⟨S800000, .i32⟩
  | 29 => ⟨S_, .f32⟩
  | 30 => ⟨S50000x128, .f32⟩
  | 31 => ⟨S800000x1, .i32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S1x800000, .i32⟩
  | 41 => ⟨S800000, .i32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S1x800000, .i32⟩
  | 52 => ⟨S800000, .i32⟩
  | 53 => ⟨S_, .f32⟩
  | 54 => ⟨S50000x128, .f32⟩
  | 55 => ⟨S800000x1, .i32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S1x800000, .i32⟩
  | 65 => ⟨S800000, .i32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S1x800000, .i32⟩
  | 76 => ⟨S800000, .i32⟩
  | 77 => ⟨S_, .f32⟩
  | 78 => ⟨S50000x128, .f32⟩
  | 79 => ⟨S800000x1, .i32⟩
  | 80 => ⟨S50000x128, .f32⟩
  | 81 => ⟨S1x128, .f32⟩
  | 82 => ⟨S50000x128, .f32⟩
  | 83 => ⟨S50000x128, .f32⟩
  | 84 => ⟨S100000x1, .i32⟩
  | 85 => ⟨S100000, .i32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000x128, .f32⟩
  | 95 => ⟨S100000x1, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x2, .f32⟩
  | 122 => ⟨S1x2, .f32⟩
  | 123 => ⟨S100000x2, .f32⟩
  | 124 => ⟨S100000x2, .f32⟩
  | 125 => ⟨S100000x2, .f32⟩
  | 126 => ⟨S_, .f32⟩
  | 127 => ⟨S100000, .f32⟩
  | _ => ⟨S50000x128, .f32⟩

abbrev hbmTy0_1 (i : Nat) : BufTy := match i % 128 with
  | 0 => ⟨S100000x1, .f32⟩
  | 1 => ⟨S100000x1, .f32⟩
  | 2 => ⟨S_, .f32⟩
  | 3 => ⟨S100000x1, .f32⟩
  | 4 => ⟨S100000x1, .f32⟩
  | 5 => ⟨S100000x2, .f32⟩
  | 6 => ⟨S100000x2, .f32⟩
  | 7 => ⟨S_, .f32⟩
  | 8 => ⟨S100000, .f32⟩
  | 9 => ⟨S_, .f32⟩
  | 10 => ⟨S100000, .f32⟩
  | 11 => ⟨S100000, .f32⟩
  | 12 => ⟨S100000x1, .f32⟩
  | 13 => ⟨S100000x2, .f32⟩
  | 14 => ⟨S100000x2, .f32⟩
  | 15 => ⟨S100000x2, .f32⟩
  | 16 => ⟨S_, .f32⟩
  | 17 => ⟨S100000, .f32⟩
  | 18 => ⟨S100000x1, .f32⟩
  | 19 => ⟨S100000x1, .f32⟩
  | 20 => ⟨S100000x2, .f32⟩
  | 21 => ⟨S100000x2, .f32⟩
  | 22 => ⟨S1x100000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call0_cst : Ref sig .tc := ⟨.hbm, 36, rfl⟩
abbrev main_call0_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_4 : Ref sig .tc := ⟨.hbm, 66, rfl⟩
abbrev main_v41 : Ref sig .tc := ⟨.hbm, 67, rfl⟩
abbrev main_v42 : Ref sig .tc := ⟨.hbm, 68, rfl⟩
abbrev main_c_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_7 : Ref sig .tc := ⟨.hbm, 86, rfl⟩
abbrev main_v58 : Ref sig .tc := ⟨.hbm, 87, rfl⟩
abbrev main_v59 : Ref sig .tc := ⟨.hbm, 88, rfl⟩
abbrev main_c_8 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_9 : Ref sig .tc := ⟨.hbm, 97, rfl⟩
abbrev main_v67 : Ref sig .tc := ⟨.hbm, 98, rfl⟩
abbrev main_v68 : Ref sig .tc := ⟨.hbm, 99, rfl⟩
abbrev main_c_10 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call2_cst : Ref sig .tc := ⟨.hbm, 111, rfl⟩
abbrev main_call2_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call3_cst : Ref sig .tc := ⟨.hbm, 118, rfl⟩
abbrev main_call3_v0 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call4_v0 : Ref sig .tc := ⟨.hbm, 125, rfl⟩
abbrev main_call4_cst : Ref sig .tc := ⟨.hbm, 126, rfl⟩
abbrev main_call4_v1 : Ref sig .tc := ⟨.hbm, 127, rfl⟩
abbrev main_call4_v2 : Ref sig .tc := ⟨.hbm, 128, rfl⟩
abbrev main_v89 : Ref sig .tc := ⟨.hbm, 129, rfl⟩
abbrev main_cst_11 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call5_cst : Ref sig .tc := ⟨.hbm, 135, rfl⟩
abbrev main_call5_v0 : Ref sig .tc := ⟨.hbm, 136, rfl⟩
abbrev main_call5_cst_0 : Ref sig .tc := ⟨.hbm, 137, rfl⟩
abbrev main_call5_v1 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_v6 : Ref sig .tc := ⟨.hbm, 143, rfl⟩
abbrev main_call5_cst_1 : Ref sig .tc := ⟨.hbm, 144, rfl⟩
abbrev main_call5_v7 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_v94 : Ref sig .tc := ⟨.hbm, 149, rfl⟩
abbrev main_v95 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S_S100000x1 : S_.BroadcastsInDim S100000x1 (![] : Fin 0 → Fin S100000x1.rank)
  bcast_S100000x1_S100000x2_0_1 : S100000x1.BroadcastsInDim S100000x2 (![0, 1] : Fin 2 → Fin S100000x2.rank)
  bcast_S100000x2_S1x100000x2_1_2 : S100000x2.BroadcastsInDim S1x100000x2 (![1, 2] : Fin 2 → Fin S1x100000x2.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S100000x1_S100000x128_1_0_n_n_0_1_1128_wf : GatherDims.WF S50000x128 S100000x1 S100000x128 [1] [0] [] [0] [] 1 ![1, 128]
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelOps.lean ====
/-
  The host operations between the regions of the idealized kernel program, named as functions: how a list
  of row numbers becomes gather start indices (a negative number counts from the end), when such a number is
  inside the table, the row gather that fills the rows whose number is outside with one fixed pattern, and the
  sum of gathered rows into their destination rows.
-/
import proofs.«403958_j78142634983506_1_alg».proof.KernelIdeal
import proofs.«403958_j78142634983506_1_alg».proof.Proof.Gen.KernelIdeal

noncomputable section

namespace Cert.KernelIdeal.Ops

open Cert.KernelIdeal Cert.KernelIdeal.Facts₀ Cert.KernelIdeal.Facts Idealize.ShloMosaic Idealize.ShloMosaic.TcCoe

variable {F : FTy → Type} [FloatOps F]

/-! ## Along the 800000 edges -/

/-- Row numbers as gather start indices: a negative number `i` stands for `i + 50000`. -/
def startsE (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per edge: is the start index a row of the table, `0 ≤ i ≤ 49999`? -/
def insideE (src : IVec S800000 32) : IVec S800000 1 :=
  Host.reduce IntOp.andi
    (andi (cmpi .sge (startsE src) (broadcastInDim S800000x1 ![] bcast_S_S800000x1 (constantI S_ 32 0#32)))
      (cmpi .sle (startsE src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The gathered rows, one per edge. -/
def rowsE (h : FVec F S50000x128 .f32) (src : IVec S800000 32) : FVec F S800000x128 .f32 :=
  Host.gather gather_S50000x128_S800000x1_S800000x128_1_0_n_n_0_1_1128 h (startsE src)

/-- The gathered rows, a row whose number is outside the table filled with one fixed pattern. -/
def takeE (h : FVec F S50000x128 .f32) (src : IVec S800000 32) : FVec F S800000x128 .f32 :=
  select (broadcastInDim S800000x128 ![0] bcast_S800000_S800000x128_0 (insideE src)) (rowsE h src)
    (broadcastInDim S800000x128 ![] bcast_S_S800000x128 (constant S_ .f32 0x7FC00000#32))

/-- The per-edge rows summed into their destination rows, from zero. -/
def sumE (rows : FVec F S800000x128 .f32) (dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) rows

/-! ## Along the 100000 queried pairs -/

/-- Row numbers as gather start indices: a negative number `i` stands for `i + 50000`. -/
def startsQ (ids : IVec S100000 32) : IVec S100000x1 32 :=
  broadcastInDim S100000x1 ![0] bcast_S100000_S100000x1_0
    (select (cmpi .slt ids (broadcastInDim S100000 ![] bcast_S_S100000 (constantI S_ 32 0#32)))
      (addi ids (broadcastInDim S100000 ![] bcast_S_S100000 (constantI S_ 32 50000#32))) ids)

/-- Per pair: is the start index a row of the table, `0 ≤ i ≤ 49999`? -/
def insideQ (ids : IVec S100000 32) : IVec S100000 1 :=
  Host.reduce IntOp.andi
    (andi (cmpi .sge (startsQ ids) (broadcastInDim S100000x1 ![] bcast_S_S100000x1 (constantI S_ 32 0#32)))
      (cmpi .sle (startsQ ids) (broadcastInDim S100000x1 ![0, 1] bcast_S1x1_S100000x1_0_1
        (broadcastInDim S1x1 ![1] bcast_S1_S1x1_1 (constantI S1 32 49999#32)))))
    (constantI S_ 1 1#1) reducesTo_S100000x1_S100000_d1 h_S_

/-- The gathered rows, one per pair. -/
def rowsQ (h : FVec F S50000x128 .f32) (ids : IVec S100000 32) : FVec F S100000x128 .f32 :=
  Host.gather gather_S50000x128_S100000x1_S100000x128_1_0_n_n_0_1_1128 h (startsQ ids)

/-- The gathered rows, a row whose number is outside the table filled with one fixed pattern. -/
def takeQ (h : FVec F S50000x128 .f32) (ids : IVec S100000 32) : FVec F S100000x128 .f32 :=
  select (broadcastInDim S100000x128 ![0] bcast_S100000_S100000x128_0 (insideQ ids)) (rowsQ h ids)
    (broadcastInDim S100000x128 ![] bcast_S_S100000x128 (constant S_ .f32 0x7FC00000#32))

end Cert.KernelIdeal.Ops

end
-- ==== Proof.Stretches.lean ====
/-
  The stretches of host operations between the regions of the idealized kernel program, each read back as a
  function of the buffers it starts from: from ANY contents `W` of the buffers, after the stretch the buffer it
  computes holds the stretch's operations applied to `W`'s values.  The edge list's two rows and the pair
  list's two columns are a slice and a reshape; a bias becomes a one-row array; the rows gathered along the
  edges are summed into their destination rows; the two gathered endpoint rows of each pair are multiplied;
  the scores get a leading axis of extent one.
-/
import proofs.«403958_j78142634983506_1_alg».proof.Proof.Gen.KernelIdeal.Launch
import proofs.«403958_j78142634983506_1_alg».proof.Proof.KernelOps
import Idealize.ShloMosaic.Lib.StableHlo.Run

set_option maxRecDepth 16384

noncomputable section

namespace Cert.KernelIdeal.Ops

open Cert.KernelIdeal Cert.KernelIdeal.Facts₀ Cert.KernelIdeal.Facts Idealize.ShloMosaic Idealize.ShloMosaic.TcCoe

variable {F : FTy → Type} [FloatOps F]

/-- The edge list's first row: each edge's source node. -/
def srcOf (adj : IVec S2x800000 32) : IVec S800000 32 :=
  shapeCast S800000 (extractStridedSlice S1x800000 ![0, 0] adj slices_S2x800000_S1x800000_0_0) shapeCasts_S1x800000_S800000

/-- The edge list's second row: each edge's destination node. -/
def dstOf (adj : IVec S2x800000 32) : IVec S800000 32 :=
  shapeCast S800000 (extractStridedSlice S1x800000 ![1, 0] adj slices_S2x800000_S1x800000_1_0) shapeCasts_S1x800000_S800000

/-- The pair list's first column. -/
def firstOf (q : IVec S100000x2 32) : IVec S100000 32 :=
  shapeCast S100000 (extractStridedSlice S100000x1 ![0, 0] q slices_S100000x2_S100000x1_0_0) shapeCasts_S100000x1_S100000

/-- The pair list's second column. -/
def secondOf (q : IVec S100000x2 32) : IVec S100000 32 :=
  shapeCast S100000 (extractStridedSlice S100000x1 ![0, 1] q slices_S100000x2_S100000x1_0_1) shapeCasts_S100000x1_S100000

/-- A bias of 128 entries as a one-row array. -/
def asRow (b : FVec F S128 .f32) : FVec F S1x128 .f32 := shapeCast S1x128 b shapeCasts_S128_S1x128

/-- The scores under one leading axis of extent one. -/
def lead (s : FVec F S100000x2 .f32) : FVec F S1x100000x2 .f32 :=
  broadcastInDim S1x100000x2 ![1, 2] Cert.KernelIdeal.Facts₀.bcast_S100000x2_S1x100000x2_1_2 s

/-- A bias of two entries as a one-row array. -/
def asRow2 (b : FVec F S2 .f32) : FVec F S1x2 .f32 := shapeCast S1x2 b shapeCasts_S2_S1x2

end Cert.KernelIdeal.Ops

namespace Cert.KernelIdeal.Stretch

open Cert.KernelIdeal Cert.KernelIdeal.Gen Cert.KernelIdeal.Ops Cert.KernelIdeal.Facts₀ Cert.KernelIdeal.Facts
open Idealize.ShloMosaic Idealize.ShloMosaic.TcCoe Idealize.SL.Sem Idealize.ShloMosaic.StableHlo

variable {F : FTy → Type} [FloatOps F] (W : Valuation τ sig (Elt F))

/-! ## Before the first region: the edge list's rows -/

theorem src : StableHlo.after (hostOps0 (F := F)) W (Proc.devRef .tc main_v1) = srcOf (W (Proc.devRef .tc main_arg1)) := by
  after_results <;> rfl

theorem dst : StableHlo.after (hostOps0 (F := F)) W (Proc.devRef .tc main_v3) = dstOf (W (Proc.devRef .tc main_arg1)) := by
  after_results <;> rfl

/-! ## After each of the first three regions: the rows along the edges, their sums, the next bias as a row -/

theorem sum1 : StableHlo.after (hostOps1_1 (F := F)) W (Proc.devRef .tc main_v8) = sumE (W (Proc.devRef .tc main_v5)) (W (Proc.devRef .tc main_v3)) := by
  after_results <;> rfl

theorem row1 : StableHlo.after (hostOps1_1 (F := F)) W (Proc.devRef .tc main_v9) = asRow (W (Proc.devRef .tc main_arg4)) := by
  after_results <;> rfl

theorem sum2 : StableHlo.after (hostOps2_1 (F := F)) W (Proc.devRef .tc main_v14) = sumE (W (Proc.devRef .tc main_v11)) (W (Proc.devRef .tc main_v3)) := by
  after_results <;> rfl

theorem row2 : StableHlo.after (hostOps2_1 (F := F)) W (Proc.devRef .tc main_v15) = asRow (W (Proc.devRef .tc main_arg6)) := by
  after_results <;> rfl

theorem sum3 : StableHlo.after (hostOps3_1 (F := F)) W (Proc.devRef .tc main_v20) = sumE (W (Proc.devRef .tc main_v17)) (W (Proc.devRef .tc main_v3)) := by
  after_results <;> rfl

theorem row3 : StableHlo.after (hostOps3_1 (F := F)) W (Proc.devRef .tc main_v21) = asRow (W (Proc.devRef .tc main_arg8)) := by
  after_results <;> rfl

/-! ## After the fourth region: the queried pairs' endpoint rows and their product, the head's biases as rows -/

theorem first : StableHlo.after (hostOps4 (F := F)) W (Proc.devRef .tc main_v24) = firstOf (W (Proc.devRef .tc main_arg2)) := by
  after_results <;> rfl

theorem second : StableHlo.after (hostOps4 (F := F)) W (Proc.devRef .tc main_v26) = secondOf (W (Proc.devRef .tc main_arg2)) := by
  after_results <;> rfl

theorem prod : StableHlo.after (hostOps4_3 (F := F)) W (Proc.devRef .tc main_v29) = mulf (W (Proc.devRef .tc main_v27)) (W (Proc.devRef .tc main_v28)) := by
  after_results <;> rfl

theorem rowQ1 : StableHlo.after (hostOps4_3 (F := F)) W (Proc.devRef .tc main_v30) = asRow (W (Proc.devRef .tc main_arg10)) := by
  after_results <;> rfl

theorem rowQ2 : StableHlo.after (hostOps4_3 (F := F)) W (Proc.devRef .tc main_v31) = asRow (W (Proc.devRef .tc main_arg12)) := by
  after_results <;> rfl

theorem rowQ3 : StableHlo.after (hostOps4_3 (F := F)) W (Proc.devRef .tc main_v32) = asRow2 (W (Proc.devRef .tc main_arg14)) := by
  after_results <;> rfl

/-! ## After the fifth region: the result -/

theorem result : StableHlo.after (hostOps5 (F := F)) W (Proc.devRef .tc main_v34) = lead (W (Proc.devRef .tc main_v33)) := by
  after_results <;> rfl

end Cert.KernelIdeal.Stretch

end
-- ==== Proof.Take.lean ====
/-
  A row gather that fills the rows whose number is outside the table is the plain gather when no number is
  outside.  A row number `i` is read as a signed 32-bit integer; a negative one stands for `i + 50000`; the
  row is inside the table when the number so read is between 0 and 49999.  For `-50000 ≤ i < 50000` that holds:
  a negative `i` becomes `i + 50000`, between 0 and 49999 with no wrap-around, and a non-negative `i` is left
  alone.  So the per-row test is true on every row, the selection takes the gathered row everywhere, and the
  fill pattern is never used.
-/
import proofs.«403958_j78142634983506_1_alg».proof.Proof.KernelOps
import Idealize.ShloMosaic.Lib.ValueIdx
import Idealize.ShloMosaic.Lib.ReduceAll
import Idealize.ShloMosaic.Lib.StableHlo.Predicate

noncomputable section

namespace Cert.KernelIdeal.Take

open Cert.KernelIdeal Cert.KernelIdeal.Facts₀ Cert.KernelIdeal.Facts Cert.KernelIdeal.Ops
open Idealize.ShloMosaic Idealize.ShloMosaic.TcCoe Idealize.ShloMosaic.ValueIdx

variable {F : FTy → Type} [FloatOps F]

/-- Every row number, read as a signed integer, names a row of the 50000-row table, counting from either end. -/
def InTable {s : Shape} (ids : IVec s 32) : Prop :=
  ∀ e : s.Idx, (-50000 : Int) ≤ (ids e).toInt ∧ (ids e).toInt < 50000

/-! ## One row number -/

/-- A row number as a gather start index: a negative number `i` stands for `i + 50000`. -/
def wrap (i : BitVec 32) : BitVec 32 := Scalar.select (IntOp.cmpi .slt i 0#32) (IntOp.addi i 50000#32) i

/-- For `-50000 ≤ i < 50000` the start index, read unsigned, is at most 49999: a negative `i` is the word
    `2³² + i`, and adding 50000 to it passes `2³²` exactly once; a non-negative `i` is left alone. -/
theorem wrap_toNat_le (i : BitVec 32) (hlo : (-50000 : Int) ≤ i.toInt) (hhi : i.toInt < 50000) :
    (wrap i).toNat ≤ 49999 := by
  have hn : i.toNat < 2 ^ 32 := i.isLt
  have h0 : (0#32 : BitVec 32).toInt = 0 := by decide
  have h5 : (50000#32 : BitVec 32).toNat = 50000 := by decide
  rw [BitVec.toInt_eq_toNat_cond] at hlo hhi
  unfold wrap
  by_cases hneg : i.toInt < 0
  · have hc : IntOp.cmpi .slt i 0#32 = 1#1 := by
      unfold IntOp.cmpi
      simp only [BitVec.slt, h0, hneg, decide_true]
      rfl
    rw [hc, select_one]
    show (i + 50000#32).toNat ≤ 49999
    rw [BitVec.toNat_add, h5]
    rw [BitVec.toInt_eq_toNat_cond] at hneg
    split at hlo <;> split at hneg <;> omega
  · have hc : IntOp.cmpi .slt i 0#32 = 0#1 := by
      unfold IntOp.cmpi
      simp only [BitVec.slt, h0, hneg, decide_false]
      rfl
    rw [hc, select_zero]
    rw [BitVec.toInt_eq_toNat_cond] at hneg
    split at hhi <;> split at hneg <;> omega

/-- So both halves of the test `0 ≤ i' ≤ 49999` hold of the start index `i'`: words below `2³¹` compare signed as
    they compare unsigned. -/
theorem wrap_test (i : BitVec 32) (hlo : (-50000 : Int) ≤ i.toInt) (hhi : i.toInt < 50000) :
    IntOp.andi (IntOp.cmpi .sge (wrap i) 0#32) (IntOp.cmpi .sle (wrap i) 49999#32) = 1#1 := by
  have hw := wrap_toNat_le i hlo hhi
  have hz : (0#32 : BitVec 32).toNat < 2 ^ 31 := by decide
  have hm : (49999#32 : BitVec 32).toNat < 2 ^ 31 := by decide
  have hmv : (49999#32 : BitVec 32).toNat = 49999 := by decide
  have hzv : (0#32 : BitVec 32).toNat = 0 := by decide
  have hwl : (wrap i).toNat < 2 ^ 31 := by omega
  rw [IntOp.andi_eq_one]
  exact ⟨(StableHlo.Predicate.sge_iff_toNat hwl hz).mpr (by omega), (StableHlo.Predicate.sle_iff_toNat hwl hm).mpr (by omega)⟩

/-! ## All ones in, one out -/

/-- A left fold by `and` that starts at 1 and meets only 1s ends at 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hf => by
    refine foldl_andi_one f l _ ?_ (fun n hn => hf n (List.mem_cons_of_mem _ hn))
    show IntOp.andi init (f a) = 1#1
    rw [h, hf a List.mem_cons_self]
    decide

/-- A reduction by `and` from 1 over an array that is 1 everywhere is 1 everywhere. -/
theorem reduce_andi_of_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun n _ => hx n)

/-- A selection whose condition, however it is spread over the result's shape, is 1 everywhere takes its first branch
    everywhere. -/
theorem select_bcast_of_all_one {s t : Shape} {α : Type} (dims : Fin s.rank → Fin t.rank) (hb : s.BroadcastsInDim t dims)
    (c : IVec s 1) (a b : t.Idx → α) (hc : ∀ k, c k = 1#1) :
    select (broadcastInDim t dims hb c) a b = a := by
  funext j
  show Scalar.select (c _) (a j) (b j) = a j
  rw [hc, select_one]

/-! ## Along the 800000 edges -/

/-- Every start index along the edges is the wrapped row number of some edge. -/
theorem startsE_apply (src : IVec S800000 32) (i : S800000x1.Idx) : ∃ e : S800000.Idx, startsE src i = wrap (src e) :=
  ⟨_, rfl⟩

/-- With every row number in the table the per-edge test is true on every edge. -/
theorem insideE_eq_one (src : IVec S800000 32) (hs : InTable src) (k : S800000.Idx) : insideE src k = 1#1 := by
  unfold insideE
  refine reduce_andi_of_all_one _ _ _ _ (fun _ => rfl) (fun i => ?_) k
  obtain ⟨e, he⟩ := startsE_apply src i
  show IntOp.andi (IntOp.cmpi .sge (startsE src i) 0#32) (IntOp.cmpi .sle (startsE src i) 49999#32) = 1#1
  rw [he]
  exact wrap_test (src e) (hs e).1 (hs e).2

/-- Along the edges: with every row number in the table, the filled gather is the plain gather. -/
theorem takeE_eq (h : FVec F S50000x128 .f32) (src : IVec S800000 32) (hs : InTable src) :
    takeE h src = rowsE h src := by
  unfold takeE
  exact select_bcast_of_all_one _ _ _ _ _ (insideE_eq_one src hs)

/-! ## Along the 100000 queried pairs -/

/-- Every start index along the pairs is the wrapped row number of some pair. -/
theorem startsQ_apply (ids : IVec S100000 32) (i : S100000x1.Idx) : ∃ e : S100000.Idx, startsQ ids i = wrap (ids e) :=
  ⟨_, rfl⟩

/-- With every row number in the table the per-pair test is true on every pair. -/
theorem insideQ_eq_one (ids : IVec S100000 32) (hs : InTable ids) (k : S100000.Idx) : insideQ ids k = 1#1 := by
  unfold insideQ
  refine reduce_andi_of_all_one _ _ _ _ (fun _ => rfl) (fun i => ?_) k
  obtain ⟨e, he⟩ := startsQ_apply ids i
  show IntOp.andi (IntOp.cmpi .sge (startsQ ids i) 0#32) (IntOp.cmpi .sle (startsQ ids i) 49999#32) = 1#1
  rw [he]
  exact wrap_test (ids e) (hs e).1 (hs e).2

/-- Along the queried pairs: with every row number in the table, the filled gather is the plain gather. -/
theorem takeQ_eq (h : FVec F S50000x128 .f32) (ids : IVec S100000 32) (hs : InTable ids) :
    takeQ h ids = rowsQ h ids := by
  unfold takeQ
  exact select_bcast_of_all_one _ _ _ _ _ (insideQ_eq_one ids hs)

end Cert.KernelIdeal.Take

end
-- ==== Proof.PreRange.lean ====
/-
  What the precondition says about the integer inputs.  Besides the finiteness of every float input it states
  that every entry of the edge list's first row, and every entry of the pair list, read as a signed 32-bit
  integer, lies between -50000 and 49999: every gathered row number names a row of the 50000-row table,
  counting from either end.  The precondition is one bit, the conjunction of one "all entries" test per
  input; the last two tests are the range tests, each the conjunction of a lower and an upper comparison
  against a constant, reduced over all entries.  A column of the pair list and the first row of the edge list
  are slices of those arrays, so their entries are entries of the arrays.
-/
import proofs.«403958_j78142634983506_1_alg».proof.Defs
import proofs.«403958_j78142634983506_1_alg».proof.Proof.Gen.Pre_finite_inputs
import proofs.«403958_j78142634983506_1_alg».proof.Proof.Stretches
import proofs.«403958_j78142634983506_1_alg».proof.Proof.Take
import Idealize.ShloMosaic.Lib.ValueIdx
import Idealize.ShloMosaic.Lib.ReduceAll
import Idealize.ShloMosaic.Lib.StableHlo.Predicate

noncomputable section

namespace Cert.KernelIdeal.PreRange

open Cert.KernelIdeal Cert.KernelIdeal.Ops Cert.KernelIdeal.Take
open Idealize.ShloMosaic Idealize.ShloMosaic.TcCoe Idealize.SL.Sem Idealize.ShloMosaic.ValueIdx

/-! ## One word -/

/-- The lower constant is `-50000`. -/
theorem lo_toInt : (4294917296#32 : BitVec 32).toInt = -50000 := by decide
/-- The upper constant is `50000`. -/
theorem hi_toInt : (50000#32 : BitVec 32).toInt = 50000 := by decide

/-- A word that passes both signed comparisons lies between `-50000` and `49999`. -/
theorem word_range (w : BitVec 32) (hlo : IntOp.cmpi .sge w 4294917296#32 = 1#1) (hhi : IntOp.cmpi .slt w 50000#32 = 1#1) :
    (-50000 : Int) ≤ w.toInt ∧ w.toInt < 50000 := by
  have h1 := IntOp.cmpi_sge.mp hlo
  have h2 := IntOp.cmpi_slt.mp hhi
  rw [lo_toInt] at h1
  rw [hi_toInt] at h2
  exact ⟨h1, h2⟩

/-! ## The conjunction, peeled from its last test inwards -/

instance : Subsingleton Cert.Pre_finite_inputs.S_.Idx := ⟨fun a b => funext fun d => d.elim0⟩

/-- The last stretch of the conjunction: the upper test of the edge row and both tests of the pair list, whatever
    the earlier tests' bit (`v63`), the lower test of the edge row (`v67`) and the edge row (`v68`) are. -/
theorem part4 (arg2 : IVec Cert.Pre_finite_inputs.S100000x2 32) (v63 : IVec Cert.Pre_finite_inputs.S_ 1) (v67 : IVec Cert.Pre_finite_inputs.S800000 1)
    (v68 : IVec Cert.Pre_finite_inputs.S1x800000 32)
    (h : Cert.Pre_finite_inputs.fn_part4 (F := Ideal) arg2 v63 v67 v68 ix0 = 1#1) :
    (∀ e, v67 e = 1#1)
    ∧ (∀ e, IntOp.cmpi .slt (shapeCast Cert.Pre_finite_inputs.S800000 v68 Cert.Pre_finite_inputs.Facts.shapeCasts_S1x800000_S800000 e) 50000#32 = 1#1)
    ∧ (∀ i, IntOp.cmpi .sge (arg2 i) 4294917296#32 = 1#1 ∧ IntOp.cmpi .slt (arg2 i) 50000#32 = 1#1) := by
  unfold Cert.Pre_finite_inputs.fn_part4 at h
  dsimp only at h
  obtain ⟨h74, h80⟩ := IntOp.andi_eq_one.mp h
  obtain ⟨-, h73⟩ := IntOp.andi_eq_one.mp h74
  refine ⟨fun e => ?_, fun e => ?_, fun i => ?_⟩
  · exact (IntOp.andi_eq_one.mp (Host.reduce_andi_all _ _ _ _ ix0 h73 e)).1
  · exact (IntOp.andi_eq_one.mp (Host.reduce_andi_all _ _ _ _ ix0 h73 e)).2
  · exact IntOp.andi_eq_one.mp (Host.reduce_andi_all _ _ _ _ ix0 h80 i)

/-- The edge list's first row as the precondition reads it. -/
abbrev rowOf (arg1 : IVec Cert.Pre_finite_inputs.S2x800000 32) : IVec Cert.Pre_finite_inputs.S800000 32 :=
  shapeCast Cert.Pre_finite_inputs.S800000 (extractStridedSlice Cert.Pre_finite_inputs.S1x800000 ![0, 0] arg1 Cert.Pre_finite_inputs.Facts.slices_S2x800000_S1x800000_0_0)
    Cert.Pre_finite_inputs.Facts.shapeCasts_S1x800000_S800000

/-- The stretch before it: it makes the edge row and its lower test. -/
theorem part3 (arg1 : IVec Cert.Pre_finite_inputs.S2x800000 32) (arg2 : IVec Cert.Pre_finite_inputs.S100000x2 32) (a13 : FVec Ideal Cert.Pre_finite_inputs.S128x2 .f32)
    (a14 : FVec Ideal Cert.Pre_finite_inputs.S2 .f32) (v48 : IVec Cert.Pre_finite_inputs.S_ 1) (v49 v50 : FVec Ideal Cert.Pre_finite_inputs.S128 .f32)
    (h : Cert.Pre_finite_inputs.fn_part3 (F := Ideal) arg1 arg2 a13 a14 v48 v49 v50 ix0 = 1#1) :
    (∀ e, (-50000 : Int) ≤ (rowOf arg1 e).toInt ∧ (rowOf arg1 e).toInt < 50000)
    ∧ (∀ i, (-50000 : Int) ≤ (arg2 i).toInt ∧ (arg2 i).toInt < 50000) := by
  unfold Cert.Pre_finite_inputs.fn_part3 at h
  dsimp only at h
  obtain ⟨h67, h71, h2⟩ := part4 _ _ _ _ h
  exact ⟨fun e => word_range _ (h67 e) (h71 e), fun i => word_range _ (h2 i).1 (h2 i).2⟩

/-- The stretch before that one only passes the two integer arrays on. -/
theorem part2 (arg1 : IVec Cert.Pre_finite_inputs.S2x800000 32) (arg2 : IVec Cert.Pre_finite_inputs.S100000x2 32) (a9 : FVec Ideal Cert.Pre_finite_inputs.S128x128 .f32)
    (a10 : FVec Ideal Cert.Pre_finite_inputs.S128 .f32) (a11 : FVec Ideal Cert.Pre_finite_inputs.S128x128 .f32) (a12 : FVec Ideal Cert.Pre_finite_inputs.S128 .f32)
    (a13 : FVec Ideal Cert.Pre_finite_inputs.S128x2 .f32) (a14 : FVec Ideal Cert.Pre_finite_inputs.S2 .f32) (v33 : IVec Cert.Pre_finite_inputs.S_ 1)
    (h : Cert.Pre_finite_inputs.fn_part2 (F := Ideal) arg1 arg2 a9 a10 a11 a12 a13 a14 v33 ix0 = 1#1) :
    (∀ e, (-50000 : Int) ≤ (rowOf arg1 e).toInt ∧ (rowOf arg1 e).toInt < 50000)
    ∧ (∀ i, (-50000 : Int) ≤ (arg2 i).toInt ∧ (arg2 i).toInt < 50000) := by
  unfold Cert.Pre_finite_inputs.fn_part2 at h
  exact part3 _ _ _ _ _ _ _ h

/-- So does the one before it. -/
theorem part1 (arg1 : IVec Cert.Pre_finite_inputs.S2x800000 32) (arg2 : IVec Cert.Pre_finite_inputs.S100000x2 32) (a6 : FVec Ideal Cert.Pre_finite_inputs.S128 .f32)
    (a7 : FVec Ideal Cert.Pre_finite_inputs.S128x128 .f32) (a8 : FVec Ideal Cert.Pre_finite_inputs.S128 .f32) (a9 : FVec Ideal Cert.Pre_finite_inputs.S128x128 .f32)
    (a10 : FVec Ideal Cert.Pre_finite_inputs.S128 .f32) (a11 : FVec Ideal Cert.Pre_finite_inputs.S128x128 .f32) (a12 : FVec Ideal Cert.Pre_finite_inputs.S128 .f32)
    (a13 : FVec Ideal Cert.Pre_finite_inputs.S128x2 .f32) (a14 : FVec Ideal Cert.Pre_finite_inputs.S2 .f32) (v13 : IVec Cert.Pre_finite_inputs.S_ 1)
    (v16 : IVec Cert.Pre_finite_inputs.S128x128 1)
    (h : Cert.Pre_finite_inputs.fn_part1 (F := Ideal) arg1 arg2 a6 a7 a8 a9 a10 a11 a12 a13 a14 v13 v16 ix0 = 1#1) :
    (∀ e, (-50000 : Int) ≤ (rowOf arg1 e).toInt ∧ (rowOf arg1 e).toInt < 50000)
    ∧ (∀ i, (-50000 : Int) ≤ (arg2 i).toInt ∧ (arg2 i).toInt < 50000) := by
  unfold Cert.Pre_finite_inputs.fn_part1 at h
  exact part2 _ _ _ _ _ _ _ _ _ h

/-- The whole conjunction: if it is the all-ones bit, the edge list's first row and the pair list are in range. -/
theorem whole (a0 : FVec Ideal Cert.Pre_finite_inputs.S50000x128 .f32) (arg1 : IVec Cert.Pre_finite_inputs.S2x800000 32) (arg2 : IVec Cert.Pre_finite_inputs.S100000x2 32)
    (a3 : FVec Ideal Cert.Pre_finite_inputs.S128x128 .f32) (a4 : FVec Ideal Cert.Pre_finite_inputs.S128 .f32) (a5 : FVec Ideal Cert.Pre_finite_inputs.S128x128 .f32)
    (a6 : FVec Ideal Cert.Pre_finite_inputs.S128 .f32) (a7 : FVec Ideal Cert.Pre_finite_inputs.S128x128 .f32) (a8 : FVec Ideal Cert.Pre_finite_inputs.S128 .f32)
    (a9 : FVec Ideal Cert.Pre_finite_inputs.S128x128 .f32) (a10 : FVec Ideal Cert.Pre_finite_inputs.S128 .f32) (a11 : FVec Ideal Cert.Pre_finite_inputs.S128x128 .f32)
    (a12 : FVec Ideal Cert.Pre_finite_inputs.S128 .f32) (a13 : FVec Ideal Cert.Pre_finite_inputs.S128x2 .f32) (a14 : FVec Ideal Cert.Pre_finite_inputs.S2 .f32)
    (h : Cert.Pre_finite_inputs.fn (F := Ideal) a0 arg1 arg2 a3 a4 a5 a6 a7 a8 a9 a10 a11 a12 a13 a14 ix0 = 1#1) :
    (∀ e, (-50000 : Int) ≤ (rowOf arg1 e).toInt ∧ (rowOf arg1 e).toInt < 50000)
    ∧ (∀ i, (-50000 : Int) ≤ (arg2 i).toInt ∧ (arg2 i).toInt < 50000) := by
  unfold Cert.Pre_finite_inputs.fn at h
  exact part1 _ _ _ _ _ _ _ _ _ _ _ _ _ h

/-- Under the precondition every gathered row number names a row of the table: the edges' source nodes and
    both endpoints of every queried pair. -/
theorem inTable (m : (ℓ : Loc nD τ sig) → Buf (Elt Ideal) ℓ) (hpre : Cert.Pre_KernelIdeal m) (c : Dev nD) :
    InTable (srcOf (m ((c.tc : Thread nD τ).loc main_arg1)))
      ∧ InTable (firstOf (m ((c.tc : Thread nD τ).loc main_arg2)))
      ∧ InTable (secondOf (m ((c.tc : Thread nD τ).loc main_arg2))) := by
  obtain ⟨hs, hq⟩ := whole _ _ _ _ _ _ _ _ _ _ _ _ _ _ _ (congrFun (hpre c) ix0)
  exact ⟨fun e => hs e, fun e => hq _, fun e => hq _⟩

end Cert.KernelIdeal.PreRange

end
-- ==== Proof.Spec.lean ====
/-
  The value both programs compute, as one function of the arguments, entry by entry on the extended reals.

  A graph-convolution layer is a linear map applied to every node's 128 features (`lin`: row `r` of the
  features against column `j` of the weights), a sum of the transformed rows over each node's incoming edges
  (here a parameter `agg`: which rows are summed into which depends only on the edge list, and neither side of
  the comparison looks inside it), and a bias added to every row (`shift`); the first two layers end in a
  rectifier (`act` is the bias and the rectifier together).  The trunk is three such layers.  The link head
  takes, for each queried pair, the entrywise product of the two endpoint embeddings (the rows are chosen by the
  parameters `pickS`, `pickD`), passes it through two rectified linear layers and a last linear layer into two
  scores (`scoresAt`), divides the two scores by their Euclidean norm, kept away from zero by a small constant
  (`unitAt`), and returns the logarithm of their softmax (`logSoftAt`): each score minus the larger score, minus
  the logarithm of the sum of the exponentials of those differences.
-/
import Idealize.ShloMosaic.Lib.ValueIdx
import Idealize.ShloMosaic.PureOps.Ideal

noncomputable section

open scoped BigOperators

namespace Cert.GcnLink

open Idealize.ShloMosaic Idealize.ShloMosaic.ValueIdx

/-- Node features: 50000 nodes by 128 features. -/
abbrev Nodes : Shape := ⟨2, ![50000, 128]⟩
/-- A square weight matrix, input feature by output feature. -/
abbrev Sq : Shape := ⟨2, ![128, 128]⟩
/-- A bias, one entry per output feature. -/
abbrev Row : Shape := ⟨1, ![128]⟩
/-- One row of 128 features per queried pair. -/
abbrev Pairs : Shape := ⟨2, ![100000, 128]⟩
/-- The last weight matrix: 128 features into two scores. -/
abbrev Last : Shape := ⟨2, ![128, 2]⟩
/-- The last bias. -/
abbrev Two : Shape := ⟨1, ![2]⟩
/-- Two scores per queried pair. -/
abbrev Scores : Shape := ⟨2, ![100000, 2]⟩
/-- The result: the scores under one leading axis of extent one. -/
abbrev Result : Shape := ⟨3, ![1, 100000, 2]⟩

/-! ## The trunk -/

/-- Entry `(r, j)` of features times weights: the sum over the input feature `k`. -/
def linAt (h : FVec Ideal Nodes .f32) (w : FVec Ideal Sq .f32) (r : Fin 50000) (j : Fin 128) : EReal :=
  ∑ k : Fin 128, h (ix2 r k) * w (ix2 k j)

/-- Features times weights, every entry. -/
def lin (h : FVec Ideal Nodes .f32) (w : FVec Ideal Sq .f32) : FVec Ideal Nodes .f32 :=
  fun i => linAt h w (i 0) (i 1)

/-- A bias (one entry per feature) added to every row. -/
def shift (a : FVec Ideal Nodes .f32) (b : Fin 128 → EReal) : FVec Ideal Nodes .f32 :=
  fun i => a i + b (i 1)

/-- A bias added to every row, then the rectifier. -/
def act (a : FVec Ideal Nodes .f32) (b : Fin 128 → EReal) : FVec Ideal Nodes .f32 :=
  fun i => max (a i + b (i 1)) 0

/-- The three layers: the node embeddings. -/
def trunk (agg : FVec Ideal Nodes .f32 → FVec Ideal Nodes .f32)
    (x : FVec Ideal Nodes .f32) (w1 : FVec Ideal Sq .f32) (b1 : Fin 128 → EReal)
    (w2 : FVec Ideal Sq .f32) (b2 : Fin 128 → EReal) (w3 : FVec Ideal Sq .f32) (b3 : Fin 128 → EReal) :
    FVec Ideal Nodes .f32 :=
  shift (agg (lin (act (agg (lin (act (agg (lin x w1)) b1) w2)) b2) w3)) b3

/-! ## The link head, one queried pair `r` at a time -/

/-- The first hidden layer at pair `r`, feature `k`. -/
def hid1At (z : FVec Ideal Pairs .f32) (p1 : FVec Ideal Sq .f32) (q1 : Fin 128 → EReal) (r : Fin 100000) (k : Fin 128) : EReal :=
  max ((∑ a : Fin 128, z (ix2 r a) * p1 (ix2 a k)) + q1 k) 0

/-- The second hidden layer at pair `r`, feature `k`. -/
def hid2At (z : FVec Ideal Pairs .f32) (p1 : FVec Ideal Sq .f32) (q1 : Fin 128 → EReal)
    (p2 : FVec Ideal Sq .f32) (q2 : Fin 128 → EReal) (r : Fin 100000) (k : Fin 128) : EReal :=
  max ((∑ a : Fin 128, hid1At z p1 q1 r a * p2 (ix2 a k)) + q2 k) 0

/-- The two raw scores of pair `r`. -/
def scoresAt (z : FVec Ideal Pairs .f32) (p1 : FVec Ideal Sq .f32) (q1 : Fin 128 → EReal)
    (p2 : FVec Ideal Sq .f32) (q2 : Fin 128 → EReal) (p3 : FVec Ideal Last .f32) (q3 : Fin 2 → EReal)
    (r : Fin 100000) (j : Fin 2) : EReal :=
  (∑ a : Fin 128, hid2At z p1 q1 p2 q2 r a * p3 (ix2 a j)) + q3 j

/-- The floor under the norm: the single-precision number nearest `1e-12`, the same word in both programs. -/
def floor : EReal := Ideal.ofBits .f32 0x2B8CBCCC#32

/-- A pair of scores `s` divided by its Euclidean norm, the norm kept at least `floor`. -/
def unitAt (s : Fin 2 → EReal) (j : Fin 2) : EReal :=
  Ideal.div (s j) (max (Ideal.sqrt (∑ a : Fin 2, s a * s a)) floor)

/-- The larger of two scores, as the fold of `max` from the bottom element. -/
def topOf (u : Fin 2 → EReal) : EReal := (Finset.univ : Finset (Fin 2)).fold max ⊥ u

/-- The logarithm of the softmax of a pair of scores `u`. -/
def logSoftAt (u : Fin 2 → EReal) (j : Fin 2) : EReal :=
  (u j - topOf u) - Ideal.log (∑ a : Fin 2, Ideal.exp (u a - topOf u))

/-- The head: from the pair features to the two log-probabilities of every pair. -/
def head (z : FVec Ideal Pairs .f32) (p1 : FVec Ideal Sq .f32) (q1 : Fin 128 → EReal)
    (p2 : FVec Ideal Sq .f32) (q2 : Fin 128 → EReal) (p3 : FVec Ideal Last .f32) (q3 : Fin 2 → EReal) :
    FVec Ideal Scores .f32 :=
  fun i => logSoftAt (unitAt (scoresAt z p1 q1 p2 q2 p3 q3 (i 0))) (i 1)

/-! ## The whole value -/

/-- The result of the link predictor: `agg` sums rows along the edges, `pickS` and `pickD` choose the source and
    destination row of each queried pair. -/
def value (agg : FVec Ideal Nodes .f32 → FVec Ideal Nodes .f32) (pickS pickD : FVec Ideal Nodes .f32 → FVec Ideal Pairs .f32)
    (x : FVec Ideal Nodes .f32) (w1 : FVec Ideal Sq .f32) (b1 : FVec Ideal Row .f32)
    (w2 : FVec Ideal Sq .f32) (b2 : FVec Ideal Row .f32) (w3 : FVec Ideal Sq .f32) (b3 : FVec Ideal Row .f32)
    (p1 : FVec Ideal Sq .f32) (q1 : FVec Ideal Row .f32) (p2 : FVec Ideal Sq .f32) (q2 : FVec Ideal Row .f32)
    (p3 : FVec Ideal Last .f32) (q3 : FVec Ideal Two .f32) : FVec Ideal Result .f32 :=
  fun i =>
    let emb := trunk agg x w1 (fun k => b1 (ix1 k)) w2 (fun k => b2 (ix1 k)) w3 (fun k => b3 (ix1 k))
    head (fun y => pickS emb y * pickD emb y) p1 (fun k => q1 (ix1 k)) p2 (fun k => q2 (ix1 k)) p3 (fun k => q3 (ix1 k))
      (ix2 (i 1) (i 2))

end Cert.GcnLink

end
-- ==== Proof.Keep.lean ====
/-
  A buffer that a stretch of host operations does not write holds after the stretch what it held before.
  Whether an operation writes a buffer is read off the operation: each writes exactly its result buffer, and
  two buffers are different when their places in the buffer table are.
-/
import proofs.«403958_j78142634983506_1_alg».proof.Proof.Gen.KernelIdeal.Frame
import Idealize.ShloMosaic.Lib.StableHlo.Run

namespace Cert.KernelIdeal.Keep

open Lean Elab Tactic

/-- Closes `after ops W b = W b` for a listed stretch `ops` none of whose operations writes `b`. -/
syntax "keep_across " ident : tactic
macro_rules
  | `(tactic| keep_across $ops:ident) => `(tactic|
      exact Idealize.ShloMosaic.StableHlo.after_of_forall_not_mem _ _ (List.forall_iff_forall_mem.mp (by
        simp only [$ops:ident, List.flatten_cons, List.flatten_nil, List.append_nil, List.cons_append,
          List.nil_append, List.Forall, Idealize.ShloMosaic.StableHlo.nullary_writes, Idealize.ShloMosaic.StableHlo.unary_writes,
          Idealize.ShloMosaic.StableHlo.binary_writes, Idealize.ShloMosaic.StableHlo.ternary_writes,
          Idealize.ShloMosaic.StableHlo.quaternary_writes, Idealize.ShloMosaic.StableHlo.reshape_writes,
          Idealize.ShloMosaic.StableHlo.binaryIndexed_writes, Finset.mem_singleton]
        repeat' apply And.intro
        all_goals exact Idealize.ShloMosaic.StableHlo.devRef_ne_of_ne (by decide))))

end Cert.KernelIdeal.Keep
-- ==== Proof.StretchTake.lean ====
/-
  The row gathers between the regions of the idealized kernel program, each read back as a function of the
  buffers it starts from: from ANY contents `W` of the buffers, after the stretch the gathered-rows buffer holds
  the filled gather of the table it reads at the row numbers it reads.
-/
import proofs.«403958_j78142634983506_1_alg».proof.Proof.Gen.KernelIdeal.Launch
import proofs.«403958_j78142634983506_1_alg».proof.Proof.KernelOps
import Idealize.ShloMosaic.Lib.StableHlo.Run

set_option maxRecDepth 16384

noncomputable section

namespace Cert.KernelIdeal.Stretch

open Cert.KernelIdeal Cert.KernelIdeal.Gen Cert.KernelIdeal.Ops Cert.KernelIdeal.Facts₀ Cert.KernelIdeal.Facts
open Idealize.ShloMosaic Idealize.ShloMosaic.TcCoe Idealize.SL.Sem Idealize.ShloMosaic.StableHlo

variable {F : FTy → Type} [FloatOps F] (W : Valuation τ sig (Elt F))

set_option maxHeartbeats 4000000 in
theorem take1 : StableHlo.after (hostOps1 (F := F)) W (Proc.devRef .tc main_v5) = takeE (W (Proc.devRef .tc main_v4)) (W (Proc.devRef .tc main_v1)) := by
  after_results_simp
  simp only [TRef.ofBuf, TRef.toBuf, cast_eq]
  rfl

set_option maxHeartbeats 4000000 in
theorem take2 : StableHlo.after (hostOps2 (F := F)) W (Proc.devRef .tc main_v11) = takeE (W (Proc.devRef .tc main_v10)) (W (Proc.devRef .tc main_v1)) := by
  after_results_simp
  simp only [TRef.ofBuf, TRef.toBuf, cast_eq]
  rfl

set_option maxHeartbeats 4000000 in
theorem take3 : StableHlo.after (hostOps3 (F := F)) W (Proc.devRef .tc main_v17) = takeE (W (Proc.devRef .tc main_v16)) (W (Proc.devRef .tc main_v1)) := by
  after_results_simp
  simp only [TRef.ofBuf, TRef.toBuf, cast_eq]
  rfl

set_option maxHeartbeats 4000000 in
theorem takeS : StableHlo.after (hostOps4_1 (F := F)) W (Proc.devRef .tc main_v27) = takeQ (W (Proc.devRef .tc main_v22)) (W (Proc.devRef .tc main_v24)) := by
  after_results_simp
  simp only [TRef.ofBuf, TRef.toBuf, cast_eq]
  rfl

set_option maxHeartbeats 4000000 in
theorem takeD : StableHlo.after (hostOps4_2 (F := F)) W (Proc.devRef .tc main_v28) = takeQ (W (Proc.devRef .tc main_v22)) (W (Proc.devRef .tc main_v26)) := by
  after_results_simp
  simp only [TRef.ofBuf, TRef.toBuf, cast_eq]
  rfl

end Cert.KernelIdeal.Stretch

end
-- ==== Proof.Rows.lean ====
/-
  A bias handed over as a one-row array, read at column `k`, is the bias's entry `k`: a reshape keeps the
  row-major position of every entry, and entry `(0, k)` of a one-row array and entry `k` of the vector are both at
  position `k`.
-/
import proofs.«403958_j78142634983506_1_alg».proof.Proof.Stretches
import Idealize.ShloMosaic.Lib.ValueIdx
import Idealize.ShloMosaic.Lib.Pipeline.Value

noncomputable section

namespace Cert.KernelIdeal.Ops

open Cert.KernelIdeal Cert.KernelIdeal.Facts₀ Cert.KernelIdeal.Facts
open Idealize.ShloMosaic Idealize.ShloMosaic.TcCoe Idealize.ShloMosaic.ValueIdx

variable {F : FTy → Type} [FloatOps F]

/-- A bias of 128 entries as one row, at column `k`. -/
theorem asRow_apply (b : FVec F S128 .f32) (k : Fin 128) : asRow b (ix2 (0 : Fin 1) k) = b (ix1 k) := by
  unfold asRow
  refine shapeCast_apply b _ _ (ix1 k) ?_
  rw [Shape.rowMajor_val_one, Shape.rowMajor_val_two]
  show k.val = 0 * 128 + k.val
  omega

/-- A bias of two entries as one row, at column `k`. -/
theorem asRow2_apply (b : FVec F S2 .f32) (k : Fin 2) : asRow2 b (ix2 (0 : Fin 1) k) = b (ix1 k) := by
  unfold asRow2
  refine shapeCast_apply b _ _ (ix1 k) ?_
  rw [Shape.rowMajor_val_one, Shape.rowMajor_val_two]
  show k.val = 0 * 2 + k.val
  omega

end Cert.KernelIdeal.Ops

end
-- ==== Proof.Region0.lean ====
/-
  The first region: the node features times the first weight matrix, ten blocks of 5000 nodes.
  Each grid point multiplies its block of rows by the whole matrix; a block's rows are rows of the whole
  product, and the ten blocks tile the array, so the region leaves the whole product.
-/
import proofs.«403958_j78142634983506_1_alg».proof.Proof.Gen.KernelIdeal.Frame
import proofs.«403958_j78142634983506_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region0

open Cert.KernelIdeal Cert.KernelIdeal.Gen Cert.GcnLink
open Idealize.ShloMosaic Idealize.ShloMosaic.TcCoe Idealize.SL.Sem Idealize.ShloMosaic.ValueIdx
open Idealize.ShloMosaic.Pipeline (Dat Cfg Window)

/-! ## The block product at an entry -/

/-- The zero offsets of a whole-block access, as the constant function. -/
theorem hz : (![0, 0] : Fin 2 → Nat) = fun _ => 0 := funext fun a => by fin_cases a <;> rfl

/-- On the row axis the left operand is read at the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the column axis the left operand is read at the summed index. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the row axis the right operand is read at the summed index. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the column axis the right operand is read at the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, j)` of the block product: row `p` of the block against column `j` of the matrix, summed over the
    128 input features (the change of float format is the identity on the extended reals, and the accumulator starts
    at zero). -/
theorem pay_apply (x0 : Vec Ideal S5000x128 .f32) (x1 : Vec Ideal S128x128 .f32) (p : Fin 5000) (j : Fin 128) :
    (k0_pay1 (F := Ideal) x0 x1 : S5000x128.Idx → EReal) (ix2 p j) = ∑ k : Fin 128, (x0 : S5000x128.Idx → EReal) (ix2 p k) * (x1 : S128x128.Idx → EReal) (ix2 k j) := by
  unfold k0_pay1
  refine (Ideal.matmul_constant_zero_apply dot_S5000x128_S128x128_S5000x128_1_0_0_1_n_n none _ _ (ix2 p j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]
  rfl

/-! ## The blocks of the three windows -/

/-- The index maps over the ten grid points: the feature window and the output window sit at block `(t, 0)`, the
    weight window at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- the buffer contents the region is entered at: any
variable (V : (c : Dev nD) → (b : Ref sig .tc) → Buf (Elt Ideal) ((c : Thread nD τ).loc b))

/-- Row `p` of the feature block at point `t` is row `5000 t + p` of the features. -/
theorem feat_blk_apply (c : Dev nD) (t : Fin cfg0.N) (p : Fin 5000) (k : Fin 128) (r : Fin 50000)
    (hr : r.val = 5000 * t.val + p.val) :
    (iblk0 V c 0 t : S5000x128.Idx → EReal) (ix2 p k) = (V c main_arg0 : S50000x128.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight block at every point is the whole weight matrix. -/
theorem wt_blk_apply (c : Dev nD) (t : Fin cfg0.N) (k : Fin 128) (j : Fin 128) :
    (iblk0 V c 1 t : S128x128.Idx → EReal) (ix2 k j) = (V c main_arg3 : S128x128.Idx → EReal) (ix2 k j) := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * j.val = j.val; rw [e3]; omega

/-- Entry `(p, j)` of the output block at point `t` sits at row `5000 t + p`, column `j` of the output array. -/
theorem out_blk_emb (t : Fin cfg0.N) (p : Fin 5000) (j : Fin 128) (r : Fin 50000) (hr : r.val = 5000 * t.val + p.val) :
    (((cfg0.win 2).blk t).view.emb (ix2 p j) : S50000x128.Idx) = ix2 r j := by
  obtain ⟨-, -, -, -, e4, e5⟩ := idx_facts t
  funext a
  apply Fin.ext
  match a with
  | ⟨0, _⟩ => show win0_2.index t (0 : Fin 2) * 5000 + 1 * p.val = r.val; rw [e4, hr]; omega
  | ⟨1, _⟩ => show win0_2.index t (1 : Fin 2) * 128 + 1 * j.val = j.val; rw [e5]; omega

/-! ## What a point writes back, and the whole array -/

/-- The body's block at point `t`, entry by entry, is the product's entry at the place the block's entry has in the array. -/
theorem body_blk_apply (c : Dev nD) (t : Fin cfg0.N) (y : S5000x128.Idx) :
    (k0_pay1 (F := Ideal) (iblk0 V c 0 t) (iblk0 V c 1 t) : S5000x128.Idx → EReal) y
      = lin (V c main_arg0) (V c main_arg3) (((cfg0.win 2).blk t).view.emb y) := by
  obtain ⟨p, j, rfl⟩ : ∃ (p : Fin 5000) (j : Fin 128), y = ix2 p j := ⟨y 0, y 1, eq_ix2 y⟩
  have ht : t.val < 10 := t.isLt
  have hp : p.val < 5000 := p.isLt
  have hlt : 5000 * t.val + p.val < 50000 := by omega
  refine (pay_apply _ _ p j).trans ?_
  rw [out_blk_emb t p j ⟨5000 * t.val + p.val, hlt⟩ rfl]
  show _ = linAt (V c main_arg0) (V c main_arg3) ⟨5000 * t.val + p.val, hlt⟩ j
  unfold linAt
  refine Finset.sum_congr rfl fun k _ => ?_
  rw [feat_blk_apply V c t p k ⟨5000 * t.val + p.val, hlt⟩ rfl, wt_blk_apply V c t k j]

/-- What point `t` writes back is block `t` of the product. -/
theorem flushed_eq (c : Dev nD) (t : Fin cfg0.N) :
    (dat0 (F := Ideal) V c).flushed 2 t
      = ((cfg0.win 2).blk t).view.read (Elt Ideal) (lin (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext y
  exact body_blk_apply V c t y

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The ten blocks tile the array: row `r` is in the block of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by show (i 0).val / 5000 < 10; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the region its output array holds the features times the weights, entry by entry. -/
theorem out (c : Dev nD) :
    ((dat0 (F := Ideal) V c).arrAt 2 cfg0.N : S50000x128.Idx → EReal) = lin (V c main_arg0) (V c main_arg3) := by
  exact (dat0 (F := Ideal) V c).arrAt_eq_of_cover 2 (lin (V c main_arg0) (V c main_arg3)) (fun t _ => flushed_eq V c t) cover

end Cert.KernelIdeal.Region0

end
-- ==== Proof.Region1.lean ====
/-
  The second region: bias and rectifier on the aggregated rows, then the second weight matrix, ten blocks of
  5000 nodes.  The bias arrives as a one-row array.  A block's rows are rows of the whole result and the blocks
  tile the array.
-/
import proofs.«403958_j78142634983506_1_alg».proof.Proof.Gen.KernelIdeal.Frame
import proofs.«403958_j78142634983506_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region1

open Cert.KernelIdeal Cert.KernelIdeal.Gen Cert.GcnLink
open Idealize.ShloMosaic Idealize.ShloMosaic.TcCoe Idealize.SL.Sem Idealize.ShloMosaic.ValueIdx
open Idealize.ShloMosaic.Pipeline (Dat Cfg Window)

-- the buffer contents the region is entered at: any
variable (V : (c : Dev nD) → (b : Ref sig .tc) → Buf (Elt Ideal) ((c : Thread nD τ).loc b))

/-- The all-zero offsets of a whole-block access, as the constant function. -/
theorem hz : (![0, 0] : Fin 2 → Nat) = fun _ => 0 := funext fun a => by fin_cases a <;> rfl

/-! ## The contraction's operand indices, axis by axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times the weights, into a zero accumulator, at row `p` and column `q`: the sum over the
    contracted feature `k` of the row's entry times the weight. -/
theorem matmul_zero_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (rhs_0 _ _).trans hk
    | ⟨1, _⟩ => exact rhs_1 _ _)
  rw [el, er]

/-- The body's arithmetic at row `p` and column `q` of a block: the block's row plus the bias row, rectified,
    against column `q` of the weights (a change of float format is the identity on the extended reals). -/
theorem pay_apply (x0 : Vec Ideal S5000x128 .f32) (x1 : Vec Ideal S1x128 .f32) (x2 : Vec Ideal S128x128 .f32)
    (p : Fin 5000) (q : Fin 128) :
    (k1_pay1 (F := Ideal) x0 x1 x2 : S5000x128.Idx → EReal) (ix2 p q)
      = ∑ k : Fin 128, max ((x0 (ix2 p k) : EReal) + x1 (ix2 0 k)) 0 * x2 (ix2 k q) := by
  unfold k1_pay1
  refine (matmul_zero_apply _ _ p q).trans ?_
  refine Finset.sum_congr rfl fun k _ => ?_
  have hb : broadcastTo S5000x128 (shapeCast S1x128 x1 shapeCasts_S1x128_S1x128) broadcasts_S1x128_S5000x128 (ix2 p k)
      = x1 (ix2 0 k) := by
    refine (broadcastTo_1b_ab_apply _ broadcasts_S1x128_S5000x128 p k).trans ?_
    rw [shapeCast_self]
  show max ((shapeCast S5000x128 x0 shapeCasts_S5000x128_S5000x128 (ix2 p k) : EReal)
        + broadcastTo S5000x128 (shapeCast S1x128 x1 shapeCasts_S1x128_S1x128) broadcasts_S1x128_S5000x128 (ix2 p k))
      (Ideal.ofBits .f32 0x00000000#32) * x2 (ix2 k q) = _
  rw [hb, shapeCast_self, Ideal.ofBits_zero_f32]

/-! ## One entry of a block is one entry of the whole result -/

/-- Entry `j` of the body's result on blocks `x0`, `x1`, `x2` is entry `i` of the whole result on arrays `a`, `b`, `w`,
    when row `j 0` of `x0` is row `i 0` of `a`, the one row of `x1` is that of `b`, and column `j 1` of `x2` is
    column `i 1` of `w`. -/
theorem block_point (a : FVec Ideal Nodes .f32) (b : FVec Ideal S1x128 .f32) (w : FVec Ideal Sq .f32)
    (x0 : Vec Ideal S5000x128 .f32) (x1 : Vec Ideal S1x128 .f32) (x2 : Vec Ideal S128x128 .f32)
    (j : S5000x128.Idx) (i : S50000x128.Idx)
    (h0 : ∀ k : Fin 128, (x0 (ix2 (j 0) k) : EReal) = a (ix2 (i 0) k))
    (h1 : ∀ k : Fin 128, (x1 (ix2 0 k) : EReal) = b (ix2 0 k))
    (h2 : ∀ k : Fin 128, (x2 (ix2 k (j 1)) : EReal) = w (ix2 k (i 1))) :
    (k1_pay1 (F := Ideal) x0 x1 x2 : S5000x128.Idx → EReal) j = lin (act a (fun k => b (ix2 0 k))) w i := by
  obtain ⟨p, q, rfl⟩ : ∃ (p : Fin 5000) (q : Fin 128), j = ix2 p q := ⟨j 0, j 1, eq_ix2 j⟩
  refine (pay_apply x0 x1 x2 p q).trans ?_
  show _ = ∑ k : Fin 128, max (a (ix2 (i 0) k) + b (ix2 0 k)) 0 * w (ix2 k (i 1))
  exact Finset.sum_congr rfl fun k _ => by rw [h0 k, h1 k, h2 k]

/-! ## The blocks in the arrays -/

/-- The windows' block indices over the grid: the row windows (input rows, output rows) sit at block `t` on the row
    axis; every other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole result on the arrays as the region finds them. -/
theorem flushed_eq (c : Dev nD) (t : Fin cfg1.N) :
    (dat1 (F := Ideal) V c).flushed 3 t = ((cfg1.win 3).blk t).view.read (Elt Ideal)
      (lin (act (V c main_v8) (fun k => (V c main_v9 : S1x128.Idx → EReal) (ix2 0 k))) (V c main_arg5)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  funext j
  show (k1_pay1 (F := Ideal) (iblk1 V c 0 t) (iblk1 V c 1 t) (iblk1 V c 2 t) : S5000x128.Idx → EReal) j
    = lin (act (V c main_v8) (fun k => (V c main_v9 : S1x128.Idx → EReal) (ix2 0 k))) (V c main_arg5) (((cfg1.win 3).blk t).view.emb j)
  refine block_point (V c main_v8) (V c main_v9) (V c main_arg5) (iblk1 V c 0 t) (iblk1 V c 1 t) (iblk1 V c 2 t) j
    (((cfg1.win 3).blk t).view.emb j) (fun k => ?_) (fun k => ?_) (fun k => ?_)
  · show V c main_v8 (((cfg1.win 0).blk t).view.emb (ix2 (j 0) k)) = V c main_v8 (ix2 ((((cfg1.win 3).blk t).view.emb j) 0) k)
    refine congrArg (V c main_v8) (funext fun ax => Fin.ext ?_)
    match ax with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show V c main_v9 (((cfg1.win 1).blk t).view.emb (ix2 0 k)) = V c main_v9 (ix2 0 k)
    refine congrArg (V c main_v9) (funext fun ax => Fin.ext ?_)
    match ax with
    | ⟨0, _⟩ => show win1_1.index t (0 : Fin 2) * 1 + 1 * 0 = 0; omega
    | ⟨1, _⟩ => show win1_1.index t (1 : Fin 2) * 128 + 1 * k.val = k.val; omega
  · show V c main_arg5 (((cfg1.win 2).blk t).view.emb (ix2 k (j 1))) = V c main_arg5 (ix2 k ((((cfg1.win 3).blk t).view.emb j) 1))
    refine congrArg (V c main_arg5) (funext fun ax => Fin.ext ?_)
    match ax with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega

/-- An index of the output array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v10).slice (win1_3.rect t)).set ↔ _
  rw [View.set_slice_whole, Rect.mem_set_unit]
  exact Iff.rfl

/-- The ten blocks of 5000 rows tile the 50000 rows: row `r` is in block `r / 5000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region its output array holds the rectified, biased input times the weights, entry by entry. -/
theorem out (c : Dev nD) :
    ((dat1 (F := Ideal) V c).arrAt 3 cfg1.N : S50000x128.Idx → EReal)
      = lin (act (V c main_v8) (fun k => (V c main_v9 : S1x128.Idx → EReal) (ix2 0 k))) (V c main_arg5) := by
  exact (dat1 (F := Ideal) V c).arrAt_eq_of_cover 3
    (lin (act (V c main_v8) (fun k => (V c main_v9 : S1x128.Idx → EReal) (ix2 0 k))) (V c main_arg5))
    (fun t _ => flushed_eq V c t) cover

end Cert.KernelIdeal.Region1

end
-- ==== Proof.Region2.lean ====
/-
  The third region: bias and rectifier on the aggregated rows, then the third weight matrix, ten blocks of
  5000 nodes; the same computation as the second region at the next layer's buffers.
-/
import proofs.«403958_j78142634983506_1_alg».proof.Proof.Gen.KernelIdeal.Frame
import proofs.«403958_j78142634983506_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region2

open Cert.KernelIdeal Cert.KernelIdeal.Gen Cert.GcnLink
open Idealize.ShloMosaic Idealize.ShloMosaic.TcCoe Idealize.SL.Sem Idealize.ShloMosaic.ValueIdx
open Idealize.ShloMosaic.Pipeline (Dat Cfg Window)

-- the buffer contents the region is entered at: any
variable (V : (c : Dev nD) → (b : Ref sig .tc) → Buf (Elt Ideal) ((c : Thread nD τ).loc b))

/-- The all-zero offsets of a whole-block access, as the constant function. -/
theorem hz : (![0, 0] : Fin 2 → Nat) = fun _ => 0 := funext fun a => by fin_cases a <;> rfl

/-! ## The contraction's operand indices, axis by axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times the weights, into a zero accumulator, at row `p` and column `q`: the sum over the
    contracted feature `k` of the row's entry times the weight. -/
theorem matmul_zero_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (rhs_0 _ _).trans hk
    | ⟨1, _⟩ => exact rhs_1 _ _)
  rw [el, er]

/-- The body's arithmetic at row `p` and column `q` of a block: the block's row plus the bias row, rectified,
    against column `q` of the weights (a change of float format is the identity on the extended reals). -/
theorem pay_apply (x0 : Vec Ideal S5000x128 .f32) (x1 : Vec Ideal S1x128 .f32) (x2 : Vec Ideal S128x128 .f32)
    (p : Fin 5000) (q : Fin 128) :
    (k2_pay1 (F := Ideal) x0 x1 x2 : S5000x128.Idx → EReal) (ix2 p q)
      = ∑ k : Fin 128, max ((x0 (ix2 p k) : EReal) + x1 (ix2 0 k)) 0 * x2 (ix2 k q) := by
  unfold k2_pay1
  refine (matmul_zero_apply _ _ p q).trans ?_
  refine Finset.sum_congr rfl fun k _ => ?_
  have hb : broadcastTo S5000x128 (shapeCast S1x128 x1 shapeCasts_S1x128_S1x128) broadcasts_S1x128_S5000x128 (ix2 p k)
      = x1 (ix2 0 k) := by
    refine (broadcastTo_1b_ab_apply _ broadcasts_S1x128_S5000x128 p k).trans ?_
    rw [shapeCast_self]
  show max ((shapeCast S5000x128 x0 shapeCasts_S5000x128_S5000x128 (ix2 p k) : EReal)
        + broadcastTo S5000x128 (shapeCast S1x128 x1 shapeCasts_S1x128_S1x128) broadcasts_S1x128_S5000x128 (ix2 p k))
      (Ideal.ofBits .f32 0x00000000#32) * x2 (ix2 k q) = _
  rw [hb, shapeCast_self, Ideal.ofBits_zero_f32]

/-! ## One entry of a block is one entry of the whole result -/

/-- Entry `j` of the body's result on blocks `x0`, `x1`, `x2` is entry `i` of the whole result on arrays `a`, `b`, `w`,
    when row `j 0` of `x0` is row `i 0` of `a`, the one row of `x1` is that of `b`, and column `j 1` of `x2` is
    column `i 1` of `w`. -/
theorem block_point (a : FVec Ideal Nodes .f32) (b : FVec Ideal S1x128 .f32) (w : FVec Ideal Sq .f32)
    (x0 : Vec Ideal S5000x128 .f32) (x1 : Vec Ideal S1x128 .f32) (x2 : Vec Ideal S128x128 .f32)
    (j : S5000x128.Idx) (i : S50000x128.Idx)
    (h0 : ∀ k : Fin 128, (x0 (ix2 (j 0) k) : EReal) = a (ix2 (i 0) k))
    (h1 : ∀ k : Fin 128, (x1 (ix2 0 k) : EReal) = b (ix2 0 k))
    (h2 : ∀ k : Fin 128, (x2 (ix2 k (j 1)) : EReal) = w (ix2 k (i 1))) :
    (k2_pay1 (F := Ideal) x0 x1 x2 : S5000x128.Idx → EReal) j = lin (act a (fun k => b (ix2 0 k))) w i := by
  obtain ⟨p, q, rfl⟩ : ∃ (p : Fin 5000) (q : Fin 128), j = ix2 p q := ⟨j 0, j 1, eq_ix2 j⟩
  refine (pay_apply x0 x1 x2 p q).trans ?_
  show _ = ∑ k : Fin 128, max (a (ix2 (i 0) k) + b (ix2 0 k)) 0 * w (ix2 k (i 1))
  exact Finset.sum_congr rfl fun k _ => by rw [h0 k, h1 k, h2 k]

/-! ## The blocks in the arrays -/

/-- The windows' block indices over the grid: the row windows (input rows, output rows) sit at block `t` on the row
    axis; every other block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the whole result on the arrays as the region finds them. -/
theorem flushed_eq (c : Dev nD) (t : Fin cfg2.N) :
    (dat2 (F := Ideal) V c).flushed 3 t = ((cfg2.win 3).blk t).view.read (Elt Ideal)
      (lin (act (V c main_v14) (fun k => (V c main_v15 : S1x128.Idx → EReal) (ix2 0 k))) (V c main_arg7)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  funext j
  show (k2_pay1 (F := Ideal) (iblk2 V c 0 t) (iblk2 V c 1 t) (iblk2 V c 2 t) : S5000x128.Idx → EReal) j
    = lin (act (V c main_v14) (fun k => (V c main_v15 : S1x128.Idx → EReal) (ix2 0 k))) (V c main_arg7) (((cfg2.win 3).blk t).view.emb j)
  refine block_point (V c main_v14) (V c main_v15) (V c main_arg7) (iblk2 V c 0 t) (iblk2 V c 1 t) (iblk2 V c 2 t) j
    (((cfg2.win 3).blk t).view.emb j) (fun k => ?_) (fun k => ?_) (fun k => ?_)
  · show V c main_v14 (((cfg2.win 0).blk t).view.emb (ix2 (j 0) k)) = V c main_v14 (ix2 ((((cfg2.win 3).blk t).view.emb j) 0) k)
    refine congrArg (V c main_v14) (funext fun ax => Fin.ext ?_)
    match ax with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · show V c main_v15 (((cfg2.win 1).blk t).view.emb (ix2 0 k)) = V c main_v15 (ix2 0 k)
    refine congrArg (V c main_v15) (funext fun ax => Fin.ext ?_)
    match ax with
    | ⟨0, _⟩ => show win2_1.index t (0 : Fin 2) * 1 + 1 * 0 = 0; omega
    | ⟨1, _⟩ => show win2_1.index t (1 : Fin 2) * 128 + 1 * k.val = k.val; omega
  · show V c main_arg7 (((cfg2.win 2).blk t).view.emb (ix2 k (j 1))) = V c main_arg7 (ix2 k ((((cfg2.win 3).blk t).view.emb j) 1))
    refine congrArg (V c main_arg7) (funext fun ax => Fin.ext ?_)
    match ax with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega

/-- An index of the output array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v16).slice (win2_3.rect t)).set ↔ _
  rw [View.set_slice_whole, Rect.mem_set_unit]
  exact Iff.rfl

/-- The ten blocks of 5000 rows tile the 50000 rows: row `r` is in block `r / 5000`. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 :=
    ⟨⟨(i 0).val / 5000, by show (i 0).val / 5000 < grid2.N; omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After the region its output array holds the rectified, biased input times the weights, entry by entry. -/
theorem out (c : Dev nD) :
    ((dat2 (F := Ideal) V c).arrAt 3 cfg2.N : S50000x128.Idx → EReal)
      = lin (act (V c main_v14) (fun k => (V c main_v15 : S1x128.Idx → EReal) (ix2 0 k))) (V c main_arg7) := by
  exact (dat2 (F := Ideal) V c).arrAt_eq_of_cover 3
    (lin (act (V c main_v14) (fun k => (V c main_v15 : S1x128.Idx → EReal) (ix2 0 k))) (V c main_arg7))
    (fun t _ => flushed_eq V c t) cover

end Cert.KernelIdeal.Region2

end
-- ==== Proof.Region3.lean ====
/-
  The fourth region: the last bias added to every aggregated row, ten blocks of 5000 nodes: the node
  embeddings.
-/
import proofs.«403958_j78142634983506_1_alg».proof.Proof.Gen.KernelIdeal.Frame
import proofs.«403958_j78142634983506_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region3

open Cert.KernelIdeal Cert.KernelIdeal.Gen Cert.GcnLink
open Idealize.ShloMosaic Idealize.ShloMosaic.TcCoe Idealize.SL.Sem Idealize.ShloMosaic.ValueIdx
open Idealize.ShloMosaic.Pipeline (Dat Cfg Window)

/-! ## The block sum at an entry -/

/-- The zero offsets of a whole-block access, as the constant function. -/
theorem hz : (![0, 0] : Fin 2 → Nat) = fun _ => 0 := funext fun a => by fin_cases a <;> rfl

/-- Entry `(p, q)` of the body's block: the input block's entry plus entry `q` of the one bias row (the row is
    repeated down the 5000 rows; the two reshapes are to the same shape). -/
theorem pay_apply (x0 : Vec Ideal S5000x128 .f32) (x1 : Vec Ideal S1x128 .f32) (p : Fin 5000) (q : Fin 128) :
    (k3_pay1 (F := Ideal) x0 x1 : S5000x128.Idx → EReal) (ix2 p q)
      = (x0 : S5000x128.Idx → EReal) (ix2 p q) + (x1 : S1x128.Idx → EReal) (ix2 (0 : Fin 1) q) := by
  unfold k3_pay1
  refine (addf_apply _ _ _).trans ?_
  refine congrArg₂ (· + ·) ?_ ?_
  · exact congrFun (shapeCast_self x0 shapeCasts_S5000x128_S5000x128) (ix2 p q)
  · refine (broadcastTo_1b_ab_apply _ broadcasts_S1x128_S5000x128 p q).trans ?_
    exact congrFun (shapeCast_self x1 shapeCasts_S1x128_S1x128) (ix2 (0 : Fin 1) q)

/-- The shifted array at row `r`, column `q`: the entry plus entry `q` of the bias. -/
theorem shift_apply (a : FVec Ideal Nodes .f32) (b : Fin 128 → EReal) (r : Fin 50000) (q : Fin 128) :
    shift a b (ix2 r q) = a (ix2 r q) + b q := rfl

/-! ## The blocks of the three windows -/

/-- The index maps over the ten grid points: the input window and the output window sit at block `(t, 0)`, the
    bias window at block `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

-- the buffer contents the region is entered at: any
variable (V : (c : Dev nD) → (b : Ref sig .tc) → Buf (Elt Ideal) ((c : Thread nD τ).loc b))

/-- Row `p` of the input block at point `t` is row `5000 t + p` of the input array. -/
theorem in_blk_apply (c : Dev nD) (t : Fin cfg3.N) (p : Fin 5000) (q : Fin 128) (r : Fin 50000)
    (hr : r.val = 5000 * t.val + p.val) :
    (iblk3 V c 0 t : S5000x128.Idx → EReal) (ix2 p q) = (V c main_v20 : S50000x128.Idx → EReal) (ix2 r q) := by
  obtain ⟨e0, e1, -⟩ := idx_facts t
  unfold iblk3
  rw [View.read_apply]
  show V c main_v20 _ = V c main_v20 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

/-- The bias block at every point is the whole bias row. -/
theorem row_blk_apply (c : Dev nD) (t : Fin cfg3.N) (q : Fin 128) :
    (iblk3 V c 1 t : S1x128.Idx → EReal) (ix2 (0 : Fin 1) q) = (V c main_v21 : S1x128.Idx → EReal) (ix2 (0 : Fin 1) q) := by
  obtain ⟨-, -, e2, e3, -⟩ := idx_facts t
  unfold iblk3
  rw [View.read_apply]
  show V c main_v21 _ = V c main_v21 _
  congr 1
  funext a
  apply Fin.ext
  match a with
  | ⟨0, _⟩ => show win3_1.index t (0 : Fin 2) * 1 + 1 * (0 : Fin 1).val = (0 : Fin 1).val; rw [e2]; rfl
  | ⟨1, _⟩ => show win3_1.index t (1 : Fin 2) * 128 + 1 * q.val = q.val; rw [e3]; omega

/-- Entry `(p, q)` of the output block at point `t` sits at row `5000 t + p`, column `q` of the output array. -/
theorem out_blk_emb (t : Fin cfg3.N) (p : Fin 5000) (q : Fin 128) (r : Fin 50000) (hr : r.val = 5000 * t.val + p.val) :
    (((cfg3.win 2).blk t).view.emb (ix2 p q) : S50000x128.Idx) = ix2 r q := by
  obtain ⟨-, -, -, -, e4, e5⟩ := idx_facts t
  funext a
  apply Fin.ext
  match a with
  | ⟨0, _⟩ => show win3_2.index t (0 : Fin 2) * 5000 + 1 * p.val = r.val; rw [e4, hr]; omega
  | ⟨1, _⟩ => show win3_2.index t (1 : Fin 2) * 128 + 1 * q.val = q.val; rw [e5]; omega

/-! ## What a point writes back, and the whole array -/

/-- The body's block at point `t`, entry by entry, is the shifted array's entry at the place the block's entry has in
    the array. -/
theorem body_blk_apply (c : Dev nD) (t : Fin cfg3.N) (y : S5000x128.Idx) :
    (k3_pay1 (F := Ideal) (iblk3 V c 0 t) (iblk3 V c 1 t) : S5000x128.Idx → EReal) y
      = shift (V c main_v20) (fun k => (V c main_v21 : S1x128.Idx → EReal) (ix2 0 k)) (((cfg3.win 2).blk t).view.emb y) := by
  obtain ⟨p, q, rfl⟩ : ∃ (p : Fin 5000) (q : Fin 128), y = ix2 p q := ⟨y 0, y 1, eq_ix2 y⟩
  have ht : t.val < 10 := t.isLt
  have hp : p.val < 5000 := p.isLt
  have hlt : 5000 * t.val + p.val < 50000 := by omega
  refine (pay_apply _ _ p q).trans ?_
  rw [out_blk_emb t p q ⟨5000 * t.val + p.val, hlt⟩ rfl]
  refine Eq.trans ?_ (shift_apply _ _ ⟨5000 * t.val + p.val, hlt⟩ q).symm
  rw [in_blk_apply V c t p q ⟨5000 * t.val + p.val, hlt⟩ rfl, row_blk_apply V c t q]

/-- What point `t` writes back is block `t` of the shifted array. -/
theorem flushed_eq (c : Dev nD) (t : Fin cfg3.N) :
    (dat3 (F := Ideal) V c).flushed 2 t
      = ((cfg3.win 2).blk t).view.read (Elt Ideal)
          (shift (V c main_v20) (fun k => (V c main_v21 : S1x128.Idx → EReal) (ix2 0 k))) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  funext y
  exact body_blk_apply V c t y

/-- An index of the output array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v22).slice (win3_2.rect t)).set ↔ _
  rw [View.set_slice_whole, Rect.mem_set_unit]
  exact Iff.rfl

/-- The ten blocks tile the array: row `r` is in the block of point `r / 5000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 := ⟨⟨(i 0).val / 5000, by show (i 0).val / 5000 < 10; omega⟩, rfl⟩
  obtain ⟨-, -, -, -, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 128 ≤ (i 1).val ∧ (i 1).val < win3_2.index t (1 : Fin 2) * 128 + 128; rw [e5]; omega

/-- After the region its output array holds the input with the bias added to every row. -/
theorem out (c : Dev nD) :
    ((dat3 (F := Ideal) V c).arrAt 2 cfg3.N : S50000x128.Idx → EReal)
      = shift (V c main_v20) (fun k => (V c main_v21 : S1x128.Idx → EReal) (ix2 0 k)) := by
  exact (dat3 (F := Ideal) V c).arrAt_eq_of_cover 2
    (shift (V c main_v20) (fun k => (V c main_v21 : S1x128.Idx → EReal) (ix2 0 k)))
    (fun t _ => flushed_eq V c t) cover

end Cert.KernelIdeal.Region3

end
-- ==== Proof.Region4Pay.lean ====
/-
  The link head's arithmetic on one block of 2000 queried pairs, read at one entry.

  The body of the region computes, from a block `z` of 2000 rows of 128 pair features, the two weight matrices and
  biases of the hidden layers and the last weight matrix and bias: three linear layers (the first two rectified), the
  two scores of every row divided by their Euclidean norm (kept at least the floor), and the logarithm of the softmax
  of the two normalised scores.  Every step acts on one row alone; here the result at row `y`, score `j`, is written
  as the specification's `logSoftAt (unitAt s) j`, with `s` the two raw scores of that row (`blkScores`: the three
  layers as sums over the 128 features).  A change of float format is the identity on the extended reals; a product
  into the zero accumulator is the sum over the contracted feature; the sum and the maximum over the score axis are
  the sum and the fold of `max` over the two scores.
-/
import proofs.«403958_j78142634983506_1_alg».proof.Proof.Gen.KernelIdeal.Skeleton
import proofs.«403958_j78142634983506_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region4

open Cert.KernelIdeal Cert.KernelIdeal.Gen Cert.GcnLink
open Idealize.ShloMosaic Idealize.ShloMosaic.TcCoe Idealize.SL.Sem Idealize.ShloMosaic.ValueIdx

/-! ## Layout operations of a column kept as a unit axis -/

/-- A vector of `a` entries cast to one column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two reductions over the score axis -/

/-- The index the reduction over the score axis reads at row `y`, score `a`. -/
theorem lift_row (y : Fin 2000) (a : Fin 2) :
    reduces_S2000x2_S2000.lift (ix1 y) a = ix2 y a := by
  funext d; match d with | ⟨0, _⟩ => rfl | ⟨1, _⟩ => rfl

/-- The sum over the score axis at row `y`. -/
theorem sumScores_apply (v : FVec Ideal S2000x2 .f32) (y : Fin 2000) :
    multiReduction .add [1] S2000 v 0x00000000#32 reduces_S2000x2_S2000 (.inl rfl) rfl (ix1 y)
      = ∑ a : Fin 2, v (ix2 y a) := by
  refine (Ideal.multiReduction_add_single v 0x00000000#32 reduces_S2000x2_S2000 (.inl rfl) rfl (ix1 y)).trans ?_
  exact Finset.sum_congr rfl fun a _ => congrArg v (lift_row y a)

/-- The word of the maximum's start is the bottom element. -/
theorem negInf : Ideal.ofBits .f32 0xFF800000#32 = ⊥ := by simp [Ideal.ofBits, Ideal.ieee]

/-- The maximum over the score axis at row `y`. -/
theorem maxScores_apply (v : FVec Ideal S2000x2 .f32) (y : Fin 2000) :
    multiReduction .maximumf [1] S2000 v 0xFF800000#32 reduces_S2000x2_S2000 (.inl rfl) rfl (ix1 y)
      = topOf (fun a => v (ix2 y a)) := by
  refine (Ideal.multiReduction_maximumf_single v 0xFF800000#32 reduces_S2000x2_S2000 (.inl rfl) rfl (ix1 y)).trans ?_
  unfold topOf
  show (Finset.univ : Finset (Fin 2)).fold max (Ideal.ofBits .f32 0xFF800000#32) _ = _
  rw [negInf]
  have e : (v ∘ reduces_S2000x2_S2000.lift (ix1 y)) = fun a => v (ix2 y a) :=
    funext fun a => congrArg v (lift_row y a)
  rw [e]

/-! ## The two products read at an entry -/

theorem lhs_mmSq_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mmSq_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mmSq_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mmSq_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator at `(y, k)`: the sum over the 128 contracted features. -/
theorem mmSq_apply (l : FVec Ideal S2000x128 .bf16) (r : FVec Ideal S128x128 .bf16) (y : Fin 2000) (k : Fin 128) :
    matmul dot_S2000x128_S128x128_S2000x128_1_0_0_1_n_n none l r (constant S2000x128 .f32 0x00000000#32) (ix2 y k)
      = ∑ a : Fin 128, l (ix2 y a) * r (ix2 a k) := by
  refine (Ideal.matmul_constant_zero_apply dot_S2000x128_S128x128_S2000x128_1_0_0_1_n_n none l r (ix2 y k)).trans ?_
  rw [← Equiv.sum_comp (ValueIdx.contrEquiv1 dot_S2000x128_S128x128_S2000x128_1_0_0_1_n_n 128 rfl rfl).symm]
  refine Finset.sum_congr rfl fun a _ => ?_
  have ha := ValueIdx.contrEquiv1_symm_val dot_S2000x128_S128x128_S2000x128_1_0_0_1_n_n 128 rfl rfl a
  have el : dot_S2000x128_S128x128_S2000x128_1_0_0_1_n_n.lhsIdx (ix2 y k) ((ValueIdx.contrEquiv1 dot_S2000x128_S128x128_S2000x128_1_0_0_1_n_n 128 rfl rfl).symm a) = ix2 y a := funext fun d => Fin.ext (by
    match d with
    | ⟨0, _⟩ => exact lhs_mmSq_0 _ _
    | ⟨1, _⟩ => exact (lhs_mmSq_1 _ _).trans ha)
  have er : dot_S2000x128_S128x128_S2000x128_1_0_0_1_n_n.rhsIdx (ix2 y k) ((ValueIdx.contrEquiv1 dot_S2000x128_S128x128_S2000x128_1_0_0_1_n_n 128 rfl rfl).symm a) = ix2 a k := funext fun d => Fin.ext (by
    match d with
    | ⟨0, _⟩ => exact (rhs_mmSq_0 _ _).trans ha
    | ⟨1, _⟩ => exact rhs_mmSq_1 _ _)
  rw [el, er]

theorem lhs_mmLast_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhs_mmLast_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhs_mmLast_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhs_mmLast_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The product into the zero accumulator at `(y, k)`: the sum over the 128 contracted features. -/
theorem mmLast_apply (l : FVec Ideal S2000x128 .bf16) (r : FVec Ideal S128x2 .bf16) (y : Fin 2000) (k : Fin 2) :
    matmul dot_S2000x128_S128x2_S2000x2_1_0_0_1_n_n none l r (constant S2000x2 .f32 0x00000000#32) (ix2 y k)
      = ∑ a : Fin 128, l (ix2 y a) * r (ix2 a k) := by
  refine (Ideal.matmul_constant_zero_apply dot_S2000x128_S128x2_S2000x2_1_0_0_1_n_n none l r (ix2 y k)).trans ?_
  rw [← Equiv.sum_comp (ValueIdx.contrEquiv1 dot_S2000x128_S128x2_S2000x2_1_0_0_1_n_n 128 rfl rfl).symm]
  refine Finset.sum_congr rfl fun a _ => ?_
  have ha := ValueIdx.contrEquiv1_symm_val dot_S2000x128_S128x2_S2000x2_1_0_0_1_n_n 128 rfl rfl a
  have el : dot_S2000x128_S128x2_S2000x2_1_0_0_1_n_n.lhsIdx (ix2 y k) ((ValueIdx.contrEquiv1 dot_S2000x128_S128x2_S2000x2_1_0_0_1_n_n 128 rfl rfl).symm a) = ix2 y a := funext fun d => Fin.ext (by
    match d with
    | ⟨0, _⟩ => exact lhs_mmLast_0 _ _
    | ⟨1, _⟩ => exact (lhs_mmLast_1 _ _).trans ha)
  have er : dot_S2000x128_S128x2_S2000x2_1_0_0_1_n_n.rhsIdx (ix2 y k) ((ValueIdx.contrEquiv1 dot_S2000x128_S128x2_S2000x2_1_0_0_1_n_n 128 rfl rfl).symm a) = ix2 a k := funext fun d => Fin.ext (by
    match d with
    | ⟨0, _⟩ => exact (rhs_mmLast_0 _ _).trans ha
    | ⟨1, _⟩ => exact rhs_mmLast_1 _ _)
  rw [el, er]

/-! ## The pointwise functions and the two constants -/

theorem sqrtAt {s : Shape} (a : FVec Ideal s .f32) (i : s.Idx) : sqrt a i = Ideal.sqrt (a i) := rfl
theorem expAt {s : Shape} (a : FVec Ideal s .f32) (i : s.Idx) : exp a i = Ideal.exp (a i) := rfl
theorem logAt {s : Shape} (a : FVec Ideal s .f32) (i : s.Idx) : log a i = Ideal.log (a i) := rfl
/-- The rectifier's word is zero. -/
theorem zeroWord : (Scalar.ofBits .f32 0x00000000#32 : Ideal .f32) = 0 := Ideal.ofBits_zero_f32
/-- The word under the norm is the specification's floor. -/
theorem floorWord : (Scalar.ofBits .f32 0x2B8CBCCC#32 : Ideal .f32) = floor := rfl

/-! ## The head on one block of 2000 pairs -/

/-- The first hidden layer of the block's pair `y`, feature `k`. -/
def blkHid1 (z : FVec Ideal S2000x128 .f32) (p1 : FVec Ideal S128x128 .f32) (q1 : FVec Ideal S1x128 .f32)
    (y : Fin 2000) (k : Fin 128) : EReal :=
  max ((∑ a : Fin 128, z (ix2 y a) * p1 (ix2 a k)) + q1 (ix2 0 k)) 0

/-- The second hidden layer of the block's pair `y`, feature `k`. -/
def blkHid2 (z : FVec Ideal S2000x128 .f32) (p1 : FVec Ideal S128x128 .f32) (q1 : FVec Ideal S1x128 .f32)
    (p2 : FVec Ideal S128x128 .f32) (q2 : FVec Ideal S1x128 .f32) (y : Fin 2000) (k : Fin 128) : EReal :=
  max ((∑ a : Fin 128, blkHid1 z p1 q1 y a * p2 (ix2 a k)) + q2 (ix2 0 k)) 0

/-- The two raw scores of the block's pair `y`. -/
def blkScores (z : FVec Ideal S2000x128 .f32) (p1 : FVec Ideal S128x128 .f32) (q1 : FVec Ideal S1x128 .f32)
    (p2 : FVec Ideal S128x128 .f32) (q2 : FVec Ideal S1x128 .f32) (p3 : FVec Ideal S128x2 .f32) (q3 : FVec Ideal S1x2 .f32)
    (y : Fin 2000) (j : Fin 2) : EReal :=
  (∑ a : Fin 128, blkHid2 z p1 q1 p2 q2 y a * p3 (ix2 a j)) + q3 (ix2 0 j)

/-- The softmax part at `(y, j)`: the logarithm of the softmax of row `y`. -/
theorem pay1_apply (v : FVec Ideal S2000x2 .f32) (y : Fin 2000) (j : Fin 2) :
    k4_pay1 (F := Ideal) v (ix2 y j) = logSoftAt (fun a => v (ix2 y a)) j := by
  unfold k4_pay1
  dsimp only
  simp only [subf_apply, logAt, broadcastTo_a1_ab_apply, shapeCast_a_a1_apply]
  rw [sumScores_apply]
  simp only [subf_apply, expAt, broadcastTo_a1_ab_apply, shapeCast_a_a1_apply]
  rw [maxScores_apply]
  rfl

/-- The scores part at `(y, j)`: the scores of pair `y` divided by their norm. -/
theorem pay2_apply (x0 : Vec Ideal S2000x128 .f32) (x1 : Vec Ideal S128x128 .f32) (x2 : Vec Ideal S1x128 .f32)
    (x3 : Vec Ideal S128x128 .f32) (x4 : Vec Ideal S1x128 .f32) (x5 : Vec Ideal S128x2 .f32) (x6 : Vec Ideal S1x2 .f32)
    (y : Fin 2000) (j : Fin 2) :
    k4_pay2 (F := Ideal) x0 x1 x2 x3 x4 x5 x6 (ix2 y j) = unitAt (blkScores x0 x1 x2 x3 x4 x5 x6 y) j := by
  unfold k4_pay2
  dsimp only
  simp only [divf_apply, maximumf_apply, broadcast_apply, sqrtAt, broadcastTo_a1_ab_apply, shapeCast_a_a1_apply]
  rw [sumScores_apply]
  simp only [addf_apply, mulf_apply, maximumf_apply, truncf_apply, broadcast_apply,
    mmLast_apply, mmSq_apply, broadcastTo_1b_ab_apply, shapeCast_self, zeroWord, floorWord]
  rfl

/-- The body's arithmetic at `(y, j)`: the two log-probabilities of the block's pair `y`. -/
theorem pay_apply (x0 : Vec Ideal S2000x128 .f32) (x1 : Vec Ideal S128x128 .f32) (x2 : Vec Ideal S1x128 .f32)
    (x3 : Vec Ideal S128x128 .f32) (x4 : Vec Ideal S1x128 .f32) (x5 : Vec Ideal S128x2 .f32) (x6 : Vec Ideal S1x2 .f32)
    (y : Fin 2000) (j : Fin 2) :
    k4_pay1 (F := Ideal) (k4_pay2 (F := Ideal) x0 x1 x2 x3 x4 x5 x6) (ix2 y j)
      = logSoftAt (unitAt (blkScores x0 x1 x2 x3 x4 x5 x6 y)) j := by
  rw [pay1_apply]
  exact congrArg (fun u => logSoftAt u j) (funext fun a => pay2_apply x0 x1 x2 x3 x4 x5 x6 y a)

end Cert.KernelIdeal.Region4

end
-- ==== Proof.Region4.lean ====
/-
  The fifth region: the link head, fifty blocks of 2000 queried pairs.  Every step of the head acts on one
  pair's row alone (three linear layers, the norm of the two scores, the softmax over the two scores), so a
  block's rows are rows of the whole result and the fifty blocks tile the array.
-/
import proofs.«403958_j78142634983506_1_alg».proof.Proof.Gen.KernelIdeal.Frame
import proofs.«403958_j78142634983506_1_alg».proof.Proof.Spec
import proofs.«403958_j78142634983506_1_alg».proof.Proof.Region4Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region4

open Cert.KernelIdeal Cert.KernelIdeal.Gen Cert.GcnLink
open Idealize.ShloMosaic Idealize.ShloMosaic.TcCoe Idealize.SL.Sem Idealize.ShloMosaic.ValueIdx
open Idealize.ShloMosaic.Pipeline (Dat Cfg Window)

-- the buffer contents the region is entered at: any
variable (V : (c : Dev nD) → (b : Ref sig .tc) → Buf (Elt Ideal) ((c : Thread nD τ).loc b))

/-! ## Where each window's block lies -/

theorem hz : (![0, 0] : Fin 2 → Nat) = fun _ => 0 := funext fun a => by fin_cases a <;> rfl

/-- The block indices over the fifty points: the pair features and the result move one block of 2000 rows per
    point; the weights and biases stay at their one block. -/
theorem idx_facts : ∀ t : Fin cfg4.N,
    win4_0.index t (0 : Fin 2) = t.val ∧ win4_0.index t (1 : Fin 2) = 0
    ∧ win4_7.index t (0 : Fin 2) = t.val ∧ win4_7.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Row `y` of the pair features' block at point `t` is row `2000 t + y` of the pair features. -/
theorem blk0_apply (c : Dev nD) (t : Fin cfg4.N) (y : Fin 2000) (a : Fin 128) (r : Fin 100000)
    (hr : r.val = 2000 * t.val + y.val) :
    (iblk4 V c 0 t : Vec Ideal S2000x128 .f32) (ix2 y a) = (V c main_v29 : S100000x128.Idx → EReal) (ix2 r a) := by
  obtain ⟨e0, e1, -⟩ := idx_facts t
  unfold iblk4
  rw [View.read_apply]
  show V c main_v29 _ = V c main_v29 _
  congr 1
  funext d
  apply Fin.ext
  match d with
  | ⟨0, _⟩ => show win4_0.index t (0 : Fin 2) * 2000 + 1 * y.val = r.val; rw [e0, hr]; omega
  | ⟨1, _⟩ => show win4_0.index t (1 : Fin 2) * 128 + 1 * a.val = a.val; rw [e1]; omega

/-- The first weight matrix's block is the whole matrix at every point. -/
theorem blk1_apply (c : Dev nD) (t : Fin cfg4.N) (a k : Fin 128) :
    (iblk4 V c 1 t : Vec Ideal S128x128 .f32) (ix2 a k) = (V c main_arg9 : S128x128.Idx → EReal) (ix2 a k) := by
  obtain ⟨-, -, -, -, e0, e1, -⟩ := idx_facts t
  unfold iblk4
  rw [View.read_apply]
  show V c main_arg9 _ = V c main_arg9 _
  congr 1
  funext d
  apply Fin.ext
  match d with
  | ⟨0, _⟩ => show win4_1.index t (0 : Fin 2) * 128 + 1 * a.val = a.val; rw [e0]; omega
  | ⟨1, _⟩ => show win4_1.index t (1 : Fin 2) * 128 + 1 * k.val = k.val; rw [e1]; omega

/-- The first bias's block is the whole row at every point. -/
theorem blk2_apply (c : Dev nD) (t : Fin cfg4.N) (u : Fin 1) (k : Fin 128) :
    (iblk4 V c 2 t : Vec Ideal S1x128 .f32) (ix2 u k) = (V c main_v30 : S1x128.Idx → EReal) (ix2 u k) := by
  obtain ⟨-, -, -, -, -, -, e0, e1, -⟩ := idx_facts t
  unfold iblk4
  rw [View.read_apply]
  show V c main_v30 _ = V c main_v30 _
  congr 1
  funext d
  apply Fin.ext
  match d with
  | ⟨0, _⟩ => show win4_2.index t (0 : Fin 2) * 1 + 1 * u.val = u.val; rw [e0]; omega
  | ⟨1, _⟩ => show win4_2.index t (1 : Fin 2) * 128 + 1 * k.val = k.val; rw [e1]; omega

/-- The second weight matrix's block is the whole matrix at every point. -/
theorem blk3_apply (c : Dev nD) (t : Fin cfg4.N) (a : Fin 128) (k : Fin 128) :
    (iblk4 V c 3 t : Vec Ideal S128x128 .f32) (ix2 a k) = (V c main_arg11 : S128x128.Idx → EReal) (ix2 a k) := by
  obtain ⟨-, -, -, -, -, -, -, -, e0, e1, -⟩ := idx_facts t
  unfold iblk4
  rw [View.read_apply]
  show V c main_arg11 _ = V c main_arg11 _
  congr 1
  funext d
  apply Fin.ext
  match d with
  | ⟨0, _⟩ => show win4_3.index t (0 : Fin 2) * 128 + 1 * a.val = a.val; rw [e0]; omega
  | ⟨1, _⟩ => show win4_3.index t (1 : Fin 2) * 128 + 1 * k.val = k.val; rw [e1]; omega

/-- The second bias's block is the whole row at every point. -/
theorem blk4_apply (c : Dev nD) (t : Fin cfg4.N) (u : Fin 1) (k : Fin 128) :
    (iblk4 V c 4 t : Vec Ideal S1x128 .f32) (ix2 u k) = (V c main_v31 : S1x128.Idx → EReal) (ix2 u k) := by
  obtain ⟨-, -, -, -, -, -, -, -, -, -, e0, e1, -⟩ := idx_facts t
  unfold iblk4
  rw [View.read_apply]
  show V c main_v31 _ = V c main_v31 _
  congr 1
  funext d
  apply Fin.ext
  match d with
  | ⟨0, _⟩ => show win4_4.index t (0 : Fin 2) * 1 + 1 * u.val = u.val; rw [e0]; omega
  | ⟨1, _⟩ => show win4_4.index t (1 : Fin 2) * 128 + 1 * k.val = k.val; rw [e1]; omega

/-- The last weight matrix's block is the whole matrix at every point. -/
theorem blk5_apply (c : Dev nD) (t : Fin cfg4.N) (a : Fin 128) (j : Fin 2) :
    (iblk4 V c 5 t : Vec Ideal S128x2 .f32) (ix2 a j) = (V c main_arg13 : S128x2.Idx → EReal) (ix2 a j) := by
  obtain ⟨-, -, -, -, -, -, -, -, -, -, -, -, e0, e1, -⟩ := idx_facts t
  unfold iblk4
  rw [View.read_apply]
  show V c main_arg13 _ = V c main_arg13 _
  congr 1
  funext d
  apply Fin.ext
  match d with
  | ⟨0, _⟩ => show win4_5.index t (0 : Fin 2) * 128 + 1 * a.val = a.val; rw [e0]; omega
  | ⟨1, _⟩ => show win4_5.index t (1 : Fin 2) * 2 + 1 * j.val = j.val; rw [e1]; omega

/-- The last bias's block is the whole row at every point. -/
theorem blk6_apply (c : Dev nD) (t : Fin cfg4.N) (u : Fin 1) (j : Fin 2) :
    (iblk4 V c 6 t : Vec Ideal S1x2 .f32) (ix2 u j) = (V c main_v32 : S1x2.Idx → EReal) (ix2 u j) := by
  obtain ⟨-, -, -, -, -, -, -, -, -, -, -, -, -, -, e0, e1⟩ := idx_facts t
  unfold iblk4
  rw [View.read_apply]
  show V c main_v32 _ = V c main_v32 _
  congr 1
  funext d
  apply Fin.ext
  match d with
  | ⟨0, _⟩ => show win4_6.index t (0 : Fin 2) * 1 + 1 * u.val = u.val; rw [e0]; omega
  | ⟨1, _⟩ => show win4_6.index t (1 : Fin 2) * 2 + 1 * j.val = j.val; rw [e1]; omega

/-- Entry `(y, q)` of the result's block at point `t` is entry `(2000 t + y, q)` of the result. -/
theorem emb7 (t : Fin cfg4.N) (y : Fin 2000) (q : Fin 2) (r : Fin 100000) (hr : r.val = 2000 * t.val + y.val) :
    (((cfg4.win 7).blk t).view.emb (ix2 y q) : S100000x2.Idx) = ix2 r q := by
  obtain ⟨-, -, e0, e1, -⟩ := idx_facts t
  funext d
  apply Fin.ext
  match d with
  | ⟨0, _⟩ => show win4_7.index t (0 : Fin 2) * 2000 + 1 * y.val = r.val; rw [e0, hr]; omega
  | ⟨1, _⟩ => show win4_7.index t (1 : Fin 2) * 2 + 1 * q.val = q.val; rw [e1]; omega

/-! ## A block's scores are the specification's -/

/-- The scores of a block's row `y` are the specification's scores of pair `r` when the block's row is the pair's
    features and the weights and biases are the specification's. -/
theorem blkScores_eq (z : FVec Ideal S2000x128 .f32) (p1 : FVec Ideal S128x128 .f32) (q1 : FVec Ideal S1x128 .f32)
    (p2 : FVec Ideal S128x128 .f32) (q2 : FVec Ideal S1x128 .f32) (p3 : FVec Ideal S128x2 .f32) (q3 : FVec Ideal S1x2 .f32)
    (Z : FVec Ideal Pairs .f32) (P1 : FVec Ideal Sq .f32) (Q1 : Fin 128 → EReal) (P2 : FVec Ideal Sq .f32) (Q2 : Fin 128 → EReal)
    (P3 : FVec Ideal Last .f32) (Q3 : Fin 2 → EReal) (y : Fin 2000) (r : Fin 100000)
    (hz : ∀ a, z (ix2 y a) = Z (ix2 r a)) (h1 : ∀ a k, p1 (ix2 a k) = P1 (ix2 a k)) (hq1 : ∀ k, q1 (ix2 0 k) = Q1 k)
    (h2 : ∀ a k, p2 (ix2 a k) = P2 (ix2 a k)) (hq2 : ∀ k, q2 (ix2 0 k) = Q2 k)
    (h3 : ∀ a j, p3 (ix2 a j) = P3 (ix2 a j)) (hq3 : ∀ j, q3 (ix2 0 j) = Q3 j) :
    blkScores z p1 q1 p2 q2 p3 q3 y = scoresAt Z P1 Q1 P2 Q2 P3 Q3 r := by
  funext j
  unfold blkScores scoresAt blkHid2 hid2At blkHid1 hid1At
  simp only [hz, h1, hq1, h2, hq2, h3, hq3]

/-! ## What a point writes back, and the whole array -/

/-- What point `t` writes back is block `t` of the specification's head of the arrays the region finds. -/
theorem flushed_eq (c : Dev nD) (t : Fin cfg4.N) :
    (dat4 (F := Ideal) V c).flushed 7 t = ((cfg4.win 7).blk t).view.read (Elt Ideal)
      (head (V c main_v29) (V c main_arg9) (fun k => (V c main_v30 : S1x128.Idx → EReal) (ix2 0 k))
          (V c main_arg11) (fun k => (V c main_v31 : S1x128.Idx → EReal) (ix2 0 k))
          (V c main_arg13) (fun k => (V c main_v32 : S1x2.Idx → EReal) (ix2 0 k))) := by
  show (cfg4.win 7).cut (grid4.coords t) ((dat4 V c).after 7 t) = _
  rw [after4_7]
  unfold out4_7
  rw [View.canon_unit_zero hz]
  simp only [View.ld_unit_zero (S := S2000x128) hz, View.ld_unit_zero (S := S128x128) hz, View.ld_unit_zero (S := S1x128) hz,
    View.ld_unit_zero (S := S128x2) hz, View.ld_unit_zero (S := S1x2) hz]
  funext j
  obtain ⟨y, q, rfl⟩ : ∃ (y : Fin 2000) (q : Fin 2), j = ix2 y q := ⟨j 0, j 1, eq_ix2 j⟩
  have hlt : 2000 * t.val + y.val < 100000 := by
    have := t.isLt; have hN : cfg4.N = 50 := N_4; omega
  rw [View.read_apply, emb7 t y q ⟨2000 * t.val + y.val, hlt⟩ rfl]
  show k4_pay1 (F := Ideal) (k4_pay2 (F := Ideal) (iblk4 V c 0 t) (iblk4 V c 1 t) (iblk4 V c 2 t) (iblk4 V c 3 t) (iblk4 V c 4 t)
      (iblk4 V c 5 t) (iblk4 V c 6 t)) (ix2 y q)
    = logSoftAt (unitAt (scoresAt (V c main_v29) (V c main_arg9) (fun k => (V c main_v30 : S1x128.Idx → EReal) (ix2 0 k))
          (V c main_arg11) (fun k => (V c main_v31 : S1x128.Idx → EReal) (ix2 0 k))
          (V c main_arg13) (fun k => (V c main_v32 : S1x2.Idx → EReal) (ix2 0 k)) ⟨2000 * t.val + y.val, hlt⟩)) q
  rw [pay_apply]
  refine congrArg (fun s => logSoftAt (unitAt s) q) ?_
  exact blkScores_eq _ _ _ _ _ _ _ _ _ _ _ _ _ _ y ⟨2000 * t.val + y.val, hlt⟩
    (fun a => blk0_apply V c t y a _ rfl) (fun a k => blk1_apply V c t a k) (fun k => blk2_apply V c t 0 k)
    (fun a k => blk3_apply V c t a k) (fun k => blk4_apply V c t 0 k)
    (fun a j => blk5_apply V c t a j) (fun j => blk6_apply V c t 0 j)

/-- An entry of the result is in point `t`'s block iff each coordinate is in the block's range on its axis. -/
theorem mem_blk (t : Fin cfg4.N) (i : S100000x2.Idx) :
    i ∈ ((cfg4.win 7).blk t).view.set ↔ ∀ a : Fin 2, win4_7.index t a * S2000x2.size a ≤ (i a).val
      ∧ (i a).val < win4_7.index t a * S2000x2.size a + S2000x2.size a := by
  show i ∈ ((View.whole main_v33).slice (win4_7.rect t)).set ↔ _
  rw [View.set_slice_whole, Rect.mem_set_unit]
  exact Iff.rfl

/-- The fifty blocks tile the result: pair `r` lies in the block of point `r / 2000`. -/
theorem cover (i : S100000x2.Idx) :
    ∃ t : Fin cfg4.N, (cfg4.win 7).flush t = true ∧ i ∈ ((cfg4.win 7).blk t).view.set := by
  have hi0 : (i 0).val < 100000 := (i 0).isLt
  have hi1 : (i 1).val < 2 := (i 1).isLt
  have hN : cfg4.N = 50 := N_4
  obtain ⟨t, ht⟩ : ∃ t : Fin cfg4.N, t.val = (i 0).val / 2000 := ⟨⟨(i 0).val / 2000, by rw [hN]; omega⟩, rfl⟩
  obtain ⟨-, -, e0, e1, -⟩ := idx_facts t
  refine ⟨t, flush4_7 t, ?_⟩
  rw [mem_blk]
  intro a
  match a with
  | ⟨0, _⟩ =>
    show win4_7.index t (0 : Fin 2) * 2000 ≤ (i 0).val ∧ (i 0).val < win4_7.index t (0 : Fin 2) * 2000 + 2000
    rw [e0, ht]; omega
  | ⟨1, _⟩ =>
    show win4_7.index t (1 : Fin 2) * 2 ≤ (i 1).val ∧ (i 1).val < win4_7.index t (1 : Fin 2) * 2 + 2
    rw [e1]; omega

/-- After the region its output array holds the two log-probabilities of every queried pair. -/
theorem out (c : Dev nD) :
    ((dat4 (F := Ideal) V c).arrAt 7 cfg4.N : S100000x2.Idx → EReal)
      = head (V c main_v29) (V c main_arg9) (fun k => (V c main_v30 : S1x128.Idx → EReal) (ix2 0 k))
          (V c main_arg11) (fun k => (V c main_v31 : S1x128.Idx → EReal) (ix2 0 k))
          (V c main_arg13) (fun k => (V c main_v32 : S1x2.Idx → EReal) (ix2 0 k)) := by
  exact (dat4 (F := Ideal) V c).arrAt_eq_of_cover 7 _ (fun t _ => flushed_eq V c t) cover

end Cert.KernelIdeal.Region4

end
-- ==== Proof.ChainA.lean ====
/-
  The idealized kernel program from its launch to the exit of its second region.  The buffer contents at each
  boundary are a fold from the launch memory.  Walking it forward: the edge list's two rows are read off the
  argument; the first region leaves the features times the first weights; the rows gathered along the edges
  (every source node names a row of the table, so the gather fills nothing) are summed into their destination
  rows; the first bias becomes one row; the second region leaves the rectified, biased sums times the second
  weights.  The edge rows and the arguments the later layers read are written by nothing on the way.
-/
import proofs.«403958_j78142634983506_1_alg».proof.Proof.Gen.KernelIdeal.Frame
import proofs.«403958_j78142634983506_1_alg».proof.Proof.Spec
import proofs.«403958_j78142634983506_1_alg».proof.Proof.Keep
import proofs.«403958_j78142634983506_1_alg».proof.Proof.Stretches
import proofs.«403958_j78142634983506_1_alg».proof.Proof.StretchTake
import proofs.«403958_j78142634983506_1_alg».proof.Proof.Rows
import proofs.«403958_j78142634983506_1_alg».proof.Proof.Take
import proofs.«403958_j78142634983506_1_alg».proof.Proof.Region0
import proofs.«403958_j78142634983506_1_alg».proof.Proof.Region1
import proofs.«403958_j78142634983506_1_alg».proof.Proof.Region2
import proofs.«403958_j78142634983506_1_alg».proof.Proof.Region3
import proofs.«403958_j78142634983506_1_alg».proof.Proof.Region4
import Idealize.ShloMosaic.Lib.ValueIdx

set_option maxRecDepth 16384

noncomputable section

namespace Cert.KernelIdeal.ChainA

open Cert.KernelIdeal Cert.KernelIdeal.Gen Cert.KernelIdeal.Ops Cert.KernelIdeal.Take Cert.KernelIdeal.Keep Cert.GcnLink
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- An argument's buffer as launched. -/
abbrev arg (b : Ref sig .tc) : Buf (Elt Ideal) ((c : Thread nD τ).loc b) := m ((c : Thread nD τ).loc b)

/-- One layer's aggregation along the edges `adj`: gather the source rows, sum them into their destination rows. -/
abbrev agg (adj : IVec S2x800000 32) (h : FVec Ideal S50000x128 .f32) : FVec Ideal S50000x128 .f32 :=
  sumE (rowsE h (srcOf adj)) (dstOf adj)

/-! ## Buffers nothing writes on the way -/

/-- A buffer that neither of the first two regions nor any of the three stretches before them writes holds, at the
    second region's exit, what it held at the launch. -/
local macro "kept_to5 " m:ident ρ:ident c:ident b:ident : tactic => `(tactic|
  exact (W5_of_ne $m $ρ $c $b (by decide)).trans
    ((show W4 $m $ρ $c (Proc.devRef .tc $b) = W3 $m $ρ $c (Proc.devRef .tc $b) by keep_across hostOps1_1).trans
    ((show W3 $m $ρ $c (Proc.devRef .tc $b) = W2 $m $ρ $c (Proc.devRef .tc $b) by keep_across hostOps1).trans
    ((W2_of_ne $m $ρ $c $b (by decide)).trans
    ((show W1 $m $ρ $c (Proc.devRef .tc $b) = W0 $m $ρ $c (Proc.devRef .tc $b) by keep_across hostOps0).trans rfl)))))

/-! ## Before the first region -/

/-- The edge list's source row. -/
theorem v1_at1 : W1 m ρ c (Proc.devRef .tc main_v1) = srcOf (arg m c main_arg1) := Stretch.src (W0 m ρ c)
/-- The edge list's destination row. -/
theorem v3_at1 : W1 m ρ c (Proc.devRef .tc main_v3) = dstOf (arg m c main_arg1) := Stretch.dst (W0 m ρ c)
/-- The features, the first weights, the first bias and the second weights are as launched. -/
theorem arg0_at1 : W1 m ρ c (Proc.devRef .tc main_arg0) = arg m c main_arg0 :=
  (show W1 m ρ c (Proc.devRef .tc main_arg0) = W0 m ρ c (Proc.devRef .tc main_arg0) by keep_across hostOps0).trans rfl
theorem arg3_at1 : W1 m ρ c (Proc.devRef .tc main_arg3) = arg m c main_arg3 :=
  (show W1 m ρ c (Proc.devRef .tc main_arg3) = W0 m ρ c (Proc.devRef .tc main_arg3) by keep_across hostOps0).trans rfl
theorem arg4_at1 : W1 m ρ c (Proc.devRef .tc main_arg4) = arg m c main_arg4 :=
  (show W1 m ρ c (Proc.devRef .tc main_arg4) = W0 m ρ c (Proc.devRef .tc main_arg4) by keep_across hostOps0).trans rfl
theorem arg5_at1 : W1 m ρ c (Proc.devRef .tc main_arg5) = arg m c main_arg5 :=
  (show W1 m ρ c (Proc.devRef .tc main_arg5) = W0 m ρ c (Proc.devRef .tc main_arg5) by keep_across hostOps0).trans rfl

/-! ## At the first region's exit -/

/-- The first region leaves the features times the first weights. -/
theorem v4_at2 : (W2 m ρ c (Proc.devRef .tc main_v4) : S50000x128.Idx → EReal) = lin (arg m c main_arg0) (arg m c main_arg3) :=
  (W2_arr m ρ c 2).trans ((Region0.out (V1 m ρ) c).trans (congrArg₂ lin (arg0_at1 m ρ c) (arg3_at1 m ρ c)))
theorem v1_at2 : W2 m ρ c (Proc.devRef .tc main_v1) = srcOf (arg m c main_arg1) :=
  (W2_of_ne m ρ c main_v1 (by decide)).trans (v1_at1 m ρ c)
theorem v3_at2 : W2 m ρ c (Proc.devRef .tc main_v3) = dstOf (arg m c main_arg1) :=
  (W2_of_ne m ρ c main_v3 (by decide)).trans (v3_at1 m ρ c)
theorem arg4_at2 : W2 m ρ c (Proc.devRef .tc main_arg4) = arg m c main_arg4 :=
  (W2_of_ne m ρ c main_arg4 (by decide)).trans (arg4_at1 m ρ c)
theorem arg5_at2 : W2 m ρ c (Proc.devRef .tc main_arg5) = arg m c main_arg5 :=
  (W2_of_ne m ρ c main_arg5 (by decide)).trans (arg5_at1 m ρ c)

/-! ## After the gather along the edges -/

/-- Every source node names a row of the table, so the gather fills nothing: the rows of the product along the edges. -/
theorem v5_at3 (hS : InTable (srcOf (arg m c main_arg1))) :
    W3 m ρ c (Proc.devRef .tc main_v5) = rowsE (lin (arg m c main_arg0) (arg m c main_arg3)) (srcOf (arg m c main_arg1)) :=
  (Stretch.take1 (W2 m ρ c)).trans ((congrArg₂ takeE (v4_at2 m ρ c) (v1_at2 m ρ c)).trans (takeE_eq _ _ hS))
theorem v1_at3 : W3 m ρ c (Proc.devRef .tc main_v1) = srcOf (arg m c main_arg1) :=
  (show W3 m ρ c (Proc.devRef .tc main_v1) = W2 m ρ c (Proc.devRef .tc main_v1) by keep_across hostOps1).trans (v1_at2 m ρ c)
theorem v3_at3 : W3 m ρ c (Proc.devRef .tc main_v3) = dstOf (arg m c main_arg1) :=
  (show W3 m ρ c (Proc.devRef .tc main_v3) = W2 m ρ c (Proc.devRef .tc main_v3) by keep_across hostOps1).trans (v3_at2 m ρ c)
theorem arg4_at3 : W3 m ρ c (Proc.devRef .tc main_arg4) = arg m c main_arg4 :=
  (show W3 m ρ c (Proc.devRef .tc main_arg4) = W2 m ρ c (Proc.devRef .tc main_arg4) by keep_across hostOps1).trans (arg4_at2 m ρ c)
theorem arg5_at3 : W3 m ρ c (Proc.devRef .tc main_arg5) = arg m c main_arg5 :=
  (show W3 m ρ c (Proc.devRef .tc main_arg5) = W2 m ρ c (Proc.devRef .tc main_arg5) by keep_across hostOps1).trans (arg5_at2 m ρ c)

/-! ## At the second region's entry -/

/-- The gathered rows summed into their destination rows: the first layer's aggregation of the product. -/
theorem v8_at4 (hS : InTable (srcOf (arg m c main_arg1))) :
    W4 m ρ c (Proc.devRef .tc main_v8) = agg (arg m c main_arg1) (lin (arg m c main_arg0) (arg m c main_arg3)) :=
  (Stretch.sum1 (W3 m ρ c)).trans (congrArg₂ sumE (v5_at3 m ρ c hS) (v3_at3 m ρ c))
/-- The first bias as one row. -/
theorem v9_at4 : W4 m ρ c (Proc.devRef .tc main_v9) = asRow (F := Ideal) (arg m c main_arg4) :=
  (Stretch.row1 (W3 m ρ c)).trans (congrArg (asRow (F := Ideal)) (arg4_at3 m ρ c))
theorem v1_at4 : W4 m ρ c (Proc.devRef .tc main_v1) = srcOf (arg m c main_arg1) :=
  (show W4 m ρ c (Proc.devRef .tc main_v1) = W3 m ρ c (Proc.devRef .tc main_v1) by keep_across hostOps1_1).trans (v1_at3 m ρ c)
theorem v3_at4 : W4 m ρ c (Proc.devRef .tc main_v3) = dstOf (arg m c main_arg1) :=
  (show W4 m ρ c (Proc.devRef .tc main_v3) = W3 m ρ c (Proc.devRef .tc main_v3) by keep_across hostOps1_1).trans (v3_at3 m ρ c)
theorem arg5_at4 : W4 m ρ c (Proc.devRef .tc main_arg5) = arg m c main_arg5 :=
  (show W4 m ρ c (Proc.devRef .tc main_arg5) = W3 m ρ c (Proc.devRef .tc main_arg5) by keep_across hostOps1_1).trans (arg5_at3 m ρ c)

/-! ## At the second region's exit -/

/-- The bias row read at column `k` is the bias's entry `k`. -/
theorem bias_at4 : (fun k => (W4 m ρ c (Proc.devRef .tc main_v9) : S1x128.Idx → EReal) (ix2 0 k))
    = fun k => (arg m c main_arg4 : S128.Idx → EReal) (ix1 k) :=
  funext fun k => (congrFun (v9_at4 m ρ c) (ix2 0 k)).trans (asRow_apply _ k)

/-- The second region leaves the rectified, biased aggregation times the second weights. -/
theorem v10_at5 (hS : InTable (srcOf (arg m c main_arg1))) :
    (W5 m ρ c (Proc.devRef .tc main_v10) : S50000x128.Idx → EReal)
        = lin (act (agg (arg m c main_arg1) (lin (arg m c main_arg0) (arg m c main_arg3)))
                (fun k => (arg m c main_arg4 : S128.Idx → EReal) (ix1 k))) (arg m c main_arg5) :=
  (W5_arr m ρ c 3).trans ((Region1.out (V4 m ρ) c).trans
    (congrArg₂ lin (congrArg₂ act (v8_at4 m ρ c hS) (bias_at4 m ρ c)) (arg5_at4 m ρ c)))
theorem v1_at5 : W5 m ρ c (Proc.devRef .tc main_v1) = srcOf (arg m c main_arg1) :=
  (W5_of_ne m ρ c main_v1 (by decide)).trans (v1_at4 m ρ c)
theorem v3_at5 : W5 m ρ c (Proc.devRef .tc main_v3) = dstOf (arg m c main_arg1) :=
  (W5_of_ne m ρ c main_v3 (by decide)).trans (v3_at4 m ρ c)

/-- At the second region's exit: its output, the edge list's rows, and the arguments still to be read. -/
theorem upTo5 (hS : InTable (srcOf (arg m c main_arg1))) :
    (W5 m ρ c (Proc.devRef .tc main_v10) : S50000x128.Idx → EReal)
        = lin (act (agg (arg m c main_arg1) (lin (arg m c main_arg0) (arg m c main_arg3)))
                (fun k => (arg m c main_arg4 : S128.Idx → EReal) (ix1 k))) (arg m c main_arg5)
    ∧ W5 m ρ c (Proc.devRef .tc main_v1) = srcOf (arg m c main_arg1)
    ∧ W5 m ρ c (Proc.devRef .tc main_v3) = dstOf (arg m c main_arg1)
    ∧ W5 m ρ c (Proc.devRef .tc main_arg6) = arg m c main_arg6
    ∧ W5 m ρ c (Proc.devRef .tc main_arg7) = arg m c main_arg7
    ∧ W5 m ρ c (Proc.devRef .tc main_arg8) = arg m c main_arg8
    ∧ W5 m ρ c (Proc.devRef .tc main_arg2) = arg m c main_arg2
    ∧ W5 m ρ c (Proc.devRef .tc main_arg9) = arg m c main_arg9
    ∧ W5 m ρ c (Proc.devRef .tc main_arg10) = arg m c main_arg10
    ∧ W5 m ρ c (Proc.devRef .tc main_arg11) = arg m c main_arg11
    ∧ W5 m ρ c (Proc.devRef .tc main_arg12) = arg m c main_arg12
    ∧ W5 m ρ c (Proc.devRef .tc main_arg13) = arg m c main_arg13
    ∧ W5 m ρ c (Proc.devRef .tc main_arg14) = arg m c main_arg14 := by
  refine ⟨v10_at5 m ρ c hS, v1_at5 m ρ c, v3_at5 m ρ c, ?_, ?_, ?_, ?_, ?_, ?_, ?_, ?_, ?_, ?_⟩
  · kept_to5 m ρ c main_arg6
  · kept_to5 m ρ c main_arg7
  · kept_to5 m ρ c main_arg8
  · kept_to5 m ρ c main_arg2
  · kept_to5 m ρ c main_arg9
  · kept_to5 m ρ c main_arg10
  · kept_to5 m ρ c main_arg11
  · kept_to5 m ρ c main_arg12
  · kept_to5 m ρ c main_arg13
  · kept_to5 m ρ c main_arg14

end Cert.KernelIdeal.ChainA

end
-- ==== Proof.ChainB.lean ====
/-
  The idealized kernel program from the exit of its second region to the exit of its fourth: the third layer
  (gather along the edges, sum into the destination rows, bias as one row, the third region's rectified product
  with the third weights) and the last aggregation with its bias added by the fourth region: the node
  embeddings.  What the second region's exit holds is taken as given.
-/
import proofs.«403958_j78142634983506_1_alg».proof.Proof.Gen.KernelIdeal.Frame
import proofs.«403958_j78142634983506_1_alg».proof.Proof.Spec
import proofs.«403958_j78142634983506_1_alg».proof.Proof.Keep
import proofs.«403958_j78142634983506_1_alg».proof.Proof.Stretches
import proofs.«403958_j78142634983506_1_alg».proof.Proof.StretchTake
import proofs.«403958_j78142634983506_1_alg».proof.Proof.Rows
import proofs.«403958_j78142634983506_1_alg».proof.Proof.Take
import proofs.«403958_j78142634983506_1_alg».proof.Proof.Region0
import proofs.«403958_j78142634983506_1_alg».proof.Proof.Region1
import proofs.«403958_j78142634983506_1_alg».proof.Proof.Region2
import proofs.«403958_j78142634983506_1_alg».proof.Proof.Region3
import proofs.«403958_j78142634983506_1_alg».proof.Proof.Region4
import Idealize.ShloMosaic.Lib.ValueIdx

set_option maxRecDepth 16384

noncomputable section

namespace Cert.KernelIdeal.ChainB

open Cert.KernelIdeal Cert.KernelIdeal.Gen Cert.KernelIdeal.Ops Cert.KernelIdeal.Take Cert.KernelIdeal.Keep Cert.GcnLink
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- An argument's buffer as launched. -/
abbrev arg (b : Ref sig .tc) : Buf (Elt Ideal) ((c : Thread nD τ).loc b) := m ((c : Thread nD τ).loc b)

/-- One layer's aggregation along the edges `adj`: gather the source rows, sum them into their destination rows. -/
abbrev agg (adj : IVec S2x800000 32) (h : FVec Ideal S50000x128 .f32) : FVec Ideal S50000x128 .f32 :=
  sumE (rowsE h (srcOf adj)) (dstOf adj)

/-- At the fourth region's exit: the node embeddings, and the arguments the head still reads. -/
theorem from5to11 (X : FVec Ideal S50000x128 .f32)
    (h10 : W5 m ρ c (Proc.devRef .tc main_v10) = X)
    (h1 : W5 m ρ c (Proc.devRef .tc main_v1) = srcOf (arg m c main_arg1))
    (h3 : W5 m ρ c (Proc.devRef .tc main_v3) = dstOf (arg m c main_arg1))
    (k6 : W5 m ρ c (Proc.devRef .tc main_arg6) = arg m c main_arg6)
    (k7 : W5 m ρ c (Proc.devRef .tc main_arg7) = arg m c main_arg7)
    (k8 : W5 m ρ c (Proc.devRef .tc main_arg8) = arg m c main_arg8)
    (k2 : W5 m ρ c (Proc.devRef .tc main_arg2) = arg m c main_arg2)
    (k9 : W5 m ρ c (Proc.devRef .tc main_arg9) = arg m c main_arg9)
    (k10 : W5 m ρ c (Proc.devRef .tc main_arg10) = arg m c main_arg10)
    (k11 : W5 m ρ c (Proc.devRef .tc main_arg11) = arg m c main_arg11)
    (k12 : W5 m ρ c (Proc.devRef .tc main_arg12) = arg m c main_arg12)
    (k13 : W5 m ρ c (Proc.devRef .tc main_arg13) = arg m c main_arg13)
    (k14 : W5 m ρ c (Proc.devRef .tc main_arg14) = arg m c main_arg14)
    (hS : InTable (srcOf (arg m c main_arg1))) :
    (W11 m ρ c (Proc.devRef .tc main_v22) : S50000x128.Idx → EReal)
        = shift (agg (arg m c main_arg1)
            (lin (act (agg (arg m c main_arg1) X) (fun k => (arg m c main_arg6 : S128.Idx → EReal) (ix1 k))) (arg m c main_arg7)))
            (fun k => (arg m c main_arg8 : S128.Idx → EReal) (ix1 k))
    ∧ W11 m ρ c (Proc.devRef .tc main_arg2) = arg m c main_arg2
    ∧ W11 m ρ c (Proc.devRef .tc main_arg9) = arg m c main_arg9
    ∧ W11 m ρ c (Proc.devRef .tc main_arg10) = arg m c main_arg10
    ∧ W11 m ρ c (Proc.devRef .tc main_arg11) = arg m c main_arg11
    ∧ W11 m ρ c (Proc.devRef .tc main_arg12) = arg m c main_arg12
    ∧ W11 m ρ c (Proc.devRef .tc main_arg13) = arg m c main_arg13
    ∧ W11 m ρ c (Proc.devRef .tc main_arg14) = arg m c main_arg14 := by
  -- after the gather of the third layer
  have a11 : W6 m ρ c (Proc.devRef .tc main_v11) = rowsE X (srcOf (arg m c main_arg1)) := by
    have e := Stretch.take2 (W5 m ρ c)
    rw [h10, h1, Take.takeE_eq _ _ hS] at e
    exact e
  have a3 : W6 m ρ c (Proc.devRef .tc main_v3) = dstOf (arg m c main_arg1) :=
    (show W6 m ρ c (Proc.devRef .tc main_v3) = W5 m ρ c (Proc.devRef .tc main_v3) by keep_across hostOps2).trans h3
  have a1 : W6 m ρ c (Proc.devRef .tc main_v1) = srcOf (arg m c main_arg1) :=
    (show W6 m ρ c (Proc.devRef .tc main_v1) = W5 m ρ c (Proc.devRef .tc main_v1) by keep_across hostOps2).trans h1
  have a6 : W6 m ρ c (Proc.devRef .tc main_arg6) = arg m c main_arg6 :=
    (show W6 m ρ c (Proc.devRef .tc main_arg6) = W5 m ρ c (Proc.devRef .tc main_arg6) by keep_across hostOps2).trans k6
  have a7 : W6 m ρ c (Proc.devRef .tc main_arg7) = arg m c main_arg7 :=
    (show W6 m ρ c (Proc.devRef .tc main_arg7) = W5 m ρ c (Proc.devRef .tc main_arg7) by keep_across hostOps2).trans k7
  have a8 : W6 m ρ c (Proc.devRef .tc main_arg8) = arg m c main_arg8 :=
    (show W6 m ρ c (Proc.devRef .tc main_arg8) = W5 m ρ c (Proc.devRef .tc main_arg8) by keep_across hostOps2).trans k8
  -- after the sum along the edges and the bias handed over as one row
  have b14 : W7 m ρ c (Proc.devRef .tc main_v14) = agg (arg m c main_arg1) X := by
    have e := Stretch.sum2 (W6 m ρ c)
    rw [a11, a3] at e
    exact e
  have b15 : W7 m ρ c (Proc.devRef .tc main_v15) = asRow (F := Ideal) (arg m c main_arg6) := by
    have e := Stretch.row2 (W6 m ρ c)
    rw [a6] at e
    exact e
  have b7 : W7 m ρ c (Proc.devRef .tc main_arg7) = arg m c main_arg7 :=
    (show W7 m ρ c (Proc.devRef .tc main_arg7) = W6 m ρ c (Proc.devRef .tc main_arg7) by keep_across hostOps2_1).trans a7
  have b1 : W7 m ρ c (Proc.devRef .tc main_v1) = srcOf (arg m c main_arg1) :=
    (show W7 m ρ c (Proc.devRef .tc main_v1) = W6 m ρ c (Proc.devRef .tc main_v1) by keep_across hostOps2_1).trans a1
  have b3 : W7 m ρ c (Proc.devRef .tc main_v3) = dstOf (arg m c main_arg1) :=
    (show W7 m ρ c (Proc.devRef .tc main_v3) = W6 m ρ c (Proc.devRef .tc main_v3) by keep_across hostOps2_1).trans a3
  have b8 : W7 m ρ c (Proc.devRef .tc main_arg8) = arg m c main_arg8 :=
    (show W7 m ρ c (Proc.devRef .tc main_arg8) = W6 m ρ c (Proc.devRef .tc main_arg8) by keep_across hostOps2_1).trans a8
  -- the third region: the rectified, biased input times the third weights
  have c16 : (W8 m ρ c (Proc.devRef .tc main_v16) : S50000x128.Idx → EReal) = (lin (act (agg (arg m c main_arg1) X) (fun k => (arg m c main_arg6 : S128.Idx → EReal) (ix1 k))) (arg m c main_arg7)) := by
    refine ((W8_arr m ρ c 3).trans (Region2.out (V7 m ρ) c)).trans ?_
    show lin (act (W7 m ρ c (Proc.devRef .tc main_v14)) (fun k => (W7 m ρ c (Proc.devRef .tc main_v15) : S1x128.Idx → EReal) (ix2 0 k)))
        (W7 m ρ c (Proc.devRef .tc main_arg7)) = _
    rw [b14, b15, b7]
    simp only [Ops.asRow_apply]
  have c1 : W8 m ρ c (Proc.devRef .tc main_v1) = srcOf (arg m c main_arg1) := (W8_of_ne m ρ c main_v1 (by decide)).trans b1
  have c3 : W8 m ρ c (Proc.devRef .tc main_v3) = dstOf (arg m c main_arg1) := (W8_of_ne m ρ c main_v3 (by decide)).trans b3
  have c8 : W8 m ρ c (Proc.devRef .tc main_arg8) = arg m c main_arg8 := (W8_of_ne m ρ c main_arg8 (by decide)).trans b8
  -- after the last gather
  have d17 : W9 m ρ c (Proc.devRef .tc main_v17) = rowsE (lin (act (agg (arg m c main_arg1) X) (fun k => (arg m c main_arg6 : S128.Idx → EReal) (ix1 k))) (arg m c main_arg7)) (srcOf (arg m c main_arg1)) := by
    have e := Stretch.take3 (F := Ideal) (W8 m ρ c)
    rw [c16, c1, Take.takeE_eq _ _ hS] at e
    exact e
  have d3 : W9 m ρ c (Proc.devRef .tc main_v3) = dstOf (arg m c main_arg1) :=
    (show W9 m ρ c (Proc.devRef .tc main_v3) = W8 m ρ c (Proc.devRef .tc main_v3) by keep_across hostOps3).trans c3
  have d8 : W9 m ρ c (Proc.devRef .tc main_arg8) = arg m c main_arg8 :=
    (show W9 m ρ c (Proc.devRef .tc main_arg8) = W8 m ρ c (Proc.devRef .tc main_arg8) by keep_across hostOps3).trans c8
  -- after the last sum along the edges and the last bias handed over as one row
  have f20 : W10 m ρ c (Proc.devRef .tc main_v20) = agg (arg m c main_arg1) (lin (act (agg (arg m c main_arg1) X) (fun k => (arg m c main_arg6 : S128.Idx → EReal) (ix1 k))) (arg m c main_arg7)) := by
    have e := Stretch.sum3 (F := Ideal) (W9 m ρ c)
    rw [d17, d3] at e
    exact e
  have f21 : W10 m ρ c (Proc.devRef .tc main_v21) = asRow (F := Ideal) (arg m c main_arg8) := by
    have e := Stretch.row3 (F := Ideal) (W9 m ρ c)
    rw [d8] at e
    exact e
  -- the fourth region adds the bias to every row
  have g22 : (W11 m ρ c (Proc.devRef .tc main_v22) : S50000x128.Idx → EReal)
      = shift (agg (arg m c main_arg1) (lin (act (agg (arg m c main_arg1) X) (fun k => (arg m c main_arg6 : S128.Idx → EReal) (ix1 k))) (arg m c main_arg7))) (fun k => (arg m c main_arg8 : S128.Idx → EReal) (ix1 k)) := by
    refine ((W11_arr m ρ c 2).trans (Region3.out (V10 m ρ) c)).trans ?_
    show shift (W10 m ρ c (Proc.devRef .tc main_v20)) (fun k => (W10 m ρ c (Proc.devRef .tc main_v21) : S1x128.Idx → EReal) (ix2 0 k)) = _
    rw [f20, f21]
    simp only [Ops.asRow_apply]
  -- the arguments the head still reads are untouched all the way
  have q2 : W11 m ρ c (Proc.devRef .tc main_arg2) = arg m c main_arg2 :=
    (W11_of_ne m ρ c main_arg2 (by decide)).trans <|
    (show W10 m ρ c (Proc.devRef .tc main_arg2) = W9 m ρ c (Proc.devRef .tc main_arg2) by keep_across hostOps3_1).trans <|
    (show W9 m ρ c (Proc.devRef .tc main_arg2) = W8 m ρ c (Proc.devRef .tc main_arg2) by keep_across hostOps3).trans <|
    (W8_of_ne m ρ c main_arg2 (by decide)).trans <|
    (show W7 m ρ c (Proc.devRef .tc main_arg2) = W6 m ρ c (Proc.devRef .tc main_arg2) by keep_across hostOps2_1).trans <|
    (show W6 m ρ c (Proc.devRef .tc main_arg2) = W5 m ρ c (Proc.devRef .tc main_arg2) by keep_across hostOps2).trans k2
  have q9 : W11 m ρ c (Proc.devRef .tc main_arg9) = arg m c main_arg9 :=
    (W11_of_ne m ρ c main_arg9 (by decide)).trans <|
    (show W10 m ρ c (Proc.devRef .tc main_arg9) = W9 m ρ c (Proc.devRef .tc main_arg9) by keep_across hostOps3_1).trans <|
    (show W9 m ρ c (Proc.devRef .tc main_arg9) = W8 m ρ c (Proc.devRef .tc main_arg9) by keep_across hostOps3).trans <|
    (W8_of_ne m ρ c main_arg9 (by decide)).trans <|
    (show W7 m ρ c (Proc.devRef .tc main_arg9) = W6 m ρ c (Proc.devRef .tc main_arg9) by keep_across hostOps2_1).trans <|
    (show W6 m ρ c (Proc.devRef .tc main_arg9) = W5 m ρ c (Proc.devRef .tc main_arg9) by keep_across hostOps2).trans k9
  have q10 : W11 m ρ c (Proc.devRef .tc main_arg10) = arg m c main_arg10 :=
    (W11_of_ne m ρ c main_arg10 (by decide)).trans <|
    (show W10 m ρ c (Proc.devRef .tc main_arg10) = W9 m ρ c (Proc.devRef .tc main_arg10) by keep_across hostOps3_1).trans <|
    (show W9 m ρ c (Proc.devRef .tc main_arg10) = W8 m ρ c (Proc.devRef .tc main_arg10) by keep_across hostOps3).trans <|
    (W8_of_ne m ρ c main_arg10 (by decide)).trans <|
    (show W7 m ρ c (Proc.devRef .tc main_arg10) = W6 m ρ c (Proc.devRef .tc main_arg10) by keep_across hostOps2_1).trans <|
    (show W6 m ρ c (Proc.devRef .tc main_arg10) = W5 m ρ c (Proc.devRef .tc main_arg10) by keep_across hostOps2).trans k10
  have q11 : W11 m ρ c (Proc.devRef .tc main_arg11) = arg m c main_arg11 :=
    (W11_of_ne m ρ c main_arg11 (by decide)).trans <|
    (show W10 m ρ c (Proc.devRef .tc main_arg11) = W9 m ρ c (Proc.devRef .tc main_arg11) by keep_across hostOps3_1).trans <|
    (show W9 m ρ c (Proc.devRef .tc main_arg11) = W8 m ρ c (Proc.devRef .tc main_arg11) by keep_across hostOps3).trans <|
    (W8_of_ne m ρ c main_arg11 (by decide)).trans <|
    (show W7 m ρ c (Proc.devRef .tc main_arg11) = W6 m ρ c (Proc.devRef .tc main_arg11) by keep_across hostOps2_1).trans <|
    (show W6 m ρ c (Proc.devRef .tc main_arg11) = W5 m ρ c (Proc.devRef .tc main_arg11) by keep_across hostOps2).trans k11
  have q12 : W11 m ρ c (Proc.devRef .tc main_arg12) = arg m c main_arg12 :=
    (W11_of_ne m ρ c main_arg12 (by decide)).trans <|
    (show W10 m ρ c (Proc.devRef .tc main_arg12) = W9 m ρ c (Proc.devRef .tc main_arg12) by keep_across hostOps3_1).trans <|
    (show W9 m ρ c (Proc.devRef .tc main_arg12) = W8 m ρ c (Proc.devRef .tc main_arg12) by keep_across hostOps3).trans <|
    (W8_of_ne m ρ c main_arg12 (by decide)).trans <|
    (show W7 m ρ c (Proc.devRef .tc main_arg12) = W6 m ρ c (Proc.devRef .tc main_arg12) by keep_across hostOps2_1).trans <|
    (show W6 m ρ c (Proc.devRef .tc main_arg12) = W5 m ρ c (Proc.devRef .tc main_arg12) by keep_across hostOps2).trans k12
  have q13 : W11 m ρ c (Proc.devRef .tc main_arg13) = arg m c main_arg13 :=
    (W11_of_ne m ρ c main_arg13 (by decide)).trans <|
    (show W10 m ρ c (Proc.devRef .tc main_arg13) = W9 m ρ c (Proc.devRef .tc main_arg13) by keep_across hostOps3_1).trans <|
    (show W9 m ρ c (Proc.devRef .tc main_arg13) = W8 m ρ c (Proc.devRef .tc main_arg13) by keep_across hostOps3).trans <|
    (W8_of_ne m ρ c main_arg13 (by decide)).trans <|
    (show W7 m ρ c (Proc.devRef .tc main_arg13) = W6 m ρ c (Proc.devRef .tc main_arg13) by keep_across hostOps2_1).trans <|
    (show W6 m ρ c (Proc.devRef .tc main_arg13) = W5 m ρ c (Proc.devRef .tc main_arg13) by keep_across hostOps2).trans k13
  have q14 : W11 m ρ c (Proc.devRef .tc main_arg14) = arg m c main_arg14 :=
    (W11_of_ne m ρ c main_arg14 (by decide)).trans <|
    (show W10 m ρ c (Proc.devRef .tc main_arg14) = W9 m ρ c (Proc.devRef .tc main_arg14) by keep_across hostOps3_1).trans <|
    (show W9 m ρ c (Proc.devRef .tc main_arg14) = W8 m ρ c (Proc.devRef .tc main_arg14) by keep_across hostOps3).trans <|
    (W8_of_ne m ρ c main_arg14 (by decide)).trans <|
    (show W7 m ρ c (Proc.devRef .tc main_arg14) = W6 m ρ c (Proc.devRef .tc main_arg14) by keep_across hostOps2_1).trans <|
    (show W6 m ρ c (Proc.devRef .tc main_arg14) = W5 m ρ c (Proc.devRef .tc main_arg14) by keep_across hostOps2).trans k14
  exact ⟨g22, q2, q9, q10, q11, q12, q13, q14⟩

end Cert.KernelIdeal.ChainB

end
-- ==== Proof.ChainC.lean ====
/-
  The idealized kernel program from the exit of its fourth region to its return: the pair list's two columns,
  the two gathers of the embeddings' rows (every endpoint names a row of the table, so the gathers fill
  nothing), their entrywise product, the head's biases as one row each, the fifth region's head, and the
  leading axis of extent one.  What the fourth region's exit holds is taken as given.
-/
import proofs.«403958_j78142634983506_1_alg».proof.Proof.Gen.KernelIdeal.Frame
import proofs.«403958_j78142634983506_1_alg».proof.Proof.Spec
import proofs.«403958_j78142634983506_1_alg».proof.Proof.Keep
import proofs.«403958_j78142634983506_1_alg».proof.Proof.Stretches
import proofs.«403958_j78142634983506_1_alg».proof.Proof.StretchTake
import proofs.«403958_j78142634983506_1_alg».proof.Proof.Rows
import proofs.«403958_j78142634983506_1_alg».proof.Proof.Take
import proofs.«403958_j78142634983506_1_alg».proof.Proof.Region0
import proofs.«403958_j78142634983506_1_alg».proof.Proof.Region1
import proofs.«403958_j78142634983506_1_alg».proof.Proof.Region2
import proofs.«403958_j78142634983506_1_alg».proof.Proof.Region3
import proofs.«403958_j78142634983506_1_alg».proof.Proof.Region4
import Idealize.ShloMosaic.Lib.ValueIdx

set_option maxRecDepth 16384

noncomputable section

namespace Cert.KernelIdeal.ChainC

open Cert.KernelIdeal Cert.KernelIdeal.Gen Cert.KernelIdeal.Ops Cert.KernelIdeal.Take Cert.KernelIdeal.Keep Cert.GcnLink
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- An argument's buffer as launched. -/
abbrev arg (b : Ref sig .tc) : Buf (Elt Ideal) ((c : Thread nD τ).loc b) := m ((c : Thread nD τ).loc b)

/-- One layer's aggregation along the edges `adj`: gather the source rows, sum them into their destination rows. -/
abbrev agg (adj : IVec S2x800000 32) (h : FVec Ideal S50000x128 .f32) : FVec Ideal S50000x128 .f32 :=
  sumE (rowsE h (srcOf adj)) (dstOf adj)

/-- A buffer that none of the three stretches after the fourth region writes (the pair list's columns, the two
    row gathers) holds before the last stretch what it held at the fourth region's exit. -/
macro "kept_since_11_to_14" : tactic => `(tactic| (
  refine Eq.trans (by keep_across hostOps4_2) ?_
  refine Eq.trans (by keep_across hostOps4_1) ?_
  refine Eq.trans (by keep_across hostOps4) ?_))

/-- The same across the last stretch before the fifth region as well (the product and the biases as rows). -/
macro "kept_since_11_to_15" : tactic => `(tactic| (
  refine Eq.trans (by keep_across hostOps4_3) ?_
  kept_since_11_to_14))

/-- At the return: the result buffer holds the head of the products of the gathered embedding rows. -/
theorem from11to17 (E : FVec Ideal S50000x128 .f32)
    (h22 : W11 m ρ c (Proc.devRef .tc main_v22) = E)
    (k2 : W11 m ρ c (Proc.devRef .tc main_arg2) = arg m c main_arg2)
    (k9 : W11 m ρ c (Proc.devRef .tc main_arg9) = arg m c main_arg9)
    (k10 : W11 m ρ c (Proc.devRef .tc main_arg10) = arg m c main_arg10)
    (k11 : W11 m ρ c (Proc.devRef .tc main_arg11) = arg m c main_arg11)
    (k12 : W11 m ρ c (Proc.devRef .tc main_arg12) = arg m c main_arg12)
    (k13 : W11 m ρ c (Proc.devRef .tc main_arg13) = arg m c main_arg13)
    (k14 : W11 m ρ c (Proc.devRef .tc main_arg14) = arg m c main_arg14)
    (hF : InTable (firstOf (arg m c main_arg2))) (hD : InTable (secondOf (arg m c main_arg2))) :
    (W17 m ρ c (Proc.devRef .tc main_v34) : S1x100000x2.Idx → EReal)
        = lead (head (mulf (rowsQ E (firstOf (arg m c main_arg2))) (rowsQ E (secondOf (arg m c main_arg2))))
            (arg m c main_arg9) (fun k => (arg m c main_arg10 : S128.Idx → EReal) (ix1 k))
            (arg m c main_arg11) (fun k => (arg m c main_arg12 : S128.Idx → EReal) (ix1 k))
            (arg m c main_arg13) (fun k => (arg m c main_arg14 : S2.Idx → EReal) (ix1 k))) := by
  -- the pair list's two columns
  have e24 : W12 m ρ c (Proc.devRef .tc main_v24) = firstOf (W11 m ρ c (Proc.devRef .tc main_arg2)) := Stretch.first (F := Ideal) (W11 m ρ c)
  have e26 : W12 m ρ c (Proc.devRef .tc main_v26) = secondOf (W11 m ρ c (Proc.devRef .tc main_arg2)) := Stretch.second (F := Ideal) (W11 m ρ c)
  have e22a : W12 m ρ c (Proc.devRef .tc main_v22) = W11 m ρ c (Proc.devRef .tc main_v22) := by keep_across hostOps4
  -- the source endpoints' rows
  have e27 : W13 m ρ c (Proc.devRef .tc main_v27) = takeQ (F := Ideal) (W12 m ρ c (Proc.devRef .tc main_v22)) (W12 m ρ c (Proc.devRef .tc main_v24)) := Stretch.takeS (F := Ideal) (W12 m ρ c)
  have e26b : W13 m ρ c (Proc.devRef .tc main_v26) = W12 m ρ c (Proc.devRef .tc main_v26) := by keep_across hostOps4_1
  have e22b : W13 m ρ c (Proc.devRef .tc main_v22) = W12 m ρ c (Proc.devRef .tc main_v22) := by keep_across hostOps4_1
  -- the destination endpoints' rows
  have e28 : W14 m ρ c (Proc.devRef .tc main_v28) = takeQ (F := Ideal) (W13 m ρ c (Proc.devRef .tc main_v22)) (W13 m ρ c (Proc.devRef .tc main_v26)) := Stretch.takeD (F := Ideal) (W13 m ρ c)
  have e27c : W14 m ρ c (Proc.devRef .tc main_v27) = W13 m ρ c (Proc.devRef .tc main_v27) := by keep_across hostOps4_2
  -- with every endpoint in the table the gathers fill nothing
  have r27 : W14 m ρ c (Proc.devRef .tc main_v27) = rowsQ (F := Ideal) E (firstOf (arg m c main_arg2)) := by
    rw [e27c, e27, e22a, e24, h22, k2]; exact takeQ_eq _ _ hF
  have r28 : W14 m ρ c (Proc.devRef .tc main_v28) = rowsQ (F := Ideal) E (secondOf (arg m c main_arg2)) := by
    rw [e28, e22b, e22a, e26b, e26, h22, k2]; exact takeQ_eq _ _ hD
  -- their product, and the head's biases as one row each
  have e29 : W15 m ρ c (Proc.devRef .tc main_v29) = mulf (F := Ideal) (W14 m ρ c (Proc.devRef .tc main_v27)) (W14 m ρ c (Proc.devRef .tc main_v28)) := Stretch.prod (F := Ideal) (W14 m ρ c)
  have e30 : W15 m ρ c (Proc.devRef .tc main_v30) = asRow (F := Ideal) (W14 m ρ c (Proc.devRef .tc main_arg10)) := Stretch.rowQ1 (F := Ideal) (W14 m ρ c)
  have e31 : W15 m ρ c (Proc.devRef .tc main_v31) = asRow (F := Ideal) (W14 m ρ c (Proc.devRef .tc main_arg12)) := Stretch.rowQ2 (F := Ideal) (W14 m ρ c)
  have e32 : W15 m ρ c (Proc.devRef .tc main_v32) = asRow2 (F := Ideal) (W14 m ρ c (Proc.devRef .tc main_arg14)) := Stretch.rowQ3 (F := Ideal) (W14 m ρ c)
  -- the arguments, written by nothing on the way
  have a10 : W14 m ρ c (Proc.devRef .tc main_arg10) = arg m c main_arg10 := by kept_since_11_to_14; exact k10
  have a12 : W14 m ρ c (Proc.devRef .tc main_arg12) = arg m c main_arg12 := by kept_since_11_to_14; exact k12
  have a14 : W14 m ρ c (Proc.devRef .tc main_arg14) = arg m c main_arg14 := by kept_since_11_to_14; exact k14
  have a9 : W15 m ρ c (Proc.devRef .tc main_arg9) = arg m c main_arg9 := by kept_since_11_to_15; exact k9
  have a11 : W15 m ρ c (Proc.devRef .tc main_arg11) = arg m c main_arg11 := by kept_since_11_to_15; exact k11
  have a13 : W15 m ρ c (Proc.devRef .tc main_arg13) = arg m c main_arg13 := by kept_since_11_to_15; exact k13
  -- the head, and the leading axis
  have e33 : (W16 m ρ c (Proc.devRef .tc main_v33) : S100000x2.Idx → EReal)
      = head (V15 m ρ c main_v29) (V15 m ρ c main_arg9) (fun k => (V15 m ρ c main_v30 : S1x128.Idx → EReal) (ix2 0 k))
          (V15 m ρ c main_arg11) (fun k => (V15 m ρ c main_v31 : S1x128.Idx → EReal) (ix2 0 k))
          (V15 m ρ c main_arg13) (fun k => (V15 m ρ c main_v32 : S1x2.Idx → EReal) (ix2 0 k)) :=
    (W16_arr m ρ c 7).trans (Region4.out (V15 m ρ) c)
  have e34 : W17 m ρ c (Proc.devRef .tc main_v34) = lead (F := Ideal) (W16 m ρ c (Proc.devRef .tc main_v33)) := Stretch.result (F := Ideal) (W16 m ρ c)
  rw [e34, e33]
  dsimp only [V15]
  rw [e29, e30, e31, e32, r27, r28, a9, a10, a11, a12, a13, a14]
  simp only [Ops.asRow_apply, Ops.asRow2_apply]

end Cert.KernelIdeal.ChainC

end
-- ==== Proof.KernelValue.lean ====
/-
  The idealized kernel program's result as one function of its arguments, and its run with that result.
  Under the precondition every gathered row number names a row of the table, so the three stretches of the
  program (to the second region's exit, to the fourth region's exit, to the return) compose: the result buffer
  ends holding the head, under a leading axis of extent one, of the products of the two gathered rows of the
  node embeddings, and the embeddings are the three-layer trunk over the aggregation along the edges.
-/
import proofs.«403958_j78142634983506_1_alg».proof.Defs
import proofs.«403958_j78142634983506_1_alg».proof.Proof.Gen.Pre_finite_inputs
import proofs.«403958_j78142634983506_1_alg».proof.Proof.KernelRun
import proofs.«403958_j78142634983506_1_alg».proof.Proof.PreRange
import proofs.«403958_j78142634983506_1_alg».proof.Proof.ChainA
import proofs.«403958_j78142634983506_1_alg».proof.Proof.ChainB
import proofs.«403958_j78142634983506_1_alg».proof.Proof.ChainC

set_option maxRecDepth 16384

noncomputable section

namespace Cert.KernelIdeal.Value

open Cert.KernelIdeal Cert.KernelIdeal.Gen Cert.KernelIdeal.Ops Cert.KernelIdeal.Take Cert.GcnLink
open Idealize.ShloMosaic Idealize.ShloMosaic.TcCoe Idealize.SL.Sem Idealize.ShloMosaic.ValueIdx

/-- The node embeddings as a function of the features, the edge list and the three layers' weights and biases. -/
def emb (x : FVec Ideal S50000x128 .f32) (adj : IVec S2x800000 32) (w1 : FVec Ideal S128x128 .f32) (b1 : FVec Ideal S128 .f32)
    (w2 : FVec Ideal S128x128 .f32) (b2 : FVec Ideal S128 .f32) (w3 : FVec Ideal S128x128 .f32) (b3 : FVec Ideal S128 .f32) :
    FVec Ideal S50000x128 .f32 :=
  trunk (fun h => sumE (rowsE h (srcOf adj)) (dstOf adj)) x w1 (fun k => b1 (ix1 k)) w2 (fun k => b2 (ix1 k)) w3 (fun k => b3 (ix1 k))

/-- The result as a function of the fifteen arguments. -/
def result (x : FVec Ideal S50000x128 .f32) (adj : IVec S2x800000 32) (q : IVec S100000x2 32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) (p1 : FVec Ideal S128x128 .f32) (q1 : FVec Ideal S128 .f32)
    (p2 : FVec Ideal S128x128 .f32) (q2 : FVec Ideal S128 .f32) (p3 : FVec Ideal S128x2 .f32) (q3 : FVec Ideal S2 .f32) :
    FVec Ideal S1x100000x2 .f32 :=
  lead (head (mulf (rowsQ (emb x adj w1 b1 w2 b2 w3 b3) (firstOf q)) (rowsQ (emb x adj w1 b1 w2 b2 w3 b3) (secondOf q)))
    p1 (fun k => q1 (ix1 k)) p2 (fun k => q2 (ix1 k)) p3 (fun k => q3 (ix1 k)))

variable (m : (ℓ : Loc nD τ sig) → Buf (Elt Ideal) ℓ) (ρ : Dev nD → PrngReg)

/-- The result of the arguments as launched on core `c`. -/
def resultOf (c : Dev nD) : Buf (Elt Ideal) ((c.tc : Thread nD τ).loc main_v34) :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

/-- Under the precondition the last boundary's contents at the result buffer are the result of the arguments. -/
theorem last_eq (hpre : Cert.Pre_KernelIdeal m) (c : Dev nD) :
    W17 m ρ c (Proc.devRef .tc main_v34) = resultOf m c := by
  obtain ⟨hS, hF, hD⟩ := PreRange.inTable m hpre c
  obtain ⟨h10, h1, h3, k6, k7, k8, k2, k9, k10, k11, k12, k13, k14⟩ := ChainA.upTo5 m ρ c hS
  obtain ⟨h22, j2, j9, j10, j11, j12, j13, j14⟩ :=
    ChainB.from5to11 m ρ c _ h10 h1 h3 k6 k7 k8 k2 k9 k10 k11 k12 k13 k14 hS
  exact ChainC.from11to17 m ρ c _ h22 j2 j9 j10 j11 j12 j13 j14 hF hD

/-- Every weakly fair execution of the idealized kernel program, under the precondition, terminates with the
    result buffer at the result of the arguments and the arguments as launched. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v34) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (last_eq m ρ hpre c), (h c).2⟩)
    (Cert.KernelIdeal.RunResult.run_result (F := Ideal) m ρ)

end Cert.KernelIdeal.Value

end
-- ==== Proof.RefOps.lean ====
/-
  The reference program's index and aggregation operations, named as functions: the edge list's rows and the
  pair list's columns, row numbers as gather start indices (a negative number counts from the end), the row
  gather, and the sum of gathered rows into their destination rows.
-/
import proofs.«403958_j78142634983506_1_alg».proof.ReferenceIdeal
import proofs.«403958_j78142634983506_1_alg».proof.Proof.Gen.ReferenceIdeal

noncomputable section

namespace Cert.ReferenceIdeal.Ops

open Cert.ReferenceIdeal Cert.ReferenceIdeal.Facts₀ Cert.ReferenceIdeal.Facts Idealize.ShloMosaic Idealize.ShloMosaic.TcCoe

variable {F : FTy → Type} [FloatOps F]

/-- The edge list's first row: each edge's source node. -/
def srcOf (adj : IVec S2x800000 32) : IVec S800000 32 :=
  shapeCast S800000 (extractStridedSlice S1x800000 ![0, 0] adj slices_S2x800000_S1x800000_0_0) shapeCasts_S1x800000_S800000

/-- The edge list's second row: each edge's destination node. -/
def dstOf (adj : IVec S2x800000 32) : IVec S800000 32 :=
  shapeCast S800000 (extractStridedSlice S1x800000 ![1, 0] adj slices_S2x800000_S1x800000_1_0) shapeCasts_S1x800000_S800000

/-- The pair list's first column. -/
def firstOf (q : IVec S100000x2 32) : IVec S100000 32 :=
  shapeCast S100000 (extractStridedSlice S100000x1 ![0, 0] q slices_S100000x2_S100000x1_0_0) shapeCasts_S100000x1_S100000

/-- The pair list's second column. -/
def secondOf (q : IVec S100000x2 32) : IVec S100000 32 :=
  shapeCast S100000 (extractStridedSlice S100000x1 ![0, 1] q slices_S100000x2_S100000x1_0_1) shapeCasts_S100000x1_S100000

/-- Row numbers as gather start indices along the edges: a negative number `i` stands for `i + 50000`. -/
def startsE (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The gathered rows, one per edge. -/
def rowsE (h : FVec F S50000x128 .f32) (src : IVec S800000 32) : FVec F S800000x128 .f32 :=
  Host.gather gather_S50000x128_S800000x1_S800000x128_1_0_n_n_0_1_1128 h (startsE src)

/-- The per-edge rows summed into their destination rows, from zero. -/
def sumE (rows : FVec F S800000x128 .f32) (dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) rows

/-- Row numbers as gather start indices along the pairs: a negative number `i` stands for `i + 50000`. -/
def startsQ (ids : IVec S100000 32) : IVec S100000x1 32 :=
  broadcastInDim S100000x1 ![0] bcast_S100000_S100000x1_0
    (select (cmpi .slt ids (broadcastInDim S100000 ![] bcast_S_S100000 (constantI S_ 32 0#32)))
      (addi ids (broadcastInDim S100000 ![] bcast_S_S100000 (constantI S_ 32 50000#32))) ids)

/-- The gathered rows, one per pair. -/
def rowsQ (h : FVec F S50000x128 .f32) (ids : IVec S100000 32) : FVec F S100000x128 .f32 :=
  Host.gather gather_S50000x128_S100000x1_S100000x128_1_0_n_n_0_1_1128 h (startsQ ids)

/-- One layer's aggregation: gather the rows along the edges, sum them into their destination rows. -/
def aggE (adj : IVec S2x800000 32) (h : FVec F S50000x128 .f32) : FVec F S50000x128 .f32 :=
  sumE (rowsE h (srcOf adj)) (dstOf adj)

end Cert.ReferenceIdeal.Ops

end
-- ==== Proof.RefTrunk.lean ====
/-
  The reference program's node embeddings are the three-layer trunk of the specification: each layer is the
  features times the layer's weights (a contraction over the input feature), the rows gathered along the edges
  and summed into their destination rows, the layer's bias added to every row, and, after the first two layers,
  the rectifier.
-/
import proofs.«403958_j78142634983506_1_alg».proof.Proof.RefRead
import proofs.«403958_j78142634983506_1_alg».proof.Proof.RefOps
import proofs.«403958_j78142634983506_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Trunk

open Cert.ReferenceIdeal Cert.ReferenceIdeal.Gen Cert.ReferenceIdeal.RunRead Cert.ReferenceIdeal.Ops Cert.GcnLink
open Idealize.ShloMosaic Idealize.ShloMosaic.TcCoe Idealize.SL.Sem Idealize.ShloMosaic.ValueIdx

/-! ## The pieces of a layer, over any operands -/

/-- The contraction of features with a weight matrix over the input feature is `lin`. -/
theorem lin_eq (a : FVec Ideal S50000x128 .f32) (w : FVec Ideal S128x128 .f32) :
    val_main_v0 (F := Ideal) a w = lin a w := by
  funext i
  rw [val_main_v0_apply]
  show _ = linAt a w (i 0) (i 1)
  unfold linAt
  refine Finset.sum_congr rfl fun k _ => ?_
  have el : lidx_main_v0 i k = ix2 (i 0) k := funext fun a => Fin.ext (by
    match a with
    | ⟨0, _⟩ => rfl
    | ⟨1, _⟩ => rfl)
  have er : ridx_main_v0 i k = ix2 k (i 1) := funext fun a => Fin.ext (by
    match a with
    | ⟨0, _⟩ => rfl
    | ⟨1, _⟩ => rfl)
  rw [el, er]
  rfl

/-- A bias laid along every row reads, at `(r, j)`, its entry `j`. -/
theorem bias_apply (b : FVec Ideal S128 .f32) (i : S50000x128.Idx) :
    val_main_v16 (F := Ideal) b i = b (ix1 (i 1)) := by
  rw [val_main_v16_apply, val_main_v15_apply]
  congr 1
  funext a
  match a with
  | ⟨0, _⟩ => rfl

/-- The zero splat is zero at every entry. -/
theorem zero_apply (i : S50000x128.Idx) : val_main_call0_v0 (F := Ideal) i = (0 : EReal) := by
  rw [val_main_call0_v0_apply, val_main_call0_cst_apply]
  exact Ideal.ofBits_zero_f32

/-- A bias added to every row, then the maximum with zero, is `act`. -/
theorem act_eq (a : FVec Ideal S50000x128 .f32) (b : FVec Ideal S128 .f32) :
    maximumf (addf a (val_main_v16 (F := Ideal) b)) (val_main_call0_v0 (F := Ideal)) = act a (fun k => b (ix1 k)) := by
  funext i
  refine (maximumf_apply _ _ i).trans ?_
  rw [addf_apply, bias_apply, zero_apply]
  rfl

/-- A bias added to every row is `shift`. -/
theorem shift_eq (a : FVec Ideal S50000x128 .f32) (b : FVec Ideal S128 .f32) :
    addf a (val_main_v16 (F := Ideal) b) = shift a (fun k => b (ix1 k)) := by
  funext i
  refine (addf_apply _ _ i).trans ?_
  rw [bias_apply]
  rfl

/-! ## The three layers, stage by stage -/

section Stages
variable (x0 : FVec Ideal S50000x128 .f32) (x1 : IVec S2x800000 32) (x3 : FVec Ideal S128x128 .f32) (x4 : FVec Ideal S128 .f32)
  (x5 : FVec Ideal S128x128 .f32) (x6 : FVec Ideal S128 .f32) (x7 : FVec Ideal S128x128 .f32) (x8 : FVec Ideal S128 .f32)

/-- The first layer's gather along the edges and sum into the destination rows is the aggregation of its product. -/
theorem agg1 : val_main_v14 (F := Ideal) x0 x1 x3 = aggE (F := Ideal) x1 (val_main_v0 (F := Ideal) x0 x3) := rfl
/-- The first layer after its bias and rectifier. -/
theorem act1 : val_main_v18 (F := Ideal) x0 x1 x3 x4 = act (val_main_v14 (F := Ideal) x0 x1 x3) (fun k => x4 (ix1 k)) :=
  act_eq _ x4

/-- The second layer's product. -/
theorem lin2 : val_main_v19 (F := Ideal) x0 x1 x3 x4 x5 = lin (val_main_v18 (F := Ideal) x0 x1 x3 x4) x5 :=
  lin_eq _ x5
/-- The second layer's aggregation. -/
theorem agg2 : val_main_v33 (F := Ideal) x0 x1 x3 x4 x5 = aggE (F := Ideal) x1 (val_main_v19 (F := Ideal) x0 x1 x3 x4 x5) := rfl
/-- The second layer after its bias and rectifier. -/
theorem act2 : val_main_v37 (F := Ideal) x0 x1 x3 x4 x5 x6
    = act (val_main_v33 (F := Ideal) x0 x1 x3 x4 x5) (fun k => x6 (ix1 k)) :=
  act_eq _ x6

/-- The third layer's product. -/
theorem lin3 : val_main_v38 (F := Ideal) x0 x1 x3 x4 x5 x6 x7 = lin (val_main_v37 (F := Ideal) x0 x1 x3 x4 x5 x6) x7 :=
  lin_eq _ x7
/-- The third layer's aggregation. -/
theorem agg3 : val_main_v52 (F := Ideal) x0 x1 x3 x4 x5 x6 x7 = aggE (F := Ideal) x1 (val_main_v38 (F := Ideal) x0 x1 x3 x4 x5 x6 x7) := rfl
/-- The third layer after its bias. -/
theorem shift3 : val_main_v55 (F := Ideal) x0 x1 x3 x4 x5 x6 x7 x8
    = shift (val_main_v52 (F := Ideal) x0 x1 x3 x4 x5 x6 x7) (fun k => x8 (ix1 k)) :=
  shift_eq _ x8

end Stages

/-- The reference's embeddings (its stage 55) are the specification's trunk over the reference's own aggregation. -/
theorem emb_eq (x0 : FVec Ideal S50000x128 .f32) (x1 : IVec S2x800000 32) (x3 : FVec Ideal S128x128 .f32) (x4 : FVec Ideal S128 .f32)
    (x5 : FVec Ideal S128x128 .f32) (x6 : FVec Ideal S128 .f32) (x7 : FVec Ideal S128x128 .f32) (x8 : FVec Ideal S128 .f32) :
    val_main_v55 (F := Ideal) x0 x1 x3 x4 x5 x6 x7 x8
      = trunk (aggE x1) x0 x3 (fun k => x4 (ix1 k)) x5 (fun k => x6 (ix1 k)) x7 (fun k => x8 (ix1 k)) := by
  unfold trunk
  rw [shift3, agg3, lin3, act2, agg2, lin2, act1, agg1, lin_eq]

end Cert.ReferenceIdeal.Trunk

end
-- ==== Proof.RefHead.lean ====
/-
  The reference program's link head is the specification's head on the entrywise product of the two gathered
  endpoint rows of each queried pair: three linear layers with a rectifier after the first two, the two scores
  divided by their norm (kept at least the floor), and the logarithm of their softmax.  The reference takes the
  maximum of the two scores from the bottom element and then once more against the bottom element, which
  changes nothing.
-/
import proofs.«403958_j78142634983506_1_alg».proof.Proof.RefRead
import proofs.«403958_j78142634983506_1_alg».proof.Proof.RefOps
import proofs.«403958_j78142634983506_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Head

open Cert.ReferenceIdeal Cert.ReferenceIdeal.Gen Cert.ReferenceIdeal.RunRead Cert.ReferenceIdeal.Ops Cert.GcnLink
open Idealize.ShloMosaic Idealize.ShloMosaic.TcCoe Idealize.SL.Sem Idealize.ShloMosaic.ValueIdx

variable (x0 : FVec Ideal S50000x128 .f32) (x1 : IVec S2x800000 32) (x2 : IVec S100000x2 32) (x3 : FVec Ideal S128x128 .f32) (x4 : FVec Ideal S128 .f32)
  (x5 : FVec Ideal S128x128 .f32) (x6 : FVec Ideal S128 .f32) (x7 : FVec Ideal S128x128 .f32) (x8 : FVec Ideal S128 .f32)
  (x9 : FVec Ideal S128x128 .f32) (x10 : FVec Ideal S128 .f32) (x11 : FVec Ideal S128x128 .f32) (x12 : FVec Ideal S128 .f32)
  (x13 : FVec Ideal S128x2 .f32) (x14 : FVec Ideal S2 .f32)

/-! ## The pair features -/

/-- The first column of the pair list, as gather start indices. -/
theorem starts_first : val_main_v63 (F := Ideal) x2 = startsQ (firstOf x2) := rfl

/-- The second column of the pair list, as gather start indices. -/
theorem starts_second : val_main_v72 (F := Ideal) x2 = startsQ (secondOf x2) := rfl

/-- The pair features are the entrywise product of the two gathered rows of the embeddings. -/
theorem pairs_eq :
    (val_main_v74 (F := Ideal) x0 x1 x2 x3 x4 x5 x6 x7 x8 : FVec Ideal S100000x128 .f32)
      = mulf (rowsQ (F := Ideal) (val_main_v55 (F := Ideal) x0 x1 x3 x4 x5 x6 x7 x8) (firstOf x2))
             (rowsQ (F := Ideal) (val_main_v55 (F := Ideal) x0 x1 x3 x4 x5 x6 x7 x8) (secondOf x2)) := by
  unfold val_main_v74 val_main_v64 val_main_v73 rowsQ
  rw [starts_first, starts_second]

/-! ## The three linear layers, one queried pair `r` at a time -/

/-- The first hidden layer: the pair's features against column `k` of the weights, the bias, the rectifier. -/
theorem hid1_at (r : Fin 100000) (k : Fin 128) :
    val_main_v79 (F := Ideal) x0 x1 x2 x3 x4 x5 x6 x7 x8 x9 x10 (ix2 r k)
      = hid1At (val_main_v74 (F := Ideal) x0 x1 x2 x3 x4 x5 x6 x7 x8) x9 (fun k => x10 (ix1 k)) r k := by
  rw [val_main_v79_apply, val_main_v78_apply, val_main_v75_apply, val_main_v77_apply, val_main_v76_apply,
    val_main_call2_v0_apply, val_main_call2_cst_apply]
  have el : ∀ a : Fin 128, lidx_main_v75 (ix2 r k) a = ix2 r a := fun a =>
    funext fun ax => Fin.ext (by match ax with | ⟨0, _⟩ => rfl | ⟨1, _⟩ => rfl)
  have er : ∀ a : Fin 128, ridx_main_v75 (ix2 r k) a = ix2 a k := fun a =>
    funext fun ax => Fin.ext (by match ax with | ⟨0, _⟩ => rfl | ⟨1, _⟩ => rfl)
  have eb : idx_main_v76 (idx_main_v77 (ix2 r k)) = ix1 k :=
    funext fun ax => Fin.ext (by match ax with | ⟨0, _⟩ => rfl)
  simp only [el, er, eb, Ideal.maximumf_def, Ideal.addf_def, Ideal.ofBits_def, Ideal.ofBits_zero_f32]
  rfl

/-- The second hidden layer: the first hidden layer against column `k` of the weights, the bias, the rectifier. -/
theorem hid2_at (r : Fin 100000) (k : Fin 128) :
    val_main_v84 (F := Ideal) x0 x1 x2 x3 x4 x5 x6 x7 x8 x9 x10 x11 x12 (ix2 r k)
      = hid2At (val_main_v74 (F := Ideal) x0 x1 x2 x3 x4 x5 x6 x7 x8) x9 (fun k => x10 (ix1 k)) x11 (fun k => x12 (ix1 k)) r k := by
  rw [val_main_v84_apply, val_main_v83_apply, val_main_v80_apply, val_main_v82_apply, val_main_v81_apply,
    val_main_call3_v0_apply, val_main_call3_cst_apply]
  have el : ∀ a : Fin 128, lidx_main_v80 (ix2 r k) a = ix2 r a := fun a =>
    funext fun ax => Fin.ext (by match ax with | ⟨0, _⟩ => rfl | ⟨1, _⟩ => rfl)
  have er : ∀ a : Fin 128, ridx_main_v80 (ix2 r k) a = ix2 a k := fun a =>
    funext fun ax => Fin.ext (by match ax with | ⟨0, _⟩ => rfl | ⟨1, _⟩ => rfl)
  have eb : idx_main_v81 (idx_main_v82 (ix2 r k)) = ix1 k :=
    funext fun ax => Fin.ext (by match ax with | ⟨0, _⟩ => rfl)
  simp only [el, er, eb, hid1_at, Ideal.maximumf_def, Ideal.addf_def, Ideal.ofBits_def, Ideal.ofBits_zero_f32]
  rfl

/-- The two raw scores: the second hidden layer against column `j` of the last weights, and the last bias. -/
theorem scores_at (r : Fin 100000) (j : Fin 2) :
    val_main_v88 (F := Ideal) x0 x1 x2 x3 x4 x5 x6 x7 x8 x9 x10 x11 x12 x13 x14 (ix2 r j)
      = scoresAt (val_main_v74 (F := Ideal) x0 x1 x2 x3 x4 x5 x6 x7 x8) x9 (fun k => x10 (ix1 k)) x11 (fun k => x12 (ix1 k)) x13 (fun k => x14 (ix1 k)) r j := by
  rw [val_main_v88_apply, val_main_v85_apply, val_main_v87_apply, val_main_v86_apply]
  have el : ∀ a : Fin 128, lidx_main_v85 (ix2 r j) a = ix2 r a := fun a =>
    funext fun ax => Fin.ext (by match ax with | ⟨0, _⟩ => rfl | ⟨1, _⟩ => rfl)
  have er : ∀ a : Fin 128, ridx_main_v85 (ix2 r j) a = ix2 a j := fun a =>
    funext fun ax => Fin.ext (by match ax with | ⟨0, _⟩ => rfl | ⟨1, _⟩ => rfl)
  have eb : idx_main_v86 (idx_main_v87 (ix2 r j)) = ix1 j :=
    funext fun ax => Fin.ext (by match ax with | ⟨0, _⟩ => rfl)
  simp only [el, er, eb, hid2_at, Ideal.addf_def]
  rfl

/-! ## The scores divided by their norm -/

/-- The two scores of pair `r` divided by their Euclidean norm, the norm kept at least the floor. -/
theorem unit_at (r : Fin 100000) (j : Fin 2) :
    val_main_v93 (F := Ideal) x0 x1 x2 x3 x4 x5 x6 x7 x8 x9 x10 x11 x12 x13 x14 (ix2 r j)
      = unitAt (scoresAt (val_main_v74 (F := Ideal) x0 x1 x2 x3 x4 x5 x6 x7 x8) x9 (fun k => x10 (ix1 k)) x11 (fun k => x12 (ix1 k)) x13 (fun k => x14 (ix1 k)) r) j := by
  rw [val_main_v93_apply, val_main_v92_apply, val_main_v91_apply, val_main_v89_apply, val_main_call4_v2_apply,
    val_main_call4_v1_apply, val_main_v90_apply, val_main_cst_11_apply, val_main_call4_cst_apply]
  have es : ∀ k : Fin 2, idx_main_call4_v1 (idx_main_call4_v2 (idx_main_v92 (ix2 r j))) k = ix2 r k := fun k =>
    funext fun ax => Fin.ext (by match ax with | ⟨0, _⟩ => rfl | ⟨1, _⟩ => rfl)
  have hsum : (∑ k : Fin 2, val_main_call4_v0 (F := Ideal) x0 x1 x2 x3 x4 x5 x6 x7 x8 x9 x10 x11 x12 x13 x14
        (idx_main_call4_v1 (idx_main_call4_v2 (idx_main_v92 (ix2 r j))) k))
      = ∑ k : Fin 2, (scoresAt (val_main_v74 (F := Ideal) x0 x1 x2 x3 x4 x5 x6 x7 x8) x9 (fun k => x10 (ix1 k)) x11 (fun k => x12 (ix1 k)) x13 (fun k => x14 (ix1 k)) r) k * (scoresAt (val_main_v74 (F := Ideal) x0 x1 x2 x3 x4 x5 x6 x7 x8) x9 (fun k => x10 (ix1 k)) x11 (fun k => x12 (ix1 k)) x13 (fun k => x14 (ix1 k)) r) k :=
    Finset.sum_congr rfl fun k _ => by
      rw [es k, val_main_call4_v0_apply, scores_at]; rfl
  rw [hsum, scores_at]
  generalize (scoresAt (val_main_v74 (F := Ideal) x0 x1 x2 x3 x4 x5 x6 x7 x8) x9 (fun k => x10 (ix1 k)) x11 (fun k => x12 (ix1 k)) x13 (fun k => x14 (ix1 k)) r) = s
  unfold unitAt Cert.GcnLink.floor
  show Ideal.div (s j) (max (Ideal.sqrt (Ideal.ofBits .f32 0x00000000#32 + ∑ k : Fin 2, s k * s k))
    (Ideal.ofBits .f32 0x2B8CBCCC#32)) = _
  rw [Ideal.ofBits_zero_f32, zero_add]

/-! ## The logarithm of the softmax -/

/-- A pair's index with the score coordinate `k` put back on the reduced axis. -/
theorem lift_pair (h : S100000x2.Reduces [1] S100000) (r : Fin 100000) (k : Fin (S100000x2.size 1)) :
    h.lift (ix1 r) k = ix2 r (⟨k.val, k.isLt⟩ : Fin 2) := by
  funext c; apply Fin.ext
  fin_cases c <;> rfl

/-- The word of minus infinity denotes the bottom element. -/
theorem ofBits_bot : Ideal.ofBits .f32 0xFF800000#32 = (⊥ : EReal) := by simp [Ideal.ofBits, Ideal.ieee]

/-- The larger of the two normalised scores of pair `r`: the reference folds the maximum over the score axis from the
    bottom element and takes the maximum with the bottom element once more, which changes nothing. -/
theorem top_at (r : Fin 100000) :
    val_main_call5_v2 (F := Ideal) x0 x1 x2 x3 x4 x5 x6 x7 x8 x9 x10 x11 x12 x13 x14 (ix1 r) = topOf (unitAt (scoresAt (val_main_v74 (F := Ideal) x0 x1 x2 x3 x4 x5 x6 x7 x8) x9 (fun k => x10 (ix1 k)) x11 (fun k => x12 (ix1 k)) x13 (fun k => x14 (ix1 k)) r)) := by
  rw [val_main_call5_v2_apply, val_main_call5_v1_apply, val_main_call5_cst_0_apply]
  unfold val_main_call5_v0
  have hU : ∀ k : Fin 2, val_main_v93 (F := Ideal) x0 x1 x2 x3 x4 x5 x6 x7 x8 x9 x10 x11 x12 x13 x14 (ix2 r k) = (unitAt (scoresAt (val_main_v74 (F := Ideal) x0 x1 x2 x3 x4 x5 x6 x7 x8) x9 (fun k => x10 (ix1 k)) x11 (fun k => x12 (ix1 k)) x13 (fun k => x14 (ix1 k)) r)) k :=
    fun k => unit_at x0 x1 x2 x3 x4 x5 x6 x7 x8 x9 x10 x11 x12 x13 x14 r k
  generalize val_main_v93 (F := Ideal) x0 x1 x2 x3 x4 x5 x6 x7 x8 x9 x10 x11 x12 x13 x14 = y at hU ⊢
  generalize (unitAt (scoresAt (val_main_v74 (F := Ideal) x0 x1 x2 x3 x4 x5 x6 x7 x8) x9 (fun k => x10 (ix1 k)) x11 (fun k => x12 (ix1 k)) x13 (fun k => x14 (ix1 k)) r)) = u at hU ⊢
  have hred : S100000x2.Reduces [1] S100000 := by decide
  have hfold := Host.reduce_eq_fold_single (α := Ideal .f32) (s := S100000x2) (t := S100000) (a := 1) (u := S_)
    (FloatOps.maximumf (F := Ideal) (φ := .f32)) y (val_main_call5_cst (F := Ideal)) reducesTo_S100000x2_S100000_d1 hred h_S_ (ix1 r)
  have hf : (y ∘ hred.lift (ix1 r)) = fun k : Fin 2 => u k :=
    funext fun k => (congrArg y (lift_pair hred r k)).trans (hU _)
  rw [hf] at hfold
  refine (congrArg (FloatOps.maximumf (F := Ideal) (φ := .f32) (FloatOps.ofBits .f32 0xFF800000#32)) hfold).trans ?_
  unfold topOf
  show max (Ideal.ofBits .f32 0xFF800000#32)
      (Finset.fold max (Ideal.ofBits .f32 0xFF800000#32) (fun k : Fin 2 => u k) Finset.univ)
    = Finset.fold max ⊥ u Finset.univ
  rw [ofBits_bot, max_bot_left]

/-- The logarithm of the softmax of the two normalised scores of pair `r`: each score less the larger one, less the
    logarithm of the sum of the exponentials of those differences. -/
theorem logsoft_at (r : Fin 100000) (j : Fin 2) :
    val_main_v94 (F := Ideal) x0 x1 x2 x3 x4 x5 x6 x7 x8 x9 x10 x11 x12 x13 x14 (ix2 r j) = logSoftAt (unitAt (scoresAt (val_main_v74 (F := Ideal) x0 x1 x2 x3 x4 x5 x6 x7 x8) x9 (fun k => x10 (ix1 k)) x11 (fun k => x12 (ix1 k)) x13 (fun k => x14 (ix1 k)) r)) j := by
  rw [val_main_v94_apply, val_main_call5_v5_apply, val_main_call5_v10_apply, val_main_call5_v9_apply,
    val_main_call5_v8_apply, val_main_call5_v7_apply, val_main_call5_v4_apply, val_main_call5_v3_apply,
    val_main_call5_cst_1_apply]
  have e3 : ∀ k : Fin 2, idx_main_call5_v3 (idx_main_call5_v4 (ix2 r k)) = ix1 r := fun k =>
    funext fun ax => Fin.ext (by match ax with | ⟨0, _⟩ => rfl)
  have e7 : ∀ k : Fin 2, idx_main_call5_v7 (idx_main_call5_v8 (idx_main_call5_v10 (ix2 r j))) k = ix2 r k := fun k =>
    funext fun ax => Fin.ext (by match ax with | ⟨0, _⟩ => rfl | ⟨1, _⟩ => rfl)
  have hsum : (∑ k : Fin 2, val_main_call5_v6 (F := Ideal) x0 x1 x2 x3 x4 x5 x6 x7 x8 x9 x10 x11 x12 x13 x14
        (idx_main_call5_v7 (idx_main_call5_v8 (idx_main_call5_v10 (ix2 r j))) k))
      = ∑ k : Fin 2, Ideal.exp ((unitAt (scoresAt (val_main_v74 (F := Ideal) x0 x1 x2 x3 x4 x5 x6 x7 x8) x9 (fun k => x10 (ix1 k)) x11 (fun k => x12 (ix1 k)) x13 (fun k => x14 (ix1 k)) r)) k - topOf (unitAt (scoresAt (val_main_v74 (F := Ideal) x0 x1 x2 x3 x4 x5 x6 x7 x8) x9 (fun k => x10 (ix1 k)) x11 (fun k => x12 (ix1 k)) x13 (fun k => x14 (ix1 k)) r))) :=
    Finset.sum_congr rfl fun k _ => by
      rw [e7 k, val_main_call5_v6_apply, val_main_call5_v5_apply, val_main_call5_v4_apply, val_main_call5_v3_apply,
        e3 k, unit_at, top_at]
      generalize (unitAt (scoresAt (val_main_v74 (F := Ideal) x0 x1 x2 x3 x4 x5 x6 x7 x8) x9 (fun k => x10 (ix1 k)) x11 (fun k => x12 (ix1 k)) x13 (fun k => x14 (ix1 k)) r)) = u
      rfl
  rw [hsum, e3 j, unit_at, top_at]
  generalize (unitAt (scoresAt (val_main_v74 (F := Ideal) x0 x1 x2 x3 x4 x5 x6 x7 x8) x9 (fun k => x10 (ix1 k)) x11 (fun k => x12 (ix1 k)) x13 (fun k => x14 (ix1 k)) r)) = u
  unfold logSoftAt
  show (u j - topOf u) - Ideal.log (Ideal.ofBits .f32 0x00000000#32 + ∑ k : Fin 2, Ideal.exp (u k - topOf u)) = _
  rw [Ideal.ofBits_zero_f32, zero_add]

/-! ## The head -/
/-- The reference's scores before the leading axis is added (its stage 94) are the specification's head on the
    product of the two gathered rows of the embeddings (its stage 55). -/
theorem scores_eq (x0 : FVec Ideal S50000x128 .f32) (x1 : IVec S2x800000 32) (x2 : IVec S100000x2 32) (x3 : FVec Ideal S128x128 .f32) (x4 : FVec Ideal S128 .f32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x2 .f32) (x14 : FVec Ideal S2 .f32) :
    val_main_v94 (F := Ideal) x0 x1 x2 x3 x4 x5 x6 x7 x8 x9 x10 x11 x12 x13 x14
      = head (mulf (rowsQ (val_main_v55 (F := Ideal) x0 x1 x3 x4 x5 x6 x7 x8) (firstOf x2))
                   (rowsQ (val_main_v55 (F := Ideal) x0 x1 x3 x4 x5 x6 x7 x8) (secondOf x2)))
          x9 (fun k => x10 (ix1 k)) x11 (fun k => x12 (ix1 k)) x13 (fun k => x14 (ix1 k)) := by
  funext i
  obtain ⟨r, j, rfl⟩ : ∃ (r : Fin 100000) (j : Fin 2), i = ix2 r j := ⟨i 0, i 1, eq_ix2 i⟩
  rw [logsoft_at, pairs_eq]
  rfl

end Cert.ReferenceIdeal.Head

end
-- ==== Proof.RefValue.lean ====
/-
  The reference program's result as one function of its arguments: the head, under a leading axis of extent
  one, of the products of the two gathered rows of the node embeddings, the embeddings being the three-layer
  trunk over the aggregation along the edges.
-/
import proofs.«403958_j78142634983506_1_alg».proof.Proof.RefRead
import proofs.«403958_j78142634983506_1_alg».proof.Proof.RefOps
import proofs.«403958_j78142634983506_1_alg».proof.Proof.RefTrunk
import proofs.«403958_j78142634983506_1_alg».proof.Proof.RefHead
import proofs.«403958_j78142634983506_1_alg».proof.Proof.Spec

set_option maxRecDepth 16384

noncomputable section

namespace Cert.ReferenceIdeal.Value2

open Cert.ReferenceIdeal Cert.ReferenceIdeal.Gen Cert.ReferenceIdeal.RunRead Cert.ReferenceIdeal.Ops Cert.GcnLink
open Cert.ReferenceIdeal.Facts₀ Cert.ReferenceIdeal.Facts
open Idealize.ShloMosaic Idealize.ShloMosaic.TcCoe Idealize.SL.Sem Idealize.ShloMosaic.ValueIdx

/-- The scores under one leading axis of extent one. -/
def lead (s : FVec Ideal S100000x2 .f32) : FVec Ideal S1x100000x2 .f32 :=
  broadcastInDim S1x100000x2 ![1, 2] Cert.ReferenceIdeal.Facts₀.bcast_S100000x2_S1x100000x2_1_2 s

/-- The node embeddings as a function of the features, the edge list and the three layers' weights and biases. -/
def emb (x : FVec Ideal S50000x128 .f32) (adj : IVec S2x800000 32) (w1 : FVec Ideal S128x128 .f32) (b1 : FVec Ideal S128 .f32)
    (w2 : FVec Ideal S128x128 .f32) (b2 : FVec Ideal S128 .f32) (w3 : FVec Ideal S128x128 .f32) (b3 : FVec Ideal S128 .f32) :
    FVec Ideal S50000x128 .f32 :=
  trunk (aggE adj) x w1 (fun k => b1 (ix1 k)) w2 (fun k => b2 (ix1 k)) w3 (fun k => b3 (ix1 k))

/-- The result as a function of the fifteen arguments. -/
def result (x : FVec Ideal S50000x128 .f32) (adj : IVec S2x800000 32) (q : IVec S100000x2 32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) (p1 : FVec Ideal S128x128 .f32) (q1 : FVec Ideal S128 .f32)
    (p2 : FVec Ideal S128x128 .f32) (q2 : FVec Ideal S128 .f32) (p3 : FVec Ideal S128x2 .f32) (q3 : FVec Ideal S2 .f32) :
    FVec Ideal S1x100000x2 .f32 :=
  lead (head (mulf (rowsQ (emb x adj w1 b1 w2 b2 w3 b3) (firstOf q)) (rowsQ (emb x adj w1 b1 w2 b2 w3 b3) (secondOf q)))
    p1 (fun k => q1 (ix1 k)) p2 (fun k => q2 (ix1 k)) p3 (fun k => q3 (ix1 k)))

/-- The reference's last stage is the result of its arguments. -/
theorem stage_eq (x0 : FVec Ideal S50000x128 .f32) (x1 : IVec S2x800000 32) (x2 : IVec S100000x2 32) (x3 : FVec Ideal S128x128 .f32) (x4 : FVec Ideal S128 .f32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x2 .f32) (x14 : FVec Ideal S2 .f32) :
    val_main_v95 (F := Ideal) x0 x1 x2 x3 x4 x5 x6 x7 x8 x9 x10 x11 x12 x13 x14
      = result x0 x1 x2 x3 x4 x5 x6 x7 x8 x9 x10 x11 x12 x13 x14 := by
  unfold val_main_v95 result lead emb
  rw [Head.scores_eq, Trunk.emb_eq]

variable (m : (ℓ : Loc nD τ sig) → Buf (Elt Ideal) ℓ)

/-- The result of the arguments as launched on core `c`. -/
def resultOf (c : Dev nD) : Buf (Elt Ideal) ((c.tc : Thread nD τ).loc main_v95) :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

/-- The run's term for the result buffer is the result of the arguments. -/
theorem res_eq (c : Dev nD) : Cert.ReferenceIdeal.RunValue.res_out0 (F := Ideal) m c = resultOf m c :=
  (val_main_v95_eq (F := Ideal) m c).trans (stage_eq ..)

end Cert.ReferenceIdeal.Value2

end
-- ==== Proof.Bridge.lean ====
/-
  The two programs name the same index and aggregation operations over the same literal shapes: the edge
  list's rows, the pair list's columns, row numbers as gather start indices, the row gather, the sum of
  gathered rows into their destination rows, the leading axis of extent one.  So the two result functions,
  which apply the same trunk and the same head to them, are one function of the fifteen arguments.
-/
import proofs.«403958_j78142634983506_1_alg».proof.Proof.KernelValue
import proofs.«403958_j78142634983506_1_alg».proof.Proof.RefValue

set_option maxRecDepth 16384

noncomputable section

namespace Cert.Bridge

open Idealize.ShloMosaic Idealize.ShloMosaic.TcCoe

theorem srcOf_eq (adj : IVec Cert.KernelIdeal.S2x800000 32) :
    Cert.ReferenceIdeal.Ops.srcOf adj = Cert.KernelIdeal.Ops.srcOf adj := rfl
theorem dstOf_eq (adj : IVec Cert.KernelIdeal.S2x800000 32) :
    Cert.ReferenceIdeal.Ops.dstOf adj = Cert.KernelIdeal.Ops.dstOf adj := rfl
theorem firstOf_eq (q : IVec Cert.KernelIdeal.S100000x2 32) :
    Cert.ReferenceIdeal.Ops.firstOf q = Cert.KernelIdeal.Ops.firstOf q := rfl
theorem secondOf_eq (q : IVec Cert.KernelIdeal.S100000x2 32) :
    Cert.ReferenceIdeal.Ops.secondOf q = Cert.KernelIdeal.Ops.secondOf q := rfl
theorem rowsE_eq (h : FVec Ideal Cert.KernelIdeal.S50000x128 .f32) (s : IVec Cert.KernelIdeal.S800000 32) :
    Cert.ReferenceIdeal.Ops.rowsE h s = Cert.KernelIdeal.Ops.rowsE h s := rfl
theorem sumE_eq (r : FVec Ideal Cert.KernelIdeal.S800000x128 .f32) (d : IVec Cert.KernelIdeal.S800000 32) :
    Cert.ReferenceIdeal.Ops.sumE r d = Cert.KernelIdeal.Ops.sumE r d := rfl
theorem rowsQ_eq (h : FVec Ideal Cert.KernelIdeal.S50000x128 .f32) (s : IVec Cert.KernelIdeal.S100000 32) :
    Cert.ReferenceIdeal.Ops.rowsQ h s = Cert.KernelIdeal.Ops.rowsQ h s := rfl
theorem lead_eq (s : FVec Ideal Cert.KernelIdeal.S100000x2 .f32) :
    Cert.ReferenceIdeal.Value2.lead s = Cert.KernelIdeal.Ops.lead s := rfl

/-- The aggregation along the edges is one function in the two programs. -/
theorem agg_eq (adj : IVec Cert.KernelIdeal.S2x800000 32) :
    (Cert.ReferenceIdeal.Ops.aggE adj : FVec Ideal Cert.KernelIdeal.S50000x128 .f32 → FVec Ideal Cert.KernelIdeal.S50000x128 .f32)
      = fun h => Cert.KernelIdeal.Ops.sumE (Cert.KernelIdeal.Ops.rowsE h (Cert.KernelIdeal.Ops.srcOf adj)) (Cert.KernelIdeal.Ops.dstOf adj) := by
  funext h
  unfold Cert.ReferenceIdeal.Ops.aggE
  rw [srcOf_eq, dstOf_eq, rowsE_eq, sumE_eq]

/-- The embeddings are one function in the two programs. -/
theorem emb_eq (x : FVec Ideal Cert.KernelIdeal.S50000x128 .f32) (adj : IVec Cert.KernelIdeal.S2x800000 32)
    (w1 : FVec Ideal Cert.KernelIdeal.S128x128 .f32) (b1 : FVec Ideal Cert.KernelIdeal.S128 .f32) (w2 : FVec Ideal Cert.KernelIdeal.S128x128 .f32) (b2 : FVec Ideal Cert.KernelIdeal.S128 .f32)
    (w3 : FVec Ideal Cert.KernelIdeal.S128x128 .f32) (b3 : FVec Ideal Cert.KernelIdeal.S128 .f32) :
    Cert.ReferenceIdeal.Value2.emb x adj w1 b1 w2 b2 w3 b3 = Cert.KernelIdeal.Value.emb x adj w1 b1 w2 b2 w3 b3 := by
  unfold Cert.ReferenceIdeal.Value2.emb Cert.KernelIdeal.Value.emb
  rw [agg_eq]

/-- The result is one function of the fifteen arguments in the two programs. -/
theorem result_eq (x : FVec Ideal Cert.KernelIdeal.S50000x128 .f32) (adj : IVec Cert.KernelIdeal.S2x800000 32) (q : IVec Cert.KernelIdeal.S100000x2 32)
    (w1 : FVec Ideal Cert.KernelIdeal.S128x128 .f32) (b1 : FVec Ideal Cert.KernelIdeal.S128 .f32) (w2 : FVec Ideal Cert.KernelIdeal.S128x128 .f32) (b2 : FVec Ideal Cert.KernelIdeal.S128 .f32)
    (w3 : FVec Ideal Cert.KernelIdeal.S128x128 .f32) (b3 : FVec Ideal Cert.KernelIdeal.S128 .f32) (p1 : FVec Ideal Cert.KernelIdeal.S128x128 .f32) (q1 : FVec Ideal Cert.KernelIdeal.S128 .f32)
    (p2 : FVec Ideal Cert.KernelIdeal.S128x128 .f32) (q2 : FVec Ideal Cert.KernelIdeal.S128 .f32) (p3 : FVec Ideal Cert.KernelIdeal.S128x2 .f32) (q3 : FVec Ideal Cert.KernelIdeal.S2 .f32) :
    Cert.ReferenceIdeal.Value2.result x adj q w1 b1 w2 b2 w3 b3 p1 q1 p2 q2 p3 q3
      = Cert.KernelIdeal.Value.result x adj q w1 b1 w2 b2 w3 b3 p1 q1 p2 q2 p3 q3 := by
  unfold Cert.ReferenceIdeal.Value2.result Cert.KernelIdeal.Value.result
  rw [emb_eq, firstOf_eq, secondOf_eq, rowsQ_eq, rowsQ_eq, lead_eq]

end Cert.Bridge

end
-- ==== Proof.lean ====
/-
  The certificate of the graph link predictor: a three-layer graph convolution (each layer a linear map on
  every node's features, a sum of the transformed rows over the node's incoming edges, a bias, and after the
  first two layers a rectifier) followed, for each queried pair of nodes, by a small network on the entrywise
  product of the two node embeddings whose two scores are normalised by their Euclidean norm and returned as
  the logarithm of their softmax.

  The kernel program computes the linear maps, the bias and rectifier steps and the whole pair network in five
  pipelined regions over blocks of rows, and leaves the gathers and the sums along the edges to host operations;
  the reference is host operations throughout.  On the extended reals the two are the same operations in the
  same order: a block's rows of a product are rows of the whole product, a change of float format is the
  identity, and nothing is distributed or cancelled.  The one difference is at a gathered row number outside the
  50000-row table: the kernel program tests the number and fills such a row with a fixed pattern, the reference
  clamps it.  The precondition, besides the finiteness of every float input, keeps every gathered row number
  inside the table (counting from either end); there the test always holds and the fill is never used.

  The three frames: the two kernel programs' are their whole frame certificates; the reference's is its run with
  the result dropped.  The ledger of idealization steps is empty.  The value claim: both runs end with the
  result buffer at one function of the fifteen arguments.
-/
import proofs.«403958_j78142634983506_1_alg».proof.Defs
import proofs.«403958_j78142634983506_1_alg».proof.Proof.Gen.Kernel
import proofs.«403958_j78142634983506_1_alg».proof.Proof.Gen.Kernel.Skeleton
import proofs.«403958_j78142634983506_1_alg».proof.Proof.Gen.Kernel.Launch
import proofs.«403958_j78142634983506_1_alg».proof.Proof.Gen.Kernel.Points
import proofs.«403958_j78142634983506_1_alg».proof.Proof.Gen.Kernel.Frame
import proofs.«403958_j78142634983506_1_alg».proof.Proof.Gen.KernelIdeal
import proofs.«403958_j78142634983506_1_alg».proof.Proof.Gen.KernelIdeal.Skeleton
import proofs.«403958_j78142634983506_1_alg».proof.Proof.Gen.KernelIdeal.Launch
import proofs.«403958_j78142634983506_1_alg».proof.Proof.Gen.KernelIdeal.Points
import proofs.«403958_j78142634983506_1_alg».proof.Proof.Gen.KernelIdeal.Frame
import proofs.«403958_j78142634983506_1_alg».proof.Proof.Gen.ReferenceIdeal
import proofs.«403958_j78142634983506_1_alg».proof.Proof.Gen.Pre_finite_inputs
import proofs.«403958_j78142634983506_1_alg».proof.Proof.RefRun
import proofs.«403958_j78142634983506_1_alg».proof.Proof.KernelValue
import proofs.«403958_j78142634983506_1_alg».proof.Proof.RefValue
import proofs.«403958_j78142634983506_1_alg».proof.Proof.Bridge
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- No idealization step was applied to the kernel program: nothing to preserve. -/
theorem preserves : Cert.preserves_Kernel_KernelIdeal := trivial

/-- From memories that agree on the arguments, under the precondition, both programs end with the result
    buffer at the same function of the arguments. -/
theorem algebraic : Cert.algebraic_KernelIdeal_ReferenceIdeal := by
  intro m ρ m' ρ' hpre hagree
  refine ⟨fun c => Cert.KernelIdeal.Value.resultOf m c, Cert.KernelIdeal.Value.run m ρ hpre, ?_⟩
  refine (θ_run Cert.ReferenceIdeal.defs _ _).mono (fun _ h c => ⟨(h c).1.trans ?_, (h c).2⟩)
    (Cert.ReferenceIdeal.RunValue.run (F := Ideal) m' ρ')
  obtain ⟨a0, a1, a2, a3, a4, a5, a6, a7, a8, a9, a10, a11, a12, a13, a14⟩ := hagree c
  refine (Cert.ReferenceIdeal.Value2.res_eq m' c).trans ?_
  unfold Cert.ReferenceIdeal.Value2.resultOf Cert.KernelIdeal.Value.resultOf
  rw [a0, a1, a2, a3, a4, a5, a6, a7, a8, a9, a10, a11, a12, a13, a14]
  exact Cert.Bridge.result_eq ..

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
